-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1000000 32) (main_arg2 : IVec S1000000 32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 46
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S100000, .f32⟩
  | .hbm, ⟨11, _⟩ => ⟨S1000000x1, .i32⟩
  | .hbm, ⟨12, _⟩ => ⟨S100000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S100000, .f32⟩
  | .hbm, ⟨11, _⟩ => ⟨S1000000x1, .i32⟩
  | .hbm, ⟨12, _⟩ => ⟨S100000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_7 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call1_cst : Ref sig .tc := ⟨.hbm, 81, rfl⟩
abbrev main_call1_v0 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KStatsRegion.lean ====
/-
  The first kernel region (the batch statistics): over the 20 grid points the body computes a block of 5000 rows of
  `h = agg·Wᵀ + b` and adds its column sums and its column sums of squares into two 1×128 scratch buffers, which it
  zeroes at the first point and copies to the two outputs at the last. What the scratch buffers hold after `n` points
  is a recursion on `n` over the blocks the windows stage (`sums`, `sumSqs`); the region's invariant carries it from
  point to point, entered from and returned to "the scratch at anything".
  Stated at any float instance and at any contents `V` of the buffers on entry.
-/
import proofs.«148803_j76647986365164_1_alg».proof.Proof.Gen.Kernel.Launch
import proofs.«148803_j76647986365164_1_alg».proof.Proof.Gen.Kernel.Skeleton
import proofs.«148803_j76647986365164_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the two accumulators hold after `n` points -/

/-- The column-sum accumulator after `n` points: the zero splat the first point stores, then one block's column sums
    added per point. -/
def sums (c : Dev nD) : ℕ → Vec F S1x128 .f32
  | 0 => k0_pay1 (F := F)
  | n + 1 => if hn : n < cfg0.N then k0_pay4 (iblk0 V c 0 ⟨n, hn⟩) (iblk0 V c 1 ⟨n, hn⟩) (iblk0 V c 2 ⟨n, hn⟩) (sums c n) else sums c n

/-- The column-sum-of-squares accumulator after `n` points, likewise. -/
def sumSqs (c : Dev nD) : ℕ → Vec F S1x128 .f32
  | 0 => k0_pay2 (F := F)
  | n + 1 => if hn : n < cfg0.N then k0_pay5 (iblk0 V c 0 ⟨n, hn⟩) (iblk0 V c 1 ⟨n, hn⟩) (iblk0 V c 2 ⟨n, hn⟩) (sumSqs c n) else sumSqs c n

/-! ## The region's proof data -/

/-- The two scratch operands, whole scoped buffers of the kernel's own. -/
abbrev scrSum : Memref sig .tc .vmem S1x128 .f32 := Memref.whole cc0_scratch0
abbrev scrSq : Memref sig .tc .vmem S1x128 .f32 := Memref.whole cc0_scratch1

/-- The invariant before point `t`: the two accumulators at what `t` points leave (at anything before the first
    point), every other scoped buffer that is no staging buffer at some contents, the generator register at some state. -/
def PhiAt (c : Dev nD) (t : Fin (cfg0.N + 1)) : sProp 𝕄 :=
  iprop((∃ f0 f1 : Vec F S1x128 .f32, ⌜t.val ≠ 0 → f0 = sums V c t.val ∧ f1 = sumSqs V c t.val⌝
        ∗ owns (c : Thread nD τ) scrSum fullShare f0 ∗ owns (c : Thread nD τ) scrSq fullShare f1)
      ∗ Pipeline.scopedRestBut (Ix := Unit) (Name := ℕ) (U := UR sig nD τ) (Lvl := ℕ) (Val := Elt F) spec0 c [cc0_scratch0, cc0_scratch1]
      ∗ ∃ r, prngReg c r)

/-- The proof data: the arrays as the region finds them; after the body each input's buffer at its block, each output's at
    the accumulator it is a copy of (read only at the last point, where the body stores it); the invariant `PhiAt`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => sums V c (t.val + 1)
    | ⟨4, _⟩ => sumSqs V c (t.val + 1)
  Φ t := PhiAt V c t
  q _ := fullShare
  owed _ := 0

theorem A_eq0 (c : Dev nD) (w : Fin cfg0.W) : (dat0 V c).A w = V c (Pipeline.arrRef spec0 w) := by
  dsimp only [dat0]
theorem after0_3 (c : Dev nD) (t : Fin cfg0.N) : (dat0 V c).after 3 t = sums V c (t.val + 1) := by dsimp only [dat0]
theorem after0_4 (c : Dev nD) (t : Fin cfg0.N) : (dat0 V c).after 4 t = sumSqs V c (t.val + 1) := by dsimp only [dat0]

/-- The class invariant with the two accumulators taken out of the scoped rest as owned memrefs. -/
theorem PhiA_split (c : Dev nD) :
    (Pipeline.ΦA spec0 c : sProp 𝕄)
      = iprop((iprop((∃ f0 : Vec F S1x128 .f32, owns (c : Thread nD τ) scrSum fullShare f0) ∗ (∃ f1 : Vec F S1x128 .f32, owns (c : Thread nD τ) scrSq fullShare f1))
          ∗ Pipeline.scopedRestBut (Ix := Unit) (Name := ℕ) (U := UR sig nD τ) (Lvl := ℕ) (Val := Elt F) spec0 c [cc0_scratch0, cc0_scratch1])
          ∗ ∃ r, prngReg c r) := by
  unfold Pipeline.ΦA
  rw [Pipeline.scopedRest_split_of_list spec0 c [cc0_scratch0, cc0_scratch1] (by decide) (by decide)]
  simp only [Idealize.SL.BI.bigSepL_cons_cons, Idealize.SL.BI.bigSepL_singleton, scrSum, scrSq, owns_whole]
  try rfl

/-- The class invariant (the scratch at anything) gives the invariant before the first point. -/
theorem Phi_in (c : Dev nD) : (Pipeline.ΦA spec0 c : sProp 𝕄) ⊢ (dat0 V c).Φ 0 := by
  rw [show (dat0 V c).Φ 0 = PhiAt V c 0 from rfl, PhiA_split]
  unfold PhiAt
  iintro ⟨⟨⟨⟨%f0, H0⟩, ⟨%f1, H1⟩⟩, Hr⟩, Hg⟩
  isplitl [H0 H1]
  · iexists f0; iexists f1
    isplitr
    · ipureintro; intro h; exact absurd rfl h
    isplitl [H0]
    · iexact H0
    · iexact H1
  isplitl [Hr]
  · iexact Hr
  · iexact Hg

/-- The invariant after the last point gives the class invariant back (the accumulators forgotten). -/
theorem Phi_out (c : Dev nD) : (dat0 V c).Φ (Fin.last cfg0.N) ⊢ (Pipeline.ΦA spec0 c : sProp 𝕄) := by
  rw [show (dat0 V c).Φ (Fin.last cfg0.N) = PhiAt V c (Fin.last cfg0.N) from rfl, PhiA_split]
  unfold PhiAt
  iintro ⟨⟨%f0, %f1, -, H0, H1⟩, Hr, Hg⟩
  isplitl [H0 H1 Hr]
  · isplitl [H0 H1]
    · isplitl [H0]
      · iexists f0; iexact H0
      · iexists f1; iexact H1
    · iexact Hr
  · iexact Hg

/-! ## The body's two conditions, from the grid coordinates -/

/-- The first conditional's condition (the scalar chain substituted): the point is the first. -/
abbrev isFirst (i : grid0.Coords) : Prop :=
  (Scalar.cmpi .ne (Scalar.extui (Scalar.cmpi .eq (BitVec.ofNat 32 (i 0).val) 0#32)) 0#32) = 1#1
/-- The second conditional's condition: the point is the last. -/
abbrev isLast (i : grid0.Coords) : Prop := k0_cond2 i = 1#1

/-- The zero offsets of a whole-buffer access, as the constant function. -/
theorem off00 : (![0, 0] : Fin 2 → Nat) = fun _ => 0 := by
  funext a; fin_cases a <;> rfl

set_option maxHeartbeats 1000000 in
/-- The body at a point that is neither the first nor the last: each accumulator ends at its payload over what it held. -/
theorem body_mid (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (hc0 : ¬isFirst i) (hc1 : ¬isLast i)
    (x0 : Vec F S5000x128 .f32) (x1 : Vec F S128x128 .f32) (x2 : Vec F S1x128 .f32) (s q : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 s) ∗ owns (c : Thread nD τ) arg7 fullShare (k0_pay5 x0 x1 x2 q)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  · iexists _; isplitr
    swap; · iexact H7
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]

set_option maxHeartbeats 1000000 in
/-- The body at the first point: each accumulator is reset (whatever it held), then ends at its payload over the zero splat. -/
theorem body_first (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (hc0 : isFirst i) (hc1 : ¬isLast i)
    (x0 : Vec F S5000x128 .f32) (x1 : Vec F S128x128 .f32) (x2 : Vec F S1x128 .f32) (s q : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 (k0_pay1 (F := F))) ∗ owns (c : Thread nD τ) arg7 fullShare (k0_pay5 x0 x1 x2 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  · iexists _; isplitr
    swap; · iexact H7
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]

set_option maxHeartbeats 1000000 in
/-- The body at the last point: each accumulator ends at its payload over what it held, and each output (whatever it held) at a copy of it. -/
theorem body_last (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (hc0 : ¬isFirst i) (hc1 : isLast i)
    (x0 : Vec F S5000x128 .f32) (x1 : Vec F S128x128 .f32) (x2 : Vec F S1x128 .f32) (s q : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 s) ∗ owns (c : Thread nD τ) arg5 fullShare (k0_pay5 x0 x1 x2 q)
            ∗ owns (c : Thread nD τ) arg6 fullShare (k0_pay4 x0 x1 x2 s) ∗ owns (c : Thread nD τ) arg7 fullShare (k0_pay5 x0 x1 x2 q)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  isplitl [H5]
  · iexists _; isplitr
    swap; · iexact H5
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  isplitl [H6]
  · iexists _; isplitr
    swap; · iexact H6
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  · iexists _; isplitr
    swap; · iexact H7
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]

/-! ## The conditions in closed form, and where the two outputs are idle -/

/-- The first conditional is taken at the first point only — decided over the grid. -/
theorem hfirst : ∀ t : Fin cfg0.N, isFirst (grid0.coords t) ↔ t.val = 0 :=
  (by decide +kernel : ∀ t : Fin grid0.N, isFirst (grid0.coords t) ↔ t.val = 0)
/-- The second conditional is taken at the last point only. -/
theorem hlast : ∀ t : Fin cfg0.N, isLast (grid0.coords t) ↔ t.val = 19 :=
  (by decide +kernel : ∀ t : Fin grid0.N, isLast (grid0.coords t) ↔ t.val = 19)

/-- Off the last point the two outputs are idle and not written back; at it they are live. -/
theorem idleAt0_3 : ∀ t : Fin cfg0.N, ¬isLast (grid0.coords t) → cfg0.idle 3 (grid0.coords t) = true := by decide +kernel
theorem idleAt0_4 : ∀ t : Fin cfg0.N, ¬isLast (grid0.coords t) → cfg0.idle 4 (grid0.coords t) = true := by decide +kernel
theorem noFlush0_3 : ∀ t : Fin cfg0.N, ¬isLast (grid0.coords t) → (cfg0.win 3).flush t = false := by decide +kernel
theorem noFlush0_4 : ∀ t : Fin cfg0.N, ¬isLast (grid0.coords t) → (cfg0.win 4).flush t = false := by decide +kernel
theorem liveAt0_3 : ∀ t : Fin cfg0.N, isLast (grid0.coords t) → cfg0.idle 3 (grid0.coords t) = false := by decide +kernel
theorem liveAt0_4 : ∀ t : Fin cfg0.N, isLast (grid0.coords t) → cfg0.idle 4 (grid0.coords t) = false := by decide +kernel

/-! ## The accumulators' recursion, one step -/

theorem sums_zero (c : Dev nD) : sums V c 0 = k0_pay1 (F := F) := by rw [sums]
theorem sumSqs_zero (c : Dev nD) : sumSqs V c 0 = k0_pay2 (F := F) := by rw [sumSqs]
/-- After point `t` the column-sum accumulator is its payload at the point's blocks over what it held before. -/
theorem sums_succ (c : Dev nD) (t : Fin cfg0.N) :
    sums V c (t.val + 1) = k0_pay4 (iblk0 V c 0 t) (iblk0 V c 1 t) (iblk0 V c 2 t) (sums V c t.val) := by
  rw [sums, dif_pos t.isLt]
theorem sumSqs_succ (c : Dev nD) (t : Fin cfg0.N) :
    sumSqs V c (t.val + 1) = k0_pay5 (iblk0 V c 0 t) (iblk0 V c 1 t) (iblk0 V c 2 t) (sumSqs V c t.val) := by
  rw [sumSqs, dif_pos t.isLt]

/-! ## What the body finds in the inputs' buffers -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not (unfetched, the block
    index has not moved and the body left the block in place). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The obligation at a point -/

/-- Each window's current staging memref at point `t`, as the pipeline passes it to the body, and its wholeness. -/
abbrev ms0 (t : Fin cfg0.N) : Memref sig .tc .vmem S5000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)

/-- What the body is called with at point `t`: the invariant, what the core owes, the five windows' current buffers. -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point. The inputs' buffers hold their blocks; by cases on the point being the first, the last or
    neither, that case's triple applies with the accumulators at what the invariant says (anything at the first
    point); the invariant is rebuilt from one step of the accumulators' recursion; an output off the last point is
    handed back as it was found, at the last point it holds the copy of its accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiAt V c t.succ from rfl, show (dat0 V c).Φ t.castSucc = PhiAt V c t.castSucc from rfl]
  rw [show (dat0 V c).leavesExact 0 t = owns (c : Thread nD τ) (ms0 t) fullShare (iblk0 V c 0 t) from by
        unfold Dat.leavesExact; rw [show cfg0.idle 0 (cfg0.grid.coords t) = false from rfl, after0_0],
      show (dat0 V c).leavesExact 1 t = owns (c : Thread nD τ) (ms1 t) fullShare (iblk0 V c 1 t) from by
        unfold Dat.leavesExact; rw [show cfg0.idle 1 (cfg0.grid.coords t) = false from rfl, after0_1],
      show (dat0 V c).leavesExact 2 t = owns (c : Thread nD τ) (ms2 t) fullShare (iblk0 V c 2 t) from by
        unfold Dat.leavesExact; rw [show cfg0.idle 2 (cfg0.grid.coords t) = false from rfl, after0_2]]
  unfold PhiAt
  simp only [Fin.val_succ, Fin.coe_castSucc]
  rw [sums_succ V c t, sumSqs_succ V c t]
  have hN : t.val < 20 := lt_of_lt_of_eq t.isLt N_0
  by_cases h0 : t.val = 0
  · have hc0 : isFirst (grid0.coords t) := (hfirst t).mpr h0
    have hc1 : ¬isLast (grid0.coords t) := fun h => by have := (hlast t).mp h; omega
    rw [Dat.leavesExact_idle (dat0 V c) 3 t (idleAt0_3 t hc1) (noFlush0_3 t hc1), Dat.leavesExact_idle (dat0 V c) 4 t (idleAt0_4 t hc1) (noFlush0_4 t hc1)]
    rw [h0, sums_zero, sumSqs_zero]
    iintro ⟨⟨⟨%f0, %f1, -, HS0, HS1⟩, Hr, Hg⟩, Ho, ⟨%d0, H0⟩, ⟨%d1, H1⟩, ⟨%d2, H2⟩, H3, H4⟩
    iapply (body_first c (grid0.coords t) (ms0 t) (hs0 t) (ms1 t) (hs1 t) (ms2 t) (hs2 t) (ms3 t) (hs3 t) (ms4 t) (hs4 t) scrSum (Memref.isWhole_whole _) scrSq (Memref.isWhole_whole _) hc0 hc1 (iblk0 V c 0 t) (iblk0 V c 1 t) (iblk0 V c 2 t) f0 f1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1]
      · iexists _; iexists _; isplitr
        · ipureintro; intro _; exact ⟨rfl, rfl⟩
        isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    iexact H4
  · by_cases h1 : t.val = 19
    · have hc0 : ¬isFirst (grid0.coords t) := fun h => h0 ((hfirst t).mp h)
      have hc1 : isLast (grid0.coords t) := (hlast t).mpr h1
      rw [show (dat0 V c).leavesExact 3 t = owns (c : Thread nD τ) (ms3 t) fullShare (sums V c (t.val + 1)) from by
            unfold Dat.leavesExact; rw [liveAt0_3 t hc1, after0_3],
          show (dat0 V c).leavesExact 4 t = owns (c : Thread nD τ) (ms4 t) fullShare (sumSqs V c (t.val + 1)) from by
            unfold Dat.leavesExact; rw [liveAt0_4 t hc1, after0_4]]
      rw [sums_succ V c t, sumSqs_succ V c t]
      iintro ⟨⟨⟨%f0, %f1, %hf, HS0, HS1⟩, Hr, Hg⟩, Ho, ⟨%d0, H0⟩, ⟨%d1, H1⟩, ⟨%d2, H2⟩, ⟨%d3, H3⟩, ⟨%d4, H4⟩⟩
      obtain ⟨rfl, rfl⟩ := hf h0
      iapply (body_last c (grid0.coords t) (ms0 t) (hs0 t) (ms1 t) (hs1 t) (ms2 t) (hs2 t) (ms3 t) (hs3 t) (ms4 t) (hs4 t) scrSum (Memref.isWhole_whole _) scrSq (Memref.isWhole_whole _) hc0 hc1 (iblk0 V c 0 t) (iblk0 V c 1 t) (iblk0 V c 2 t) (sums V c t.val) (sumSqs V c t.val) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · iexists _; iexists _; isplitr
          · ipureintro; intro _; exact ⟨rfl, rfl⟩
          isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc0 : ¬isFirst (grid0.coords t) := fun h => h0 ((hfirst t).mp h)
      have hc1 : ¬isLast (grid0.coords t) := fun h => h1 ((hlast t).mp h)
      rw [Dat.leavesExact_idle (dat0 V c) 3 t (idleAt0_3 t hc1) (noFlush0_3 t hc1), Dat.leavesExact_idle (dat0 V c) 4 t (idleAt0_4 t hc1) (noFlush0_4 t hc1)]
      iintro ⟨⟨⟨%f0, %f1, %hf, HS0, HS1⟩, Hr, Hg⟩, Ho, ⟨%d0, H0⟩, ⟨%d1, H1⟩, ⟨%d2, H2⟩, H3, H4⟩
      obtain ⟨rfl, rfl⟩ := hf h0
      iapply (body_mid c (grid0.coords t) (ms0 t) (hs0 t) (ms1 t) (hs1 t) (ms2 t) (hs2 t) (ms3 t) (hs3 t) (ms4 t) (hs4 t) scrSum (Memref.isWhole_whole _) scrSq (Memref.isWhole_whole _) hc0 hc1 (iblk0 V c 0 t) (iblk0 V c 1 t) (iblk0 V c 2 t) (sums V c t.val) (sumSqs V c t.val) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1]
        · iexists _; iexists _; isplitr
          · ipureintro; intro _; exact ⟨rfl, rfl⟩
          isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := by
  intro t
  rw [bigSep_W0, bigSep_W0]
  exact sound_body V c t

end Cert.Kernel.Stats

end
-- ==== Proof.KApplyRegion.lean ====
/-
  The second kernel region (the normalisation): at each of the 20 grid points the body reads a block of 5000 rows of
  the neighbourhood mean and of the features, the weights, the bias, the column mean and variance, the scale and the
  shift, and stores one block of the result: `feature + max(((agg·Wᵀ + b − mean) · rsqrt(var + ε)) · γ + β, 0)`.
  Stated at any float instance and at any contents `V` of the buffers on entry: the blocks the windows stage, what the
  body leaves in the output's buffer, the body's triple, the region's proof data and its obligation at every point.
-/
import proofs.«148803_j76647986365164_1_alg».proof.Proof.Gen.Kernel.Launch
import proofs.«148803_j76647986365164_1_alg».proof.Proof.Gen.Kernel.Skeleton
import proofs.«148803_j76647986365164_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Apply

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output window's buffer -/

abbrev rTile : Rect S5000x128 := Rect.unit (s := S5000x128) ![0, 0] S5000x128.size inb_S5000x128_S5000x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0

/-- The output block after the body, from the eight input blocks (the neighbourhood mean's, the features', the weights,
    the bias, the mean, the variance, the scale, the shift): its one store, covering the buffer. -/
def out1_8 (xa xf : Vec F S5000x128 .f32) (xw : Vec F S128x128 .f32) (xb xm xv xg xs : Vec F S1x128 .f32) : Vec F S5000x128 .f32 :=
  View.canon [⟨rTile, k1_pay1 (View.ld xa rTile) (View.ld xw rW) (View.ld xb rRow) (View.ld xv rRow) (View.ld xm rRow) (View.ld xg rRow) (View.ld xs rRow) (View.ld xf rTile)⟩]

/-! ## The region's proof data -/

/-- The proof data: the arrays as the region finds them; after the body each input's buffer at its block and the output's
    at `out1_8` of the input blocks; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by
  dsimp only [dat1]

/-! ## What the body leaves in the input windows' buffers: their blocks -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]

/-! ## What the body finds in each input window's buffer

  No input window is cut or idle: a fetch fills the whole buffer with the array's block, and the part of a block the
  transfers move is all of it. An input the pipeline does not fetch at a point has not moved its block index since the
  point before, where the body left the block in place. So at every point, fetched there or not, the buffer holds the
  block: the two windows of 5000 rows, fetched at every point, and the six of constant index, fetched at the first. -/

/-- The neighbourhood mean's block. -/
theorem finds1_0 (c : Dev nD) (t : Fin cfg1.N) (d) : (dat1 V c).before 0 t d = iblk1 V c 0 t :=
  ((dat1 V c).before_in_eq_fetched 0 rfl (fun _ => rfl) (fun _ _ _ => rfl)
    (fun s => by rw [after1_0]; rfl) t d).trans rfl

/-- The features' block. -/
theorem finds1_1 (c : Dev nD) (t : Fin cfg1.N) (d) : (dat1 V c).before 1 t d = iblk1 V c 1 t :=
  ((dat1 V c).before_in_eq_fetched 1 rfl (fun _ => rfl) (fun _ _ _ => rfl)
    (fun s => by rw [after1_1]; rfl) t d).trans rfl

/-- The weights. -/
theorem finds1_2 (c : Dev nD) (t : Fin cfg1.N) (d) : (dat1 V c).before 2 t d = iblk1 V c 2 t :=
  ((dat1 V c).before_in_eq_fetched 2 rfl (fun _ => rfl) (fun _ _ _ => rfl)
    (fun s => by rw [after1_2]; rfl) t d).trans rfl

/-- The bias. -/
theorem finds1_3 (c : Dev nD) (t : Fin cfg1.N) (d) : (dat1 V c).before 3 t d = iblk1 V c 3 t :=
  ((dat1 V c).before_in_eq_fetched 3 rfl (fun _ => rfl) (fun _ _ _ => rfl)
    (fun s => by rw [after1_3]; rfl) t d).trans rfl

/-- The column mean. -/
theorem finds1_4 (c : Dev nD) (t : Fin cfg1.N) (d) : (dat1 V c).before 4 t d = iblk1 V c 4 t :=
  ((dat1 V c).before_in_eq_fetched 4 rfl (fun _ => rfl) (fun _ _ _ => rfl)
    (fun s => by rw [after1_4]; rfl) t d).trans rfl

/-- The column variance. -/
theorem finds1_5 (c : Dev nD) (t : Fin cfg1.N) (d) : (dat1 V c).before 5 t d = iblk1 V c 5 t :=
  ((dat1 V c).before_in_eq_fetched 5 rfl (fun _ => rfl) (fun _ _ _ => rfl)
    (fun s => by rw [after1_5]; rfl) t d).trans rfl

/-- The scale. -/
theorem finds1_6 (c : Dev nD) (t : Fin cfg1.N) (d) : (dat1 V c).before 6 t d = iblk1 V c 6 t :=
  ((dat1 V c).before_in_eq_fetched 6 rfl (fun _ => rfl) (fun _ _ _ => rfl)
    (fun s => by rw [after1_6]; rfl) t d).trans rfl

/-- The shift. -/
theorem finds1_7 (c : Dev nD) (t : Fin cfg1.N) (d) : (dat1 V c).before 7 t d = iblk1 V c 7 t :=
  ((dat1 V c).before_in_eq_fetched 7 rfl (fun _ => rfl) (fun _ _ _ => rfl)
    (fun s => by rw [after1_7]; rfl) t d).trans rfl

/-! ## The one store covers the output's buffer -/

/-- The store's rectangle is the whole tile (checked by evaluation), so every index of the buffer lies in it. -/
theorem store_covers1 (p : Vec F S5000x128 .f32) (y : S5000x128.Idx) :
    ∃ pc ∈ ([⟨rTile, p⟩] : List (View.Piece (Elt F) S5000x128 .f32)), y ∈ pc.1.set :=
  View.cover_of_tiled [⟨rTile, p⟩] S5000x128.size (by rfl) y

/-! ## The body's triple -/

set_option maxHeartbeats 1000000 in
/-- The kernel body on nine whole staging memrefs, the eight inputs' at contents xa, xf, xw, xb, xm, xv, xg, xs and the
    output's at anything: eight loads of the inputs, a load of the output's buffer whose value nothing reads, and one
    store. The inputs' buffers are as they were and the output's holds out1_8 of the inputs' contents: a buffer written
    all over reads as the canon of its stores. -/
theorem kernel_triple1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S5000x128 .f32) (harg9 : arg9.IsWhole)
    (xa xf : Vec F S5000x128 .f32) (xw : Vec F S128x128 .f32) (xb xm xv xg xs : Vec F S1x128 .f32) (K : PUnit → sProp 𝕄) :
    iprop(owns (c : Thread nD τ) arg1 fullShare xa ∗ owns (c : Thread nD τ) arg2 fullShare xf ∗ owns (c : Thread nD τ) arg3 fullShare xw
        ∗ owns (c : Thread nD τ) arg4 fullShare xb ∗ owns (c : Thread nD τ) arg5 fullShare xm ∗ owns (c : Thread nD τ) arg6 fullShare xv
        ∗ owns (c : Thread nD τ) arg7 fullShare xg ∗ owns (c : Thread nD τ) arg8 fullShare xs ∗ (∃ d, owns (c : Thread nD τ) arg9 fullShare d)
        ∗ (iprop(owns (c : Thread nD τ) arg1 fullShare xa ∗ owns (c : Thread nD τ) arg2 fullShare xf ∗ owns (c : Thread nD τ) arg3 fullShare xw
            ∗ owns (c : Thread nD τ) arg4 fullShare xb ∗ owns (c : Thread nD τ) arg5 fullShare xm ∗ owns (c : Thread nD τ) arg6 fullShare xv
            ∗ owns (c : Thread nD τ) arg7 fullShare xg ∗ owns (c : Thread nD τ) arg8 fullShare xs
            ∗ owns (c : Thread nD τ) arg9 fullShare (out1_8 xa xf xw xb xm xv xg xs)) -∗ K ⟨⟩))
      ⊢ wp frame (wpE (defs₀ (F := F)) Variants.none c none) E
          (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  unfold owns
  iintro ⟨⟨%fa, %hfa, Ha⟩, ⟨%ff, %hff, Hf⟩, ⟨%fw, %hfw, Hw⟩, ⟨%fb, %hfb, Hb⟩, ⟨%fm, %hfm, Hm⟩, ⟨%fv, %hfv, Hv⟩, ⟨%fg, %hfg, Hg⟩, ⟨%fs, %hfs, Hs⟩, ⟨%d, %fo, -, Ho⟩, Hk⟩
  subst hfa; subst hff; subst hfw; subst hfb; subst hfm; subst hfv; subst hfg; subst hfs
  sl_exec
  sl_step
  iapply Hk
  isplitl [Ha]
  · iexists fa; isplitr; · ipureintro; rfl
    iexact Ha
  isplitl [Hf]
  · iexists ff; isplitr; · ipureintro; rfl
    iexact Hf
  isplitl [Hw]
  · iexists fw; isplitr; · ipureintro; rfl
    iexact Hw
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hs]
  · iexists fs; isplitr; · ipureintro; rfl
    iexact Hs
  iexists _; isplitr
  swap; · iexact Ho
  ipureintro
  exact View.read_writes_eq_canon _ _ _ (store_covers1 _)

/-! ## The body obligation, at a generic point -/

/-- What the body is called with at point t: the invariant, what the core owes, and each window's current buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns: the invariant and what the core owes at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point. Each input's buffer holds its block, so the kernel's triple applies at the eight blocks; the
    output's buffer is handed over at whatever it holds; the invariant and what the core owes are not read and do not
    change from a point to the next. -/
theorem body_triple1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [finds1_0, finds1_1, finds1_2, finds1_3, finds1_4, finds1_5, finds1_6, finds1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_triple1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Howe]; · iexact Howe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point: the windows conjoined one by one on both sides. -/
theorem body_obligation1 (c : Dev nD) : BodyObligation (dat1 (F := F) V c) (defs₀ (F := F)) Variants.none () Set.univ := fun t => by
  rw [bigSep_W1, bigSep_W1]
  exact body_triple1 V c t

end Cert.Kernel.Apply

end
-- ==== Proof.KLaunch.lean ====
/-
  The run of the kernel program's @main, with every buffer named at the end.

  @main is four items: the host operations that compute the neighbourhood mean and reshape the small operands, the
  statistics region, the host operations that turn the two column sums into the mean and the variance, and the
  normalisation region. Between two items every unscoped buffer of the core holds known contents: the launch memory, then
  the host operations' results folded over it, then — after a region — that region's arrays at what its write-backs leave
  (its inputs as entered, each output as the proof data's fold says) and every other buffer as before. Each region is
  entered from and left at such a state; the statistics region's invariant is entered from "the scratch at anything" and
  returned to it. The conclusion: every weakly fair execution terminates, nothing faulting, and the final memory holds every
  unscoped buffer at the last of these contents; in particular the seven arguments as launched.
  Stated at any float instance.
-/
import proofs.«148803_j76647986365164_1_alg».proof.Proof.KStatsRegion
import proofs.«148803_j76647986365164_1_alg».proof.Proof.KApplyRegion
import proofs.«148803_j76647986365164_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the statistics region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the statistics region's exit: its arrays at what the pipeline leaves, every other buffer as entered. -/
def W2 (c : Dev nD) : Valuation τ sig (Elt F) :=
  Pipeline.withArrays spec0 c (W1 m c) fun w => (Stats.dat0 (V1 m) c).arrAt w cfg0.N
theorem W2_arr (c : Dev nD) (w : Fin cfg0.W) :
    W2 m c (Proc.devRef .tc (Pipeline.arrRef spec0 w)) = (Stats.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Stats.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the normalisation region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the normalisation region's exit. -/
def W4 (c : Dev nD) : Valuation τ sig (Elt F) :=
  Pipeline.withArrays spec1 c (W3 m c) fun w => (Apply.dat1 (V3 m) c).arrAt w cfg1.N
theorem W4_arr (c : Dev nD) (w : Fin cfg1.W) :
    W4 m c (Proc.devRef .tc (Pipeline.arrRef spec1 w)) = (Apply.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Apply.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## A buffer no host stretch writes keeps its contents through the stretch -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Stats.dat0 (V1 m) c
  | ⟨1, _⟩ => fun c => Apply.dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The statistics region: entered from every unscoped buffer at `W1`, left at `W2`. Its arrays are split out of the
    unscoped buffers and put back at the exit contents; the generator register and the scoped rest go into the class
    invariant, from which the region's own invariant is entered and to which it returns. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Stats.dat0 (V1 m) c).Φ 0 from rfl]
    refine (?toA : _ ⊢ (Pipeline.ΦA spec0 c : sProp 𝕄)).trans (Stats.Phi_in (V1 m) c)
    unfold Pipeline.ΦA
    iintro ⟨Hp, -, Hr⟩
    isplitl [Hr]; · iexact Hr
    iexact Hp
  hout c := by
    rw [Pipeline.ownSems0_none, show (pdats m 0 c).Φ (Fin.last _) = (Stats.dat0 (V1 m) c).Φ (Fin.last cfg0.N) from rfl]
    refine (Stats.Phi_out (V1 m) c).trans (?fromA : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation region: entered from every unscoped buffer at `W3`, left at `W4`; the class invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Apply.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer of every core at the last boundary's contents `W4`. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Run

end
-- ==== Proof.KFrame.lean ====
/-
  The frame of the kernel program, and where its result lies, read off the run with every buffer named.

  No host operation writes an argument and no region changes one: an argument a region stages is an INPUT window's
  array, which the pipeline leaves as entered; any other argument bypasses the region. So each of the seven argument
  buffers holds, at the last boundary, what the launch memory held. The result buffer is the normalisation region's
  output array, at what that region's write-backs leave. Stated at any float instance.
-/
import proofs.«148803_j76647986365164_1_alg».proof.Proof.KLaunch

set_option maxRecDepth 16384

noncomputable section

namespace Cert.Kernel.Run

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

/-! ## The arguments end as launched -/

/-- The features: the normalisation region's second input window; no array of the statistics region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((Apply.dat1 (V3 m) c).arrAt_in 1 rfl _).trans (Apply.A_eq1 (V3 m) c 1))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
/-- The source indices: staged by no region. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
/-- The destination indices: staged by no region. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- The weights: an input window of both regions. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((Apply.dat1 (V3 m) c).arrAt_in 2 rfl _).trans (Apply.A_eq1 (V3 m) c 2))
    _ = W2 m c (Proc.devRef .tc main_arg3) := W3_of m c main_arg3 (by decide)
    _ = W1 m c (Proc.devRef .tc main_arg3) := (W2_arr m c 1).trans (((Stats.dat0 (V1 m) c).arrAt_in 1 rfl _).trans (Stats.A_eq0 (V1 m) c 1))
    _ = W0 m c (Proc.devRef .tc main_arg3) := W1_of m c main_arg3 (by decide)
    _ = m ((c : Thread nD τ).loc main_arg3) := rfl
/-- The bias, the scale and the shift: the regions stage their reshaped copies, never the arguments. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- The result buffer is the normalisation region's output array after its write-backs. -/
theorem W4_result (c : Dev nD) : W4 m c (Proc.devRef .tc main_v29) = (Apply.dat1 (V3 m) c).arrAt 8 cfg1.N :=
  W4_arr m c 8

/-! ## The run, read at the result and the arguments -/

/-- Every weakly fair execution of @main terminates, nothing faulting; the result buffer ends at the normalisation
    region's output array and every argument as launched. -/
theorem run_result : θ_run defs (onTc (τ := τ) (main (F := F))) ⟨m, fun _ => 0, ρ⟩ (fun r => ∀ c : Dev nD,
      r.2.mem ((c.tc : Thread nD τ).loc main_v29) = (Apply.dat1 (V3 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v29 (by decide))).trans (W4_result m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_named m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Run

end
-- ==== Proof.KIStatsRegion.lean ====
/-
  The first kernel region (the batch statistics): over the 20 grid points the body computes a block of 5000 rows of
  `h = agg·Wᵀ + b` and adds its column sums and its column sums of squares into two 1×128 scratch buffers, which it
  zeroes at the first point and copies to the two outputs at the last. What the scratch buffers hold after `n` points
  is a recursion on `n` over the blocks the windows stage (`sums`, `sumSqs`); the region's invariant carries it from
  point to point, entered from and returned to "the scratch at anything".
  Stated at any float instance and at any contents `V` of the buffers on entry.
-/
import proofs.«148803_j76647986365164_1_alg».proof.Proof.Gen.KernelIdeal.Launch
import proofs.«148803_j76647986365164_1_alg».proof.Proof.Gen.KernelIdeal.Skeleton
import proofs.«148803_j76647986365164_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the two accumulators hold after `n` points -/

/-- The column-sum accumulator after `n` points: the zero splat the first point stores, then one block's column sums
    added per point. -/
def sums (c : Dev nD) : ℕ → Vec F S1x128 .f32
  | 0 => k0_pay1 (F := F)
  | n + 1 => if hn : n < cfg0.N then k0_pay4 (iblk0 V c 0 ⟨n, hn⟩) (iblk0 V c 1 ⟨n, hn⟩) (iblk0 V c 2 ⟨n, hn⟩) (sums c n) else sums c n

/-- The column-sum-of-squares accumulator after `n` points, likewise. -/
def sumSqs (c : Dev nD) : ℕ → Vec F S1x128 .f32
  | 0 => k0_pay2 (F := F)
  | n + 1 => if hn : n < cfg0.N then k0_pay5 (iblk0 V c 0 ⟨n, hn⟩) (iblk0 V c 1 ⟨n, hn⟩) (iblk0 V c 2 ⟨n, hn⟩) (sumSqs c n) else sumSqs c n

/-! ## The region's proof data -/

/-- The two scratch operands, whole scoped buffers of the kernel's own. -/
abbrev scrSum : Memref sig .tc .vmem S1x128 .f32 := Memref.whole cc0_scratch0
abbrev scrSq : Memref sig .tc .vmem S1x128 .f32 := Memref.whole cc0_scratch1

/-- The invariant before point `t`: the two accumulators at what `t` points leave (at anything before the first
    point), every other scoped buffer that is no staging buffer at some contents, the generator register at some state. -/
def PhiAt (c : Dev nD) (t : Fin (cfg0.N + 1)) : sProp 𝕄 :=
  iprop((∃ f0 f1 : Vec F S1x128 .f32, ⌜t.val ≠ 0 → f0 = sums V c t.val ∧ f1 = sumSqs V c t.val⌝
        ∗ owns (c : Thread nD τ) scrSum fullShare f0 ∗ owns (c : Thread nD τ) scrSq fullShare f1)
      ∗ Pipeline.scopedRestBut (Ix := Unit) (Name := ℕ) (U := UR sig nD τ) (Lvl := ℕ) (Val := Elt F) spec0 c [cc0_scratch0, cc0_scratch1]
      ∗ ∃ r, prngReg c r)

/-- The proof data: the arrays as the region finds them; after the body each input's buffer at its block, each output's at
    the accumulator it is a copy of (read only at the last point, where the body stores it); the invariant `PhiAt`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => sums V c (t.val + 1)
    | ⟨4, _⟩ => sumSqs V c (t.val + 1)
  Φ t := PhiAt V c t
  q _ := fullShare
  owed _ := 0

theorem A_eq0 (c : Dev nD) (w : Fin cfg0.W) : (dat0 V c).A w = V c (Pipeline.arrRef spec0 w) := by
  dsimp only [dat0]
theorem after0_3 (c : Dev nD) (t : Fin cfg0.N) : (dat0 V c).after 3 t = sums V c (t.val + 1) := by dsimp only [dat0]
theorem after0_4 (c : Dev nD) (t : Fin cfg0.N) : (dat0 V c).after 4 t = sumSqs V c (t.val + 1) := by dsimp only [dat0]

/-- The class invariant with the two accumulators taken out of the scoped rest as owned memrefs. -/
theorem PhiA_split (c : Dev nD) :
    (Pipeline.ΦA spec0 c : sProp 𝕄)
      = iprop((iprop((∃ f0 : Vec F S1x128 .f32, owns (c : Thread nD τ) scrSum fullShare f0) ∗ (∃ f1 : Vec F S1x128 .f32, owns (c : Thread nD τ) scrSq fullShare f1))
          ∗ Pipeline.scopedRestBut (Ix := Unit) (Name := ℕ) (U := UR sig nD τ) (Lvl := ℕ) (Val := Elt F) spec0 c [cc0_scratch0, cc0_scratch1])
          ∗ ∃ r, prngReg c r) := by
  unfold Pipeline.ΦA
  rw [Pipeline.scopedRest_split_of_list spec0 c [cc0_scratch0, cc0_scratch1] (by decide) (by decide)]
  simp only [Idealize.SL.BI.bigSepL_cons_cons, Idealize.SL.BI.bigSepL_singleton, scrSum, scrSq, owns_whole]
  try rfl

/-- The class invariant (the scratch at anything) gives the invariant before the first point. -/
theorem Phi_in (c : Dev nD) : (Pipeline.ΦA spec0 c : sProp 𝕄) ⊢ (dat0 V c).Φ 0 := by
  rw [show (dat0 V c).Φ 0 = PhiAt V c 0 from rfl, PhiA_split]
  unfold PhiAt
  iintro ⟨⟨⟨⟨%f0, H0⟩, ⟨%f1, H1⟩⟩, Hr⟩, Hg⟩
  isplitl [H0 H1]
  · iexists f0; iexists f1
    isplitr
    · ipureintro; intro h; exact absurd rfl h
    isplitl [H0]
    · iexact H0
    · iexact H1
  isplitl [Hr]
  · iexact Hr
  · iexact Hg

/-- The invariant after the last point gives the class invariant back (the accumulators forgotten). -/
theorem Phi_out (c : Dev nD) : (dat0 V c).Φ (Fin.last cfg0.N) ⊢ (Pipeline.ΦA spec0 c : sProp 𝕄) := by
  rw [show (dat0 V c).Φ (Fin.last cfg0.N) = PhiAt V c (Fin.last cfg0.N) from rfl, PhiA_split]
  unfold PhiAt
  iintro ⟨⟨%f0, %f1, -, H0, H1⟩, Hr, Hg⟩
  isplitl [H0 H1 Hr]
  · isplitl [H0 H1]
    · isplitl [H0]
      · iexists f0; iexact H0
      · iexists f1; iexact H1
    · iexact Hr
  · iexact Hg

/-! ## The body's two conditions, from the grid coordinates -/

/-- The first conditional's condition (the scalar chain substituted): the point is the first. -/
abbrev isFirst (i : grid0.Coords) : Prop :=
  (Scalar.cmpi .ne (Scalar.extui (Scalar.cmpi .eq (BitVec.ofNat 32 (i 0).val) 0#32)) 0#32) = 1#1
/-- The second conditional's condition: the point is the last. -/
abbrev isLast (i : grid0.Coords) : Prop := k0_cond2 i = 1#1

/-- The zero offsets of a whole-buffer access, as the constant function. -/
theorem off00 : (![0, 0] : Fin 2 → Nat) = fun _ => 0 := by
  funext a; fin_cases a <;> rfl

set_option maxHeartbeats 1000000 in
/-- The body at a point that is neither the first nor the last: each accumulator ends at its payload over what it held. -/
theorem body_mid (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (hc0 : ¬isFirst i) (hc1 : ¬isLast i)
    (x0 : Vec F S5000x128 .f32) (x1 : Vec F S128x128 .f32) (x2 : Vec F S1x128 .f32) (s q : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 s) ∗ owns (c : Thread nD τ) arg7 fullShare (k0_pay5 x0 x1 x2 q)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  · iexists _; isplitr
    swap; · iexact H7
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]

set_option maxHeartbeats 1000000 in
/-- The body at the first point: each accumulator is reset (whatever it held), then ends at its payload over the zero splat. -/
theorem body_first (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (hc0 : isFirst i) (hc1 : ¬isLast i)
    (x0 : Vec F S5000x128 .f32) (x1 : Vec F S128x128 .f32) (x2 : Vec F S1x128 .f32) (s q : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 (k0_pay1 (F := F))) ∗ owns (c : Thread nD τ) arg7 fullShare (k0_pay5 x0 x1 x2 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  · iexists _; isplitr
    swap; · iexact H7
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]

set_option maxHeartbeats 1000000 in
/-- The body at the last point: each accumulator ends at its payload over what it held, and each output (whatever it held) at a copy of it. -/
theorem body_last (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (hc0 : ¬isFirst i) (hc1 : isLast i)
    (x0 : Vec F S5000x128 .f32) (x1 : Vec F S128x128 .f32) (x2 : Vec F S1x128 .f32) (s q : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 s) ∗ owns (c : Thread nD τ) arg5 fullShare (k0_pay5 x0 x1 x2 q)
            ∗ owns (c : Thread nD τ) arg6 fullShare (k0_pay4 x0 x1 x2 s) ∗ owns (c : Thread nD τ) arg7 fullShare (k0_pay5 x0 x1 x2 q)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  isplitl [H5]
  · iexists _; isplitr
    swap; · iexact H5
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  isplitl [H6]
  · iexists _; isplitr
    swap; · iexact H6
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]
  · iexists _; isplitr
    swap; · iexact H7
    ipureintro
    sl_unfold_words
    rw [View.read_writes_eq_canon _ _ _ (fun y => ⟨_, List.mem_cons_self .., View.mem_set_unit_zero off00 inb_S1x128_S1x128_0_0 y⟩), View.canon_cons_unit_zero off00]
    simp only [View.readAt_eq_ld, Memref.IsWhole.read_unread, View.ld_unit_zero (S := S5000x128) off00, View.ld_unit_zero (S := S128x128) off00, View.ld_unit_zero (S := S1x128) off00, View.readCov_unit_zero (S := S1x128) _ off00]

/-! ## The conditions in closed form, and where the two outputs are idle -/

/-- The first conditional is taken at the first point only — decided over the grid. -/
theorem hfirst : ∀ t : Fin cfg0.N, isFirst (grid0.coords t) ↔ t.val = 0 :=
  (by decide +kernel : ∀ t : Fin grid0.N, isFirst (grid0.coords t) ↔ t.val = 0)
/-- The second conditional is taken at the last point only. -/
theorem hlast : ∀ t : Fin cfg0.N, isLast (grid0.coords t) ↔ t.val = 19 :=
  (by decide +kernel : ∀ t : Fin grid0.N, isLast (grid0.coords t) ↔ t.val = 19)

/-- Off the last point the two outputs are idle and not written back; at it they are live. -/
theorem idleAt0_3 : ∀ t : Fin cfg0.N, ¬isLast (grid0.coords t) → cfg0.idle 3 (grid0.coords t) = true := by decide +kernel
theorem idleAt0_4 : ∀ t : Fin cfg0.N, ¬isLast (grid0.coords t) → cfg0.idle 4 (grid0.coords t) = true := by decide +kernel
theorem noFlush0_3 : ∀ t : Fin cfg0.N, ¬isLast (grid0.coords t) → (cfg0.win 3).flush t = false := by decide +kernel
theorem noFlush0_4 : ∀ t : Fin cfg0.N, ¬isLast (grid0.coords t) → (cfg0.win 4).flush t = false := by decide +kernel
theorem liveAt0_3 : ∀ t : Fin cfg0.N, isLast (grid0.coords t) → cfg0.idle 3 (grid0.coords t) = false := by decide +kernel
theorem liveAt0_4 : ∀ t : Fin cfg0.N, isLast (grid0.coords t) → cfg0.idle 4 (grid0.coords t) = false := by decide +kernel

/-! ## The accumulators' recursion, one step -/

theorem sums_zero (c : Dev nD) : sums V c 0 = k0_pay1 (F := F) := by rw [sums]
theorem sumSqs_zero (c : Dev nD) : sumSqs V c 0 = k0_pay2 (F := F) := by rw [sumSqs]
/-- After point `t` the column-sum accumulator is its payload at the point's blocks over what it held before. -/
theorem sums_succ (c : Dev nD) (t : Fin cfg0.N) :
    sums V c (t.val + 1) = k0_pay4 (iblk0 V c 0 t) (iblk0 V c 1 t) (iblk0 V c 2 t) (sums V c t.val) := by
  rw [sums, dif_pos t.isLt]
theorem sumSqs_succ (c : Dev nD) (t : Fin cfg0.N) :
    sumSqs V c (t.val + 1) = k0_pay5 (iblk0 V c 0 t) (iblk0 V c 1 t) (iblk0 V c 2 t) (sumSqs V c t.val) := by
  rw [sumSqs, dif_pos t.isLt]

/-! ## What the body finds in the inputs' buffers -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not (unfetched, the block
    index has not moved and the body left the block in place). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The obligation at a point -/

/-- Each window's current staging memref at point `t`, as the pipeline passes it to the body, and its wholeness. -/
abbrev ms0 (t : Fin cfg0.N) : Memref sig .tc .vmem S5000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)

/-- What the body is called with at point `t`: the invariant, what the core owes, the five windows' current buffers. -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point. The inputs' buffers hold their blocks; by cases on the point being the first, the last or
    neither, that case's triple applies with the accumulators at what the invariant says (anything at the first
    point); the invariant is rebuilt from one step of the accumulators' recursion; an output off the last point is
    handed back as it was found, at the last point it holds the copy of its accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiAt V c t.succ from rfl, show (dat0 V c).Φ t.castSucc = PhiAt V c t.castSucc from rfl]
  rw [show (dat0 V c).leavesExact 0 t = owns (c : Thread nD τ) (ms0 t) fullShare (iblk0 V c 0 t) from by
        unfold Dat.leavesExact; rw [show cfg0.idle 0 (cfg0.grid.coords t) = false from rfl, after0_0],
      show (dat0 V c).leavesExact 1 t = owns (c : Thread nD τ) (ms1 t) fullShare (iblk0 V c 1 t) from by
        unfold Dat.leavesExact; rw [show cfg0.idle 1 (cfg0.grid.coords t) = false from rfl, after0_1],
      show (dat0 V c).leavesExact 2 t = owns (c : Thread nD τ) (ms2 t) fullShare (iblk0 V c 2 t) from by
        unfold Dat.leavesExact; rw [show cfg0.idle 2 (cfg0.grid.coords t) = false from rfl, after0_2]]
  unfold PhiAt
  simp only [Fin.val_succ, Fin.coe_castSucc]
  rw [sums_succ V c t, sumSqs_succ V c t]
  have hN : t.val < 20 := lt_of_lt_of_eq t.isLt N_0
  by_cases h0 : t.val = 0
  · have hc0 : isFirst (grid0.coords t) := (hfirst t).mpr h0
    have hc1 : ¬isLast (grid0.coords t) := fun h => by have := (hlast t).mp h; omega
    rw [Dat.leavesExact_idle (dat0 V c) 3 t (idleAt0_3 t hc1) (noFlush0_3 t hc1), Dat.leavesExact_idle (dat0 V c) 4 t (idleAt0_4 t hc1) (noFlush0_4 t hc1)]
    rw [h0, sums_zero, sumSqs_zero]
    iintro ⟨⟨⟨%f0, %f1, -, HS0, HS1⟩, Hr, Hg⟩, Ho, ⟨%d0, H0⟩, ⟨%d1, H1⟩, ⟨%d2, H2⟩, H3, H4⟩
    iapply (body_first c (grid0.coords t) (ms0 t) (hs0 t) (ms1 t) (hs1 t) (ms2 t) (hs2 t) (ms3 t) (hs3 t) (ms4 t) (hs4 t) scrSum (Memref.isWhole_whole _) scrSq (Memref.isWhole_whole _) hc0 hc1 (iblk0 V c 0 t) (iblk0 V c 1 t) (iblk0 V c 2 t) f0 f1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1]
      · iexists _; iexists _; isplitr
        · ipureintro; intro _; exact ⟨rfl, rfl⟩
        isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    iexact H4
  · by_cases h1 : t.val = 19
    · have hc0 : ¬isFirst (grid0.coords t) := fun h => h0 ((hfirst t).mp h)
      have hc1 : isLast (grid0.coords t) := (hlast t).mpr h1
      rw [show (dat0 V c).leavesExact 3 t = owns (c : Thread nD τ) (ms3 t) fullShare (sums V c (t.val + 1)) from by
            unfold Dat.leavesExact; rw [liveAt0_3 t hc1, after0_3],
          show (dat0 V c).leavesExact 4 t = owns (c : Thread nD τ) (ms4 t) fullShare (sumSqs V c (t.val + 1)) from by
            unfold Dat.leavesExact; rw [liveAt0_4 t hc1, after0_4]]
      rw [sums_succ V c t, sumSqs_succ V c t]
      iintro ⟨⟨⟨%f0, %f1, %hf, HS0, HS1⟩, Hr, Hg⟩, Ho, ⟨%d0, H0⟩, ⟨%d1, H1⟩, ⟨%d2, H2⟩, ⟨%d3, H3⟩, ⟨%d4, H4⟩⟩
      obtain ⟨rfl, rfl⟩ := hf h0
      iapply (body_last c (grid0.coords t) (ms0 t) (hs0 t) (ms1 t) (hs1 t) (ms2 t) (hs2 t) (ms3 t) (hs3 t) (ms4 t) (hs4 t) scrSum (Memref.isWhole_whole _) scrSq (Memref.isWhole_whole _) hc0 hc1 (iblk0 V c 0 t) (iblk0 V c 1 t) (iblk0 V c 2 t) (sums V c t.val) (sumSqs V c t.val) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · iexists _; iexists _; isplitr
          · ipureintro; intro _; exact ⟨rfl, rfl⟩
          isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc0 : ¬isFirst (grid0.coords t) := fun h => h0 ((hfirst t).mp h)
      have hc1 : ¬isLast (grid0.coords t) := fun h => h1 ((hlast t).mp h)
      rw [Dat.leavesExact_idle (dat0 V c) 3 t (idleAt0_3 t hc1) (noFlush0_3 t hc1), Dat.leavesExact_idle (dat0 V c) 4 t (idleAt0_4 t hc1) (noFlush0_4 t hc1)]
      iintro ⟨⟨⟨%f0, %f1, %hf, HS0, HS1⟩, Hr, Hg⟩, Ho, ⟨%d0, H0⟩, ⟨%d1, H1⟩, ⟨%d2, H2⟩, H3, H4⟩
      obtain ⟨rfl, rfl⟩ := hf h0
      iapply (body_mid c (grid0.coords t) (ms0 t) (hs0 t) (ms1 t) (hs1 t) (ms2 t) (hs2 t) (ms3 t) (hs3 t) (ms4 t) (hs4 t) scrSum (Memref.isWhole_whole _) scrSq (Memref.isWhole_whole _) hc0 hc1 (iblk0 V c 0 t) (iblk0 V c 1 t) (iblk0 V c 2 t) (sums V c t.val) (sumSqs V c t.val) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1]
        · iexists _; iexists _; isplitr
          · ipureintro; intro _; exact ⟨rfl, rfl⟩
          isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := by
  intro t
  rw [bigSep_W0, bigSep_W0]
  exact sound_body V c t

end Cert.KernelIdeal.Stats

end
-- ==== Proof.KIApplyRegion.lean ====
/-
  The second kernel region (the normalisation): at each of the 20 grid points the body reads a block of 5000 rows of
  the neighbourhood mean and of the features, the weights, the bias, the column mean and variance, the scale and the
  shift, and stores one block of the result: `feature + max(((agg·Wᵀ + b − mean) · rsqrt(var + ε)) · γ + β, 0)`.
  Stated at any float instance and at any contents `V` of the buffers on entry: the blocks the windows stage, what the
  body leaves in the output's buffer, the body's triple, the region's proof data and its obligation at every point.
-/
import proofs.«148803_j76647986365164_1_alg».proof.Proof.Gen.KernelIdeal.Launch
import proofs.«148803_j76647986365164_1_alg».proof.Proof.Gen.KernelIdeal.Skeleton
import proofs.«148803_j76647986365164_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Apply

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output window's buffer -/

abbrev rTile : Rect S5000x128 := Rect.unit (s := S5000x128) ![0, 0] S5000x128.size inb_S5000x128_S5000x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0

/-- The output block after the body, from the eight input blocks (the neighbourhood mean's, the features', the weights,
    the bias, the mean, the variance, the scale, the shift): its one store, covering the buffer. -/
def out1_8 (xa xf : Vec F S5000x128 .f32) (xw : Vec F S128x128 .f32) (xb xm xv xg xs : Vec F S1x128 .f32) : Vec F S5000x128 .f32 :=
  View.canon [⟨rTile, k1_pay1 (View.ld xa rTile) (View.ld xw rW) (View.ld xb rRow) (View.ld xv rRow) (View.ld xm rRow) (View.ld xg rRow) (View.ld xs rRow) (View.ld xf rTile)⟩]

/-! ## The region's proof data -/

/-- The proof data: the arrays as the region finds them; after the body each input's buffer at its block and the output's
    at `out1_8` of the input blocks; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by
  dsimp only [dat1]

/-! ## What the body leaves in the input windows' buffers: their blocks -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]

/-! ## What the body finds in each input window's buffer

  No input window is cut or idle: a fetch fills the whole buffer with the array's block, and the part of a block the
  transfers move is all of it. An input the pipeline does not fetch at a point has not moved its block index since the
  point before, where the body left the block in place. So at every point, fetched there or not, the buffer holds the
  block: the two windows of 5000 rows, fetched at every point, and the six of constant index, fetched at the first. -/

/-- The neighbourhood mean's block. -/
theorem finds1_0 (c : Dev nD) (t : Fin cfg1.N) (d) : (dat1 V c).before 0 t d = iblk1 V c 0 t :=
  ((dat1 V c).before_in_eq_fetched 0 rfl (fun _ => rfl) (fun _ _ _ => rfl)
    (fun s => by rw [after1_0]; rfl) t d).trans rfl

/-- The features' block. -/
theorem finds1_1 (c : Dev nD) (t : Fin cfg1.N) (d) : (dat1 V c).before 1 t d = iblk1 V c 1 t :=
  ((dat1 V c).before_in_eq_fetched 1 rfl (fun _ => rfl) (fun _ _ _ => rfl)
    (fun s => by rw [after1_1]; rfl) t d).trans rfl

/-- The weights. -/
theorem finds1_2 (c : Dev nD) (t : Fin cfg1.N) (d) : (dat1 V c).before 2 t d = iblk1 V c 2 t :=
  ((dat1 V c).before_in_eq_fetched 2 rfl (fun _ => rfl) (fun _ _ _ => rfl)
    (fun s => by rw [after1_2]; rfl) t d).trans rfl

/-- The bias. -/
theorem finds1_3 (c : Dev nD) (t : Fin cfg1.N) (d) : (dat1 V c).before 3 t d = iblk1 V c 3 t :=
  ((dat1 V c).before_in_eq_fetched 3 rfl (fun _ => rfl) (fun _ _ _ => rfl)
    (fun s => by rw [after1_3]; rfl) t d).trans rfl

/-- The column mean. -/
theorem finds1_4 (c : Dev nD) (t : Fin cfg1.N) (d) : (dat1 V c).before 4 t d = iblk1 V c 4 t :=
  ((dat1 V c).before_in_eq_fetched 4 rfl (fun _ => rfl) (fun _ _ _ => rfl)
    (fun s => by rw [after1_4]; rfl) t d).trans rfl

/-- The column variance. -/
theorem finds1_5 (c : Dev nD) (t : Fin cfg1.N) (d) : (dat1 V c).before 5 t d = iblk1 V c 5 t :=
  ((dat1 V c).before_in_eq_fetched 5 rfl (fun _ => rfl) (fun _ _ _ => rfl)
    (fun s => by rw [after1_5]; rfl) t d).trans rfl

/-- The scale. -/
theorem finds1_6 (c : Dev nD) (t : Fin cfg1.N) (d) : (dat1 V c).before 6 t d = iblk1 V c 6 t :=
  ((dat1 V c).before_in_eq_fetched 6 rfl (fun _ => rfl) (fun _ _ _ => rfl)
    (fun s => by rw [after1_6]; rfl) t d).trans rfl

/-- The shift. -/
theorem finds1_7 (c : Dev nD) (t : Fin cfg1.N) (d) : (dat1 V c).before 7 t d = iblk1 V c 7 t :=
  ((dat1 V c).before_in_eq_fetched 7 rfl (fun _ => rfl) (fun _ _ _ => rfl)
    (fun s => by rw [after1_7]; rfl) t d).trans rfl

/-! ## The one store covers the output's buffer -/

/-- The store's rectangle is the whole tile (checked by evaluation), so every index of the buffer lies in it. -/
theorem store_covers1 (p : Vec F S5000x128 .f32) (y : S5000x128.Idx) :
    ∃ pc ∈ ([⟨rTile, p⟩] : List (View.Piece (Elt F) S5000x128 .f32)), y ∈ pc.1.set :=
  View.cover_of_tiled [⟨rTile, p⟩] S5000x128.size (by rfl) y

/-! ## The body's triple -/

set_option maxHeartbeats 1000000 in
/-- The kernel body on nine whole staging memrefs, the eight inputs' at contents xa, xf, xw, xb, xm, xv, xg, xs and the
    output's at anything: eight loads of the inputs, a load of the output's buffer whose value nothing reads, and one
    store. The inputs' buffers are as they were and the output's holds out1_8 of the inputs' contents: a buffer written
    all over reads as the canon of its stores. -/
theorem kernel_triple1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S5000x128 .f32) (harg9 : arg9.IsWhole)
    (xa xf : Vec F S5000x128 .f32) (xw : Vec F S128x128 .f32) (xb xm xv xg xs : Vec F S1x128 .f32) (K : PUnit → sProp 𝕄) :
    iprop(owns (c : Thread nD τ) arg1 fullShare xa ∗ owns (c : Thread nD τ) arg2 fullShare xf ∗ owns (c : Thread nD τ) arg3 fullShare xw
        ∗ owns (c : Thread nD τ) arg4 fullShare xb ∗ owns (c : Thread nD τ) arg5 fullShare xm ∗ owns (c : Thread nD τ) arg6 fullShare xv
        ∗ owns (c : Thread nD τ) arg7 fullShare xg ∗ owns (c : Thread nD τ) arg8 fullShare xs ∗ (∃ d, owns (c : Thread nD τ) arg9 fullShare d)
        ∗ (iprop(owns (c : Thread nD τ) arg1 fullShare xa ∗ owns (c : Thread nD τ) arg2 fullShare xf ∗ owns (c : Thread nD τ) arg3 fullShare xw
            ∗ owns (c : Thread nD τ) arg4 fullShare xb ∗ owns (c : Thread nD τ) arg5 fullShare xm ∗ owns (c : Thread nD τ) arg6 fullShare xv
            ∗ owns (c : Thread nD τ) arg7 fullShare xg ∗ owns (c : Thread nD τ) arg8 fullShare xs
            ∗ owns (c : Thread nD τ) arg9 fullShare (out1_8 xa xf xw xb xm xv xg xs)) -∗ K ⟨⟩))
      ⊢ wp frame (wpE (defs₀ (F := F)) Variants.none c none) E
          (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  unfold owns
  iintro ⟨⟨%fa, %hfa, Ha⟩, ⟨%ff, %hff, Hf⟩, ⟨%fw, %hfw, Hw⟩, ⟨%fb, %hfb, Hb⟩, ⟨%fm, %hfm, Hm⟩, ⟨%fv, %hfv, Hv⟩, ⟨%fg, %hfg, Hg⟩, ⟨%fs, %hfs, Hs⟩, ⟨%d, %fo, -, Ho⟩, Hk⟩
  subst hfa; subst hff; subst hfw; subst hfb; subst hfm; subst hfv; subst hfg; subst hfs
  sl_exec
  sl_step
  iapply Hk
  isplitl [Ha]
  · iexists fa; isplitr; · ipureintro; rfl
    iexact Ha
  isplitl [Hf]
  · iexists ff; isplitr; · ipureintro; rfl
    iexact Hf
  isplitl [Hw]
  · iexists fw; isplitr; · ipureintro; rfl
    iexact Hw
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hs]
  · iexists fs; isplitr; · ipureintro; rfl
    iexact Hs
  iexists _; isplitr
  swap; · iexact Ho
  ipureintro
  exact View.read_writes_eq_canon _ _ _ (store_covers1 _)

/-! ## The body obligation, at a generic point -/

/-- What the body is called with at point t: the invariant, what the core owes, and each window's current buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns: the invariant and what the core owes at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point. Each input's buffer holds its block, so the kernel's triple applies at the eight blocks; the
    output's buffer is handed over at whatever it holds; the invariant and what the core owes are not read and do not
    change from a point to the next. -/
theorem body_triple1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [finds1_0, finds1_1, finds1_2, finds1_3, finds1_4, finds1_5, finds1_6, finds1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_triple1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Howe]; · iexact Howe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point: the windows conjoined one by one on both sides. -/
theorem body_obligation1 (c : Dev nD) : BodyObligation (dat1 (F := F) V c) (defs₀ (F := F)) Variants.none () Set.univ := fun t => by
  rw [bigSep_W1, bigSep_W1]
  exact body_triple1 V c t

end Cert.KernelIdeal.Apply

end
-- ==== Proof.KILaunch.lean ====
/-
  The run of the kernel program's @main, with every buffer named at the end.

  @main is four items: the host operations that compute the neighbourhood mean and reshape the small operands, the
  statistics region, the host operations that turn the two column sums into the mean and the variance, and the
  normalisation region. Between two items every unscoped buffer of the core holds known contents: the launch memory, then
  the host operations' results folded over it, then — after a region — that region's arrays at what its write-backs leave
  (its inputs as entered, each output as the proof data's fold says) and every other buffer as before. Each region is
  entered from and left at such a state; the statistics region's invariant is entered from "the scratch at anything" and
  returned to it. The conclusion: every weakly fair execution terminates, nothing faulting, and the final memory holds every
  unscoped buffer at the last of these contents; in particular the seven arguments as launched.
  Stated at any float instance.
-/
import proofs.«148803_j76647986365164_1_alg».proof.Proof.KIStatsRegion
import proofs.«148803_j76647986365164_1_alg».proof.Proof.KIApplyRegion
import proofs.«148803_j76647986365164_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the statistics region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the statistics region's exit: its arrays at what the pipeline leaves, every other buffer as entered. -/
def W2 (c : Dev nD) : Valuation τ sig (Elt F) :=
  Pipeline.withArrays spec0 c (W1 m c) fun w => (Stats.dat0 (V1 m) c).arrAt w cfg0.N
theorem W2_arr (c : Dev nD) (w : Fin cfg0.W) :
    W2 m c (Proc.devRef .tc (Pipeline.arrRef spec0 w)) = (Stats.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Stats.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the normalisation region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the normalisation region's exit. -/
def W4 (c : Dev nD) : Valuation τ sig (Elt F) :=
  Pipeline.withArrays spec1 c (W3 m c) fun w => (Apply.dat1 (V3 m) c).arrAt w cfg1.N
theorem W4_arr (c : Dev nD) (w : Fin cfg1.W) :
    W4 m c (Proc.devRef .tc (Pipeline.arrRef spec1 w)) = (Apply.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Apply.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## A buffer no host stretch writes keeps its contents through the stretch -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Stats.dat0 (V1 m) c
  | ⟨1, _⟩ => fun c => Apply.dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The statistics region: entered from every unscoped buffer at `W1`, left at `W2`. Its arrays are split out of the
    unscoped buffers and put back at the exit contents; the generator register and the scoped rest go into the class
    invariant, from which the region's own invariant is entered and to which it returns. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Stats.dat0 (V1 m) c).Φ 0 from rfl]
    refine (?toA : _ ⊢ (Pipeline.ΦA spec0 c : sProp 𝕄)).trans (Stats.Phi_in (V1 m) c)
    unfold Pipeline.ΦA
    iintro ⟨Hp, -, Hr⟩
    isplitl [Hr]; · iexact Hr
    iexact Hp
  hout c := by
    rw [Pipeline.ownSems0_none, show (pdats m 0 c).Φ (Fin.last _) = (Stats.dat0 (V1 m) c).Φ (Fin.last cfg0.N) from rfl]
    refine (Stats.Phi_out (V1 m) c).trans (?fromA : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation region: entered from every unscoped buffer at `W3`, left at `W4`; the class invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Apply.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer of every core at the last boundary's contents `W4`. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Run

end
-- ==== Proof.KIFrame.lean ====
/-
  The frame of the kernel program, and where its result lies, read off the run with every buffer named.

  No host operation writes an argument and no region changes one: an argument a region stages is an INPUT window's
  array, which the pipeline leaves as entered; any other argument bypasses the region. So each of the seven argument
  buffers holds, at the last boundary, what the launch memory held. The result buffer is the normalisation region's
  output array, at what that region's write-backs leave. Stated at any float instance.
-/
import proofs.«148803_j76647986365164_1_alg».proof.Proof.KILaunch

set_option maxRecDepth 16384

noncomputable section

namespace Cert.KernelIdeal.Run

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

/-! ## The arguments end as launched -/

/-- The features: the normalisation region's second input window; no array of the statistics region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((Apply.dat1 (V3 m) c).arrAt_in 1 rfl _).trans (Apply.A_eq1 (V3 m) c 1))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
/-- The source indices: staged by no region. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
/-- The destination indices: staged by no region. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- The weights: an input window of both regions. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((Apply.dat1 (V3 m) c).arrAt_in 2 rfl _).trans (Apply.A_eq1 (V3 m) c 2))
    _ = W2 m c (Proc.devRef .tc main_arg3) := W3_of m c main_arg3 (by decide)
    _ = W1 m c (Proc.devRef .tc main_arg3) := (W2_arr m c 1).trans (((Stats.dat0 (V1 m) c).arrAt_in 1 rfl _).trans (Stats.A_eq0 (V1 m) c 1))
    _ = W0 m c (Proc.devRef .tc main_arg3) := W1_of m c main_arg3 (by decide)
    _ = m ((c : Thread nD τ).loc main_arg3) := rfl
/-- The bias, the scale and the shift: the regions stage their reshaped copies, never the arguments. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- The result buffer is the normalisation region's output array after its write-backs. -/
theorem W4_result (c : Dev nD) : W4 m c (Proc.devRef .tc main_v29) = (Apply.dat1 (V3 m) c).arrAt 8 cfg1.N :=
  W4_arr m c 8

/-! ## The run, read at the result and the arguments -/

/-- Every weakly fair execution of @main terminates, nothing faulting; the result buffer ends at the normalisation
    region's output array and every argument as launched. -/
theorem run_result : θ_run defs (onTc (τ := τ) (main (F := F))) ⟨m, fun _ => 0, ρ⟩ (fun r => ∀ c : Dev nD,
      r.2.mem ((c.tc : Thread nD τ).loc main_v29) = (Apply.dat1 (V3 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v29 (by decide))).trans (W4_result m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_named m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Run

end
-- ==== Proof.Spec.lean ====
/-
  The layer's mathematics, stated once and over the extended reals, for both programs to be read against.

  A graph-convolution layer over 100000 nodes with 128 features: the neighbourhood mean `agg` (a gather of the
  source rows, summed onto the destination rows, over the in-degree clamped below at one), the linear map
  `h r j = ∑ k, agg r k · w j k + b j`, the batch statistics of `h` down each column — the mean, and the variance
  in its two textbook forms, the second moment less the squared mean and the mean squared deviation —, and the
  result `feat r j + max (((h r j − mean j) · rsqrt (var j + ε)) · γ j + β j) 0`.
  The two forms of the variance agree when every entry of `h` is a real number (not at an infinity): that one
  law is what joins the two programs; everything else is the same expression on both sides, the column sums
  grouped by blocks of 5000 rows on one side and taken whole on the other.
-/
import Idealize.ShloMosaic.PureOps.Ideal
import Idealize.ShloMosaic.Lib.ValueIdx

noncomputable section

open scoped BigOperators

namespace Cert.Spec

open Idealize.ShloMosaic

/-! ## Shapes -/

abbrev SNodes : Shape := ⟨1, ![100000]⟩
abbrev SNodesCol : Shape := ⟨2, ![100000, 1]⟩
abbrev SFeat : Shape := ⟨2, ![100000, 128]⟩
abbrev SEdges : Shape := ⟨1, ![1000000]⟩
abbrev SEdgesCol : Shape := ⟨2, ![1000000, 1]⟩
abbrev SEdgeFeat : Shape := ⟨2, ![1000000, 128]⟩
abbrev SScalar : Shape := ⟨0, ![]⟩

/-! ## The neighbourhood mean: the host operations both programs begin with -/

/-- The neighbourhood mean of the node features along the edges `src → dst`, as the host computes it: the in-degree
    of each node (ones summed onto the destinations), the source rows gathered (a negative source index wrapped
    by the node count, then clamped by the gather), summed onto the destination rows, each row divided by its
    in-degree clamped below at one. The dimension records and the broadcast facts are parameters: each program
    states its own, and the term is the same. -/
def agg (sdeg : ScatterDims SNodes SEdgesCol SEdges) (gsrc : GatherDims SFeat SEdgesCol SEdgeFeat)
    (ssum : ScatterDims SFeat SEdgesCol SEdgeFeat)
    (b1 : SScalar.BroadcastsInDim SEdges (![] : Fin 0 → Fin SEdges.rank))
    (b2 : SScalar.BroadcastsInDim SNodes (![] : Fin 0 → Fin SNodes.rank))
    (b3 : SEdges.BroadcastsInDim SEdgesCol (![0] : Fin 1 → Fin SEdgesCol.rank))
    (b4 : SScalar.BroadcastsInDim SFeat (![] : Fin 0 → Fin SFeat.rank))
    (b5 : SNodes.BroadcastsInDim SNodesCol (![0] : Fin 1 → Fin SNodesCol.rank))
    (b6 : SNodesCol.BroadcastsInDim SFeat (![0, 1] : Fin 2 → Fin SFeat.rank))
    (feat : FVec Ideal SFeat .f32) (src dst : IVec SEdges 32) : FVec Ideal SFeat .f32 :=
  let ones : FVec Ideal SEdges .f32 := broadcastInDim SEdges ![] b1 (constant (F := Ideal) SScalar .f32 0x3F800000#32)
  let zeros : FVec Ideal SNodes .f32 := broadcastInDim SNodes ![] b2 (constant (F := Ideal) SScalar .f32 0x00000000#32)
  let dstCol : IVec SEdgesCol 32 := broadcastInDim SEdgesCol ![0] b3 dst
  let deg : FVec Ideal SNodes .f32 := Host.scatterAdd (F := Ideal) sdeg zeros dstCol ones
  let zeroI : IVec SEdges 32 := broadcastInDim SEdges ![] b1 (constantI SScalar 32 0#32)
  let neg : IVec SEdges 1 := cmpi .slt src zeroI
  let nI : IVec SEdges 32 := broadcastInDim SEdges ![] b1 (constantI SScalar 32 100000#32)
  let wrapped : IVec SEdges 32 := addi src nI
  let src' : IVec SEdges 32 := select neg wrapped src
  let srcCol : IVec SEdgesCol 32 := broadcastInDim SEdgesCol ![0] b3 src'
  let rows : FVec Ideal SEdgeFeat .f32 := Host.gather gsrc feat srcCol
  let zeros2 : FVec Ideal SFeat .f32 := broadcastInDim SFeat ![] b4 (constant (F := Ideal) SScalar .f32 0x00000000#32)
  let dstCol2 : IVec SEdgesCol 32 := broadcastInDim SEdgesCol ![0] b3 dst
  let summed : FVec Ideal SFeat .f32 := Host.scatterAdd (F := Ideal) ssum zeros2 dstCol2 rows
  let onesN : FVec Ideal SNodes .f32 := broadcastInDim SNodes ![] b2 (constant (F := Ideal) SScalar .f32 0x3F800000#32)
  let degc : FVec Ideal SNodes .f32 := maximumf deg onesN
  let degCol : FVec Ideal SNodesCol .f32 := broadcastInDim SNodesCol ![0] b5 degc
  let degB : FVec Ideal SFeat .f32 := broadcastInDim SFeat ![0, 1] b6 degCol
  Host.divf summed degB

/-! ## The layer over plain coordinates -/

/-- The linear map's output at node `r`, feature `j`. -/
def lin (a : Fin 100000 → Fin 128 → EReal) (w : Fin 128 → Fin 128 → EReal) (b : Fin 128 → EReal)
    (r : Fin 100000) (j : Fin 128) : EReal :=
  (∑ k : Fin 128, a r k * w j k) + b j

/-- The node count as both programs write it: the pattern of `100000.0`. -/
def cnt : EReal := Ideal.ofBits .f32 0x47C35000#32
/-- The normalisation's `ε`, the pattern both programs write. -/
def eps : EReal := Ideal.ofBits .f32 0x3727C5AC#32

/-- Row `q` of the `t`-th block of 5000 rows. -/
def rowOf (t : Fin 20) (q : Fin 5000) : Fin 100000 := ⟨t.val * 5000 + q.val, by omega⟩

/-- A column's sum over all nodes. -/
def colSum (h : Fin 100000 → Fin 128 → EReal) (j : Fin 128) : EReal := ∑ r : Fin 100000, h r j
/-- A column's sum of squares over all nodes. -/
def colSumSq (h : Fin 100000 → Fin 128 → EReal) (j : Fin 128) : EReal := ∑ r : Fin 100000, h r j * h r j
/-- The running total of a sequence, started at zero: what an accumulator reset at the first step holds after `n`. -/
def runTotal (g : ℕ → EReal) : ℕ → EReal
  | 0 => 0
  | n + 1 => runTotal g n + g n

/-- The column mean. -/
def mean (h : Fin 100000 → Fin 128 → EReal) (j : Fin 128) : EReal := Ideal.div (colSum h j) cnt
/-- The variance as the second moment less the squared mean. -/
def varMoment (h : Fin 100000 → Fin 128 → EReal) (j : Fin 128) : EReal :=
  Ideal.div (colSumSq h j) cnt - mean h j * mean h j
/-- The variance as the mean squared deviation. -/
def varCentered (h : Fin 100000 → Fin 128 → EReal) (j : Fin 128) : EReal :=
  Ideal.div (∑ r : Fin 100000, (h r j - mean h j) * (h r j - mean h j)) cnt
/-- The layer's result at node `r`, feature `j`, for a given variance `v`. -/
def layer (feat h : Fin 100000 → Fin 128 → EReal) (v γ β : Fin 128 → EReal) (r : Fin 100000) (j : Fin 128) : EReal :=
  feat r j + max ((((h r j - mean h j) * Ideal.rsqrt (v j + eps)) * γ j) + β j) 0

end Cert.Spec

end
-- ==== Proof.RefRun.lean ====
/-
  The reference program's run.

  The reference is a straight line of host operations: the neighbourhood mean (twenty-five operations), the linear
  map (five), its column mean (five), the variance as the mean squared deviation (the integer zero its function is
  called with, that function's nineteen operations and, inside them, the three of the selection that guards the
  division's count), then the normalisation, the rectifier (three operations) and the residual sum (twenty in all).
  A call means its callee's body on the call's own buffers, so the program is the list `ops` of its seventy-eight
  operations in order, and every buffer ends at the fold of their results over the launch contents.

  That fold is read stretch by stretch. For any contents before it, each stretch leaves in its result buffer a term
  of the buffers it reads — `Cert.Spec.agg`, `linPart`, `meanPart`, `varPart`, `normPart`, each written operation
  for operation after the program, one `let` per operation — and leaves the buffers later stretches read as they
  were. Composed from the last stretch back to the first, the result buffer holds `tail` (the four later terms
  composed) of the neighbourhood mean of the three graph inputs; an argument buffer holds the argument's launch
  contents, since no operation writes an argument.
-/
import proofs.«148803_j76647986365164_1_alg».proof.Proof.Gen.ReferenceIdeal
import proofs.«148803_j76647986365164_1_alg».proof.Proof.Spec
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## The program as a list of operations

Five stretches, in the program's order; a call's operations stand where the call is made, over that call's buffers. -/

/-- The neighbourhood mean: the in-degree, the gathered source rows summed onto the destinations, the quotient (%cst … %18). -/
abbrev opsA : List (HloOp τ sig (Elt F)) :=
  [ nullary main_cst (constant S_ .f32 0x3F800000#32),
    unary main_cst main_v0 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1000000x1 ![0] bcast_S1000000_S1000000x1_0 : (⟨S1000000, .i32⟩ : BufTy).Contents (Elt F) → (⟨S1000000x1, .i32⟩ : BufTy).Contents (Elt F)),
    ternary main_v1 main_v2 main_v0 main_v3 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_arg1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_1 (constantI S_ 32 100000#32),
    unary main_c_1 main_v6 (broadcastInDim S1000000 ![] bcast_S_S1000000 : (⟨S_, .i32⟩ : BufTy).Contents (Elt F) → (⟨S1000000, .i32⟩ : BufTy).Contents (Elt F)),
    binary main_arg1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_arg1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg0 main_v9 main_v10 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_2 (constant S_ .f32 0x00000000#32),
    unary main_cst_2 main_v11 (broadcastInDim S100000x128 ![] bcast_S_S100000x128 : (⟨S_, .f32⟩ : BufTy).Contents (Elt F) → (⟨S100000x128, .f32⟩ : BufTy).Contents (Elt F)),
    unary main_arg2 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_3 (constant S_ .f32 0x3F800000#32),
    unary main_cst_3 main_v14 (broadcastInDim S100000 ![] bcast_S_S100000 : (⟨S_, .f32⟩ : BufTy).Contents (Elt F) → (⟨S100000, .f32⟩ : BufTy).Contents (Elt F)),
    binary main_v3 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_v13 main_v17 main_v18 (Host.divf : (⟨S100000x128, .f32⟩ : BufTy).Contents (Elt F) → (⟨S100000x128, .f32⟩ : BufTy).Contents (Elt F) → (⟨S100000x128, .f32⟩ : BufTy).Contents (Elt F)) ]

/-- The linear map (%19 … %23). -/
abbrev opsL : List (HloOp τ sig (Elt F)) :=
  [ unary main_arg3 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)) ]

/-- The column mean (%cst_4 … %26). -/
abbrev opsM : List (HloOp τ sig (Elt F)) :=
  [ nullary main_cst_4 (constant S_ .f32 0x00000000#32),
    binary main_v23 main_cst_4 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_5 (constant S_ .f32 0x47C35000#32),
    unary main_cst_5 main_v25 (broadcastInDim S128 ![] bcast_S_S128 : (⟨S_, .f32⟩ : BufTy).Contents (Elt F) → (⟨S128, .f32⟩ : BufTy).Contents (Elt F)),
    binary main_v24 main_v25 main_v26 (Host.divf : (⟨S128, .f32⟩ : BufTy).Contents (Elt F) → (⟨S128, .f32⟩ : BufTy).Contents (Elt F) → (⟨S128, .f32⟩ : BufTy).Contents (Elt F)) ]

/-- The integer zero the variance function is called with (%c_6), then that function's nineteen operations and, where it calls
    the selection, the selection's three, over the calls' own buffers; the call's result is %27. -/
abbrev opsV : List (HloOp τ sig (Elt F)) :=
  [ nullary main_c_6 (constantI S_ 32 0#32),
    TRef.nullary main_call0.cst (constant S_ .f32 0x00000000#32),
    TRef.binary (.of main_v23 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v23 : TRef sig ⟨S100000x128, .f32⟩) main_call0.v4 main_call0.v5 subf,
    TRef.binary main_call0.v5 main_call0.v5 main_call0.v6 mulf,
    TRef.unary (.of main_c_6 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The normalisation (%28 … %42), the rectifier's three operations over its call's buffers (result %43), the residual sum (%44). -/
abbrev opsN : List (HloOp τ sig (Elt F)) :=
  [ unary main_v26 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v23 main_v29 main_v30 (subf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3727C5AC#32),
    unary main_cst_7 main_v31 (broadcastInDim S128 ![] bcast_S_S128 : (⟨S_, .f32⟩ : BufTy).Contents (Elt F) → (⟨S128, .f32⟩ : BufTy).Contents (Elt F)),
    binary main_v27 main_v31 main_v32 (addf : (⟨S128, .f32⟩ : BufTy).Contents (Elt F) → (⟨S128, .f32⟩ : BufTy).Contents (Elt F) → (⟨S128, .f32⟩ : BufTy).Contents (Elt F)),
    unary main_v32 main_v33 (Host.rsqrt : (⟨S128, .f32⟩ : BufTy).Contents (Elt F) → (⟨S128, .f32⟩ : BufTy).Contents (Elt F)),
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v30 main_v35 main_v36 (mulf : (⟨S100000x128, .f32⟩ : BufTy).Contents (Elt F) → (⟨S100000x128, .f32⟩ : BufTy).Contents (Elt F) → (⟨S100000x128, .f32⟩ : BufTy).Contents (Elt F)),
    unary main_arg5 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (mulf : (⟨S100000x128, .f32⟩ : BufTy).Contents (Elt F) → (⟨S100000x128, .f32⟩ : BufTy).Contents (Elt F) → (⟨S100000x128, .f32⟩ : BufTy).Contents (Elt F)),
    unary main_arg6 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v42 : TRef sig ⟨S100000x128, .f32⟩) main_call1.v0 main_call1.v1 maximumf,
    binary main_arg0 main_v43 main_v44 (addf : (⟨S100000x128, .f32⟩ : BufTy).Contents (Elt F) → (⟨S100000x128, .f32⟩ : BufTy).Contents (Elt F) → (⟨S100000x128, .f32⟩ : BufTy).Contents (Elt F)) ]

/-- The program's seventy-eight operations, in order. -/
abbrev ops : List (HloOp τ sig (Elt F)) := opsA ++ (opsL ++ (opsM ++ (opsV ++ opsN)))

-- seventy-eight binds: sequencing a call's body before the rest of the line is computed bind by bind
set_option maxRecDepth 4096 in
/-- @main is that straight line: each call replaced by its callee's body, the sequencing re-associated — which,
    for a program given as a tree of requests, is a computation. -/
theorem main_eq (c : Dev nD) : main (F := F) c = seq ops := rfl

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_append.mpr ⟨⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩,
  List.forall_append.mpr ⟨⟨unary_bufs_sub .., binary_bufs_sub .., unary_bufs_sub .., unary_bufs_sub .., binary_bufs_sub ..⟩,
  List.forall_append.mpr ⟨⟨nullary_bufs_sub .., binary_bufs_sub .., nullary_bufs_sub .., unary_bufs_sub .., binary_bufs_sub ..⟩,
  List.forall_append.mpr ⟨⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩,
    ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub ..⟩⟩⟩⟩⟩

/-! ## The operations after the neighbourhood mean, as terms

One `let` per operation, in the program's order, grouped as the program groups them: the linear map, the column
mean, the variance function (with the selection it calls), and the normalisation with the rectifier and the residual
sum. `tail` composes the four. -/

/-- The linear map `h = a · wᵀ + b`: the weight transposed, the contraction, the bias broadcast along the rows. -/
def linPart (a : FVec Ideal S100000x128 .f32) (w : FVec Ideal S128x128 .f32) (b : FVec Ideal S128 .f32) :
    FVec Ideal S100000x128 .f32 :=
  let v19 : FVec Ideal S128x128 .f32 := transpose S128x128 [1, 0] w transposes_S128x128_S128x128_1_0
  let v20 : FVec Ideal S100000x128 .f32 := Host.dotGeneral (F := Ideal) dot_S100000x128_S128x128_S100000x128_1_0_0_1_n_n none a v19
  let v21 : FVec Ideal S1x128 .f32 := broadcastInDim S1x128 ![1] bcast_S128_S1x128_1 b
  let v22 : FVec Ideal S100000x128 .f32 := broadcastInDim S100000x128 ![0, 1] bcast_S1x128_S100000x128_0_1 v21
  addf (F := Ideal) v20 v22

/-- The column mean of `h`: its column sum over the node count. -/
def meanPart (h : FVec Ideal S100000x128 .f32) : FVec Ideal S128 .f32 :=
  let cst_4 : FVec Ideal S_ .f32 := constant (F := Ideal) S_ .f32 0x00000000#32
  let v24 : FVec Ideal S128 .f32 := Host.reduceAdd (F := Ideal) h cst_4 reducesTo_S100000x128_S128_d0 h_S_
  let cst_5 : FVec Ideal S_ .f32 := constant (F := Ideal) S_ .f32 0x47C35000#32
  let v25 : FVec Ideal S128 .f32 := broadcastInDim S128 ![] bcast_S_S128 cst_5
  Host.divf (F := Ideal) v24 v25

/-- The variance function on `h` and the integer zero `c_6`: the column mean once more, the deviations and their
    squares, the count `n − c_6`, the squares' column sum over that count, and the selection that keeps the
    quotient where the count is positive (and the pattern of a NaN elsewhere). -/
def varPart (h : FVec Ideal S100000x128 .f32) : FVec Ideal S128 .f32 :=
  let c_6 : IVec S_ 32 := constantI S_ 32 0#32
  let var_cst : FVec Ideal S_ .f32 := constant (F := Ideal) S_ .f32 0x00000000#32
  let var_v0 : FVec Ideal S128 .f32 := Host.reduceAdd (F := Ideal) h var_cst reducesTo_S100000x128_S128_d0 h_S_
  let var_v1 : FVec Ideal S1x128 .f32 := broadcastInDim S1x128 ![1] bcast_S128_S1x128_1 var_v0
  let var_cst_0 : FVec Ideal S_ .f32 := constant (F := Ideal) S_ .f32 0x47C35000#32
  let var_v2 : FVec Ideal S1x128 .f32 := broadcastInDim S1x128 ![] bcast_S_S1x128 var_cst_0
  let var_v3 : FVec Ideal S1x128 .f32 := Host.divf (F := Ideal) var_v1 var_v2
  let var_v4 : FVec Ideal S100000x128 .f32 := broadcastInDim S100000x128 ![0, 1] bcast_S1x128_S100000x128_0_1 var_v3
  let var_v5 : FVec Ideal S100000x128 .f32 := subf (F := Ideal) h var_v4
  let var_v6 : FVec Ideal S100000x128 .f32 := mulf (F := Ideal) var_v5 var_v5
  let var_v7 : FVec Ideal S_ .f32 := sitofp (F := Ideal) .f32 c_6
  let var_cst_1 : FVec Ideal S_ .f32 := constant (F := Ideal) S_ .f32 0x47C35000#32
  let var_v8 : FVec Ideal S_ .f32 := subf (F := Ideal) var_cst_1 var_v7
  let var_cst_2 : FVec Ideal S_ .f32 := constant (F := Ideal) S_ .f32 0x00000000#32
  let var_v9 : FVec Ideal S128 .f32 := Host.reduceAdd (F := Ideal) var_v6 var_cst_2 reducesTo_S100000x128_S128_d0 h_S_
  let var_v10 : FVec Ideal S128 .f32 := broadcastInDim S128 ![] bcast_S_S128 var_v8
  let var_v11 : FVec Ideal S128 .f32 := Host.divf (F := Ideal) var_v9 var_v10
  let var_cst_3 : FVec Ideal S_ .f32 := constant (F := Ideal) S_ .f32 0x00000000#32
  let var_v12 : IVec S_ 1 := cmpf (F := Ideal) .ogt var_v8 var_cst_3
  let var_cst_4 : FVec Ideal S_ .f32 := constant (F := Ideal) S_ .f32 0x7FC00000#32
  -- the selection, on `var_v12`, `var_v11` and `var_cst_4`
  let sel_v0 : FVec Ideal S_ .f32 := id var_cst_4
  let sel_v1 : FVec Ideal S128 .f32 := broadcastInDim S128 ![] bcast_S_S128 sel_v0
  select (broadcastInDim S128 ![] bcast_S_S128 var_v12) var_v11 sel_v1

/-- The normalisation `(h − mean) · rsqrt (var + ε) · g + be`, the rectifier, and the residual sum with the
    node features `feat`. -/
def normPart (feat h : FVec Ideal S100000x128 .f32) (mean var g be : FVec Ideal S128 .f32) :
    FVec Ideal S100000x128 .f32 :=
  let v28 : FVec Ideal S1x128 .f32 := broadcastInDim S1x128 ![1] bcast_S128_S1x128_1 mean
  let v29 : FVec Ideal S100000x128 .f32 := broadcastInDim S100000x128 ![0, 1] bcast_S1x128_S100000x128_0_1 v28
  let v30 : FVec Ideal S100000x128 .f32 := subf (F := Ideal) h v29
  let cst_7 : FVec Ideal S_ .f32 := constant (F := Ideal) S_ .f32 0x3727C5AC#32
  let v31 : FVec Ideal S128 .f32 := broadcastInDim S128 ![] bcast_S_S128 cst_7
  let v32 : FVec Ideal S128 .f32 := addf (F := Ideal) var v31
  let v33 : FVec Ideal S128 .f32 := Host.rsqrt (F := Ideal) v32
  let v34 : FVec Ideal S1x128 .f32 := broadcastInDim S1x128 ![1] bcast_S128_S1x128_1 v33
  let v35 : FVec Ideal S100000x128 .f32 := broadcastInDim S100000x128 ![0, 1] bcast_S1x128_S100000x128_0_1 v34
  let v36 : FVec Ideal S100000x128 .f32 := mulf (F := Ideal) v30 v35
  let v37 : FVec Ideal S1x128 .f32 := broadcastInDim S1x128 ![1] bcast_S128_S1x128_1 g
  let v38 : FVec Ideal S100000x128 .f32 := broadcastInDim S100000x128 ![0, 1] bcast_S1x128_S100000x128_0_1 v37
  let v39 : FVec Ideal S100000x128 .f32 := mulf (F := Ideal) v36 v38
  let v40 : FVec Ideal S1x128 .f32 := broadcastInDim S1x128 ![1] bcast_S128_S1x128_1 be
  let v41 : FVec Ideal S100000x128 .f32 := broadcastInDim S100000x128 ![0, 1] bcast_S1x128_S100000x128_0_1 v40
  let v42 : FVec Ideal S100000x128 .f32 := addf (F := Ideal) v39 v41
  -- the rectifier, on `v42`
  let relu_cst : FVec Ideal S_ .f32 := constant (F := Ideal) S_ .f32 0x00000000#32
  let relu_v0 : FVec Ideal S100000x128 .f32 := broadcastInDim S100000x128 ![] bcast_S_S100000x128 relu_cst
  let v43 : FVec Ideal S100000x128 .f32 := maximumf (F := Ideal) v42 relu_v0
  addf (F := Ideal) feat v43

/-- Everything after the neighbourhood mean `a`: the linear map, its column mean and variance, the normalisation. -/
def tail (a feat : FVec Ideal S100000x128 .f32) (w : FVec Ideal S128x128 .f32) (b g be : FVec Ideal S128 .f32) :
    FVec Ideal S100000x128 .f32 :=
  let h : FVec Ideal S100000x128 .f32 := linPart a w b
  normPart feat h (meanPart h) (varPart h) g be

/-! ## What each stretch leaves

For any contents `W` before it: the stretch's result buffer holds the stretch's term of the buffers it reads, and
the buffers a later stretch reads, which it does not write, hold what they held. -/

/-- The fold over two stretches is the fold over the second from the fold over the first. -/
theorem after_append {Val : EltTy → Type} (l₁ l₂ : List (HloOp τ sig Val)) (W : Valuation τ sig Val) :
    after (l₁ ++ l₂) W = after l₂ (after l₁ W) := by
  induction l₁ generalizing W with
  | nil => rfl
  | cons op l ih => exact ih (op.result W)

/-- The first stretch computes the neighbourhood mean: `Cert.Spec.agg` was written operation for operation after it. -/
theorem A_v18 (W : Valuation τ sig (Elt Ideal)) :
    after opsA W (main_v18 : DevRef τ sig) = (Cert.Spec.agg scatter_S100000_S1000000x1_S1000000_n_0_0_1
        gather_S100000x128_S1000000x1_S1000000x128_1_0_n_n_0_1_1128
        scatter_S100000x128_S1000000x1_S1000000x128_1_0_0_1
        bcast_S_S1000000 bcast_S_S100000 bcast_S1000000_S1000000x1_0 bcast_S_S100000x128
        bcast_S100000_S100000x1_0 bcast_S100000x1_S100000x128_0_1
        (W (main_arg0 : DevRef τ sig)) (W (main_arg1 : DevRef τ sig)) (W (main_arg2 : DevRef τ sig))) := by
  after_results_simp
  rfl
theorem A_arg0 (W : Valuation τ sig (Elt Ideal)) :
    after opsA W (main_arg0 : DevRef τ sig) = W (main_arg0 : DevRef τ sig) := by after_results_simp
theorem A_arg3 (W : Valuation τ sig (Elt Ideal)) :
    after opsA W (main_arg3 : DevRef τ sig) = W (main_arg3 : DevRef τ sig) := by after_results_simp
theorem A_arg4 (W : Valuation τ sig (Elt Ideal)) :
    after opsA W (main_arg4 : DevRef τ sig) = W (main_arg4 : DevRef τ sig) := by after_results_simp
theorem A_arg5 (W : Valuation τ sig (Elt Ideal)) :
    after opsA W (main_arg5 : DevRef τ sig) = W (main_arg5 : DevRef τ sig) := by after_results_simp
theorem A_arg6 (W : Valuation τ sig (Elt Ideal)) :
    after opsA W (main_arg6 : DevRef τ sig) = W (main_arg6 : DevRef τ sig) := by after_results_simp

theorem L_v23 (W : Valuation τ sig (Elt Ideal)) :
    after opsL W (main_v23 : DevRef τ sig) = linPart (W (main_v18 : DevRef τ sig)) (W (main_arg3 : DevRef τ sig)) (W (main_arg4 : DevRef τ sig)) := by
  after_results_simp
  rfl
theorem L_arg0 (W : Valuation τ sig (Elt Ideal)) :
    after opsL W (main_arg0 : DevRef τ sig) = W (main_arg0 : DevRef τ sig) := by after_results_simp
theorem L_arg5 (W : Valuation τ sig (Elt Ideal)) :
    after opsL W (main_arg5 : DevRef τ sig) = W (main_arg5 : DevRef τ sig) := by after_results_simp
theorem L_arg6 (W : Valuation τ sig (Elt Ideal)) :
    after opsL W (main_arg6 : DevRef τ sig) = W (main_arg6 : DevRef τ sig) := by after_results_simp

theorem M_v26 (W : Valuation τ sig (Elt Ideal)) :
    after opsM W (main_v26 : DevRef τ sig) = meanPart (W (main_v23 : DevRef τ sig)) := by
  after_results_simp
  rfl
theorem M_v23 (W : Valuation τ sig (Elt Ideal)) :
    after opsM W (main_v23 : DevRef τ sig) = W (main_v23 : DevRef τ sig) := by after_results_simp
theorem M_arg0 (W : Valuation τ sig (Elt Ideal)) :
    after opsM W (main_arg0 : DevRef τ sig) = W (main_arg0 : DevRef τ sig) := by after_results_simp
theorem M_arg5 (W : Valuation τ sig (Elt Ideal)) :
    after opsM W (main_arg5 : DevRef τ sig) = W (main_arg5 : DevRef τ sig) := by after_results_simp
theorem M_arg6 (W : Valuation τ sig (Elt Ideal)) :
    after opsM W (main_arg6 : DevRef τ sig) = W (main_arg6 : DevRef τ sig) := by after_results_simp

theorem V_v27 (W : Valuation τ sig (Elt Ideal)) :
    after opsV W (main_v27 : DevRef τ sig) = varPart (W (main_v23 : DevRef τ sig)) := by
  after_results_simp
  rfl
theorem V_v23 (W : Valuation τ sig (Elt Ideal)) :
    after opsV W (main_v23 : DevRef τ sig) = W (main_v23 : DevRef τ sig) := by after_results_simp
theorem V_v26 (W : Valuation τ sig (Elt Ideal)) :
    after opsV W (main_v26 : DevRef τ sig) = W (main_v26 : DevRef τ sig) := by after_results_simp
theorem V_arg0 (W : Valuation τ sig (Elt Ideal)) :
    after opsV W (main_arg0 : DevRef τ sig) = W (main_arg0 : DevRef τ sig) := by after_results_simp
theorem V_arg5 (W : Valuation τ sig (Elt Ideal)) :
    after opsV W (main_arg5 : DevRef τ sig) = W (main_arg5 : DevRef τ sig) := by after_results_simp
theorem V_arg6 (W : Valuation τ sig (Elt Ideal)) :
    after opsV W (main_arg6 : DevRef τ sig) = W (main_arg6 : DevRef τ sig) := by after_results_simp

theorem N_v44 (W : Valuation τ sig (Elt Ideal)) :
    after opsN W (main_v44 : DevRef τ sig)
      = normPart (W (main_arg0 : DevRef τ sig)) (W (main_v23 : DevRef τ sig)) (W (main_v26 : DevRef τ sig)) (W (main_v27 : DevRef τ sig)) (W (main_arg5 : DevRef τ sig)) (W (main_arg6 : DevRef τ sig)) := by
  after_results_simp
  rfl

/-! ## What the line leaves in the result buffer and in the arguments -/

/-- The fold at the result buffer, stretch by stretch from the last: the normalisation of the linear map's output
    with its column mean and variance, the linear map of the neighbourhood mean, the neighbourhood mean of the
    three graph inputs; the arguments read along the way are never written. -/
theorem result_eq (V : Valuation τ sig (Elt Ideal)) :
    after ops V (main_v44 : DevRef τ sig)
      = tail (Cert.Spec.agg scatter_S100000_S1000000x1_S1000000_n_0_0_1
            gather_S100000x128_S1000000x1_S1000000x128_1_0_n_n_0_1_1128
            scatter_S100000x128_S1000000x1_S1000000x128_1_0_0_1
            bcast_S_S1000000 bcast_S_S100000 bcast_S1000000_S1000000x1_0 bcast_S_S100000x128
            bcast_S100000_S100000x1_0 bcast_S100000x1_S100000x128_0_1
            (V (main_arg0 : DevRef τ sig)) (V (main_arg1 : DevRef τ sig)) (V (main_arg2 : DevRef τ sig)))
          (V (main_arg0 : DevRef τ sig)) (V (main_arg3 : DevRef τ sig)) (V (main_arg4 : DevRef τ sig)) (V (main_arg5 : DevRef τ sig)) (V (main_arg6 : DevRef τ sig)) := by
  rw [after_append, after_append, after_append, after_append, N_v44,
    V_v27, V_v23, V_v26, V_arg0, V_arg5, V_arg6,
    M_v26, M_v23, M_arg0, M_arg5, M_arg6,
    L_v23, L_arg0, L_arg5, L_arg6,
    A_v18, A_arg0, A_arg3, A_arg4, A_arg5, A_arg6]
  rfl

/-- No operation writes an argument. -/
theorem arg_eq (V : Valuation τ sig (Elt Ideal)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig) := by
  simp only [ops, opsA, opsL, opsM, opsV, opsN, List.cons_append, List.nil_append]
  refine ⟨?_, ?_, ?_, ?_, ?_, ?_, ?_⟩ <;> after_results_simp

/-- On every device, from any memory with zero counters: every weakly fair execution of the reference terminates,
    with the result buffer at `tail` of the neighbourhood mean of the launch contents and every argument unchanged. -/
theorem run (m : (l : Loc nD τ sig) → Buf (Elt Ideal) l) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44)
        = tail (Cert.Spec.agg scatter_S100000_S1000000x1_S1000000_n_0_0_1
            gather_S100000x128_S1000000x1_S1000000x128_1_0_n_n_0_1_1128
            scatter_S100000x128_S1000000x1_S1000000x128_1_0_0_1
            bcast_S_S1000000 bcast_S_S100000 bcast_S1000000_S1000000x1_0 bcast_S_S100000x128
            bcast_S100000_S100000x1_0 bcast_S100000x1_S100000x128_0_1
            (m ((c.tc : Thread nD τ).loc main_arg0)) (m ((c.tc : Thread nD τ).loc main_arg1)) (m ((c.tc : Thread nD τ).loc main_arg2)))
            (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨(h c main_v44).trans (result_eq _),
      (h c main_arg0).trans (arg_eq _).1,
      (h c main_arg1).trans (arg_eq _).2.1,
      (h c main_arg2).trans (arg_eq _).2.2.1,
      (h c main_arg3).trans (arg_eq _).2.2.2.1,
      (h c main_arg4).trans (arg_eq _).2.2.2.2.1,
      (h c main_arg5).trans (arg_eq _).2.2.2.2.2.1,
      (h c main_arg6).trans (arg_eq _).2.2.2.2.2.2⟩)
    (run_seq scopedRefs_eq scopedSems_eq defs main (fun _ => ops) main_eq (fun _ => ops_sub) m ρ)

/-- The same run, keeping only that the arguments end unchanged. -/
theorem frame (m : (l : Loc nD τ sig) → Buf (Elt Ideal) l) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => (h c).2) (run m ρ)

end Cert.ReferenceIdeal.RefRun

end
-- ==== Proof.Algebra.lean ====
/-
  The algebra of the layer's statistics, over the extended reals.

  Three kinds of fact about the definitions of the specification. A finite sum of real numbers, each
  read as an extended real, is the real sum read as an extended real; so a linear map of real entries
  has real entries. A column's sum over the 100000 nodes is the running total, over the 20 blocks of
  5000 consecutive rows, of the blocks' sums: the rows are the pairs (block, row within the block), and
  a sum over pairs is a sum of sums. And the two textbook forms of the variance agree on real data:
  with N = 100000, S = ∑ x_r, Q = ∑ x_r², μ = S / N,
      ∑ (x_r − μ)² = Q − 2 μ S + N μ²,   so   ∑ (x_r − μ)² / N = Q / N − μ².
-/
import proofs.«148803_j76647986365164_1_alg».proof.Proof.Spec
import Mathlib.Algebra.BigOperators.Fin
import Mathlib.Data.Fintype.BigOperators
import Mathlib.Tactic.Ring
import Mathlib.Tactic.NormNum.Basic

noncomputable section

open scoped BigOperators

namespace Cert.Spec

open Idealize.ShloMosaic

/-! ## Sums of reals inside the extended reals -/

/-- The reals sit in the extended reals additively. -/
def coeHom : ℝ →+ EReal := ⟨⟨Real.toEReal, EReal.coe_zero⟩, EReal.coe_add⟩

/-- A finite sum of reals, read in the extended reals, is the sum of the terms read there. -/
theorem coe_finset_sum {ι : Type*} (s : Finset ι) (f : ι → ℝ) :
    ((∑ i ∈ s, f i : ℝ) : EReal) = ∑ i ∈ s, (f i : EReal) :=
  map_sum coeHom f s

/-- The same over a whole finite type. -/
theorem coe_fintype_sum {ι : Type*} [Fintype ι] (f : ι → ℝ) :
    ((∑ i, f i : ℝ) : EReal) = ∑ i, (f i : EReal) :=
  coe_finset_sum Finset.univ f

/-- A finite sum of extended reals that are all real is real. -/
theorem exists_real_finset_sum {ι : Type*} (s : Finset ι) (g : ι → EReal)
    (hg : ∀ i, ∃ x : ℝ, g i = (x : EReal)) : ∃ x : ℝ, ∑ i ∈ s, g i = (x : EReal) := by
  choose f hf using hg
  exact ⟨∑ i ∈ s, f i, by rw [coe_finset_sum]; exact Finset.sum_congr rfl fun i _ => hf i⟩

/-- The same over a whole finite type. -/
theorem exists_real_fintype_sum {ι : Type*} [Fintype ι] (g : ι → EReal)
    (hg : ∀ i, ∃ x : ℝ, g i = (x : EReal)) : ∃ x : ℝ, ∑ i, g i = (x : EReal) :=
  exists_real_finset_sum Finset.univ g hg

/-! ## The node count -/

/-- The pattern of the node count denotes the real number 100000:
    sign 0, exponent 143 = 127 + 16, significand 2²³ + 4411392 = 12800000 = 100000 · 2⁷. -/
theorem cnt_eq : cnt = ((100000 : ℝ) : EReal) := by
  simp [cnt, Ideal.ofBits, Ideal.ieee, -EReal.coe_mul]; norm_num

/-! ## Running totals and sums by blocks -/

/-- The running total after n steps is the sum of the first n terms. -/
theorem runTotal_eq_sum (g : ℕ → EReal) (n : ℕ) : runTotal g n = ∑ i ∈ Finset.range n, g i := by
  induction n with
  | zero => rfl
  | succ n ih => rw [runTotal, ih, Finset.sum_range_succ]

/-- The rows are the pairs (block, row within the block): r = 5000 t + q with q < 5000. -/
def rowEquiv : Fin 20 × Fin 5000 ≃ Fin 100000 where
  toFun p := rowOf p.1 p.2
  invFun r := (⟨r.val / 5000, by omega⟩, ⟨r.val % 5000, by omega⟩)
  left_inv p := by
    rcases p with ⟨⟨t, ht⟩, ⟨q, hq⟩⟩
    refine Prod.ext (Fin.ext ?_) (Fin.ext ?_)
    · show (t * 5000 + q) / 5000 = t
      omega
    · show (t * 5000 + q) % 5000 = q
      omega
  right_inv r := by
    refine Fin.ext ?_
    show r.val / 5000 * 5000 + r.val % 5000 = r.val
    omega

/-- A sum over all the rows is the running total, over the 20 blocks, of the sums over each block. -/
theorem sum_rows_blocks (f : Fin 100000 → EReal) :
    ∑ r : Fin 100000, f r
      = runTotal (fun t => if ht : t < 20 then ∑ q : Fin 5000, f (rowOf ⟨t, ht⟩ q) else 0) 20 := by
  rw [runTotal_eq_sum, Finset.sum_range, ← Equiv.sum_comp rowEquiv f, Fintype.sum_prod_type]
  refine Finset.sum_congr rfl fun t _ => ?_
  rw [dif_pos t.isLt]
  rfl

theorem colSum_blocks (h : Fin 100000 → Fin 128 → EReal) (j : Fin 128) :
    colSum h j
      = runTotal (fun t => if ht : t < 20 then ∑ q : Fin 5000, h (rowOf ⟨t, ht⟩ q) j else 0) 20 :=
  sum_rows_blocks fun r => h r j

theorem colSumSq_blocks (h : Fin 100000 → Fin 128 → EReal) (j : Fin 128) :
    colSumSq h j
      = runTotal (fun t => if ht : t < 20 then
          ∑ q : Fin 5000, h (rowOf ⟨t, ht⟩ q) j * h (rowOf ⟨t, ht⟩ q) j else 0) 20 :=
  sum_rows_blocks fun r => h r j * h r j

/-! ## The linear map of real entries has real entries -/

theorem lin_real (a : Fin 100000 → Fin 128 → EReal) (w : Fin 128 → Fin 128 → EReal) (b : Fin 128 → EReal)
    (ha : ∀ r k, ∃ x : ℝ, a r k = (x : EReal)) (hw : ∀ j k, ∃ x : ℝ, w j k = (x : EReal))
    (hb : ∀ j, ∃ x : ℝ, b j = (x : EReal)) : ∀ r j, ∃ x : ℝ, lin a w b r j = (x : EReal) := by
  intro r j
  choose xa hxa using ha
  choose xw hxw using hw
  choose xb hxb using hb
  refine ⟨(∑ k : Fin 128, xa r k * xw j k) + xb j, ?_⟩
  rw [lin, EReal.coe_add, coe_fintype_sum, hxb]
  congr 1
  exact Finset.sum_congr rfl fun k _ => by rw [hxa, hxw, EReal.coe_mul]

/-! ## The two forms of the variance -/

/-- Over the reals: the mean squared deviation is the second moment less the squared mean. -/
theorem real_var (x : Fin 100000 → ℝ) :
    (∑ r, x r * x r) * (1 / 100000) - (∑ r, x r) * (1 / 100000) * ((∑ r, x r) * (1 / 100000))
      = (∑ r, (x r - (∑ r, x r) * (1 / 100000)) * (x r - (∑ r, x r) * (1 / 100000))) * (1 / 100000) := by
  have expand : ∀ μ : ℝ, ∑ r, (x r - μ) * (x r - μ)
      = (∑ r, x r * x r) - 2 * μ * (∑ r, x r) + 100000 * (μ * μ) := by
    intro μ
    calc ∑ r, (x r - μ) * (x r - μ)
        = ∑ r, (x r * x r - 2 * μ * x r + μ * μ) := Finset.sum_congr rfl fun r _ => by ring
      _ = (∑ r, x r * x r) - 2 * μ * (∑ r, x r) + 100000 * (μ * μ) := by
          rw [Finset.sum_add_distrib, Finset.sum_sub_distrib, ← Finset.mul_sum, Finset.sum_const,
            Finset.card_univ, Fintype.card_fin, nsmul_eq_mul]
          norm_num
  rw [expand]
  ring

theorem varMoment_eq_varCentered (h : Fin 100000 → Fin 128 → EReal)
    (hh : ∀ r j, ∃ x : ℝ, h r j = (x : EReal)) (j : Fin 128) : varMoment h j = varCentered h j := by
  choose x hx using hh
  have hN : (100000 : ℝ) ≠ 0 := by norm_num
  have hS : colSum h j = ((∑ r, x r j : ℝ) : EReal) := by
    rw [colSum, coe_fintype_sum]
    exact Finset.sum_congr rfl fun r _ => hx r j
  have hQ : colSumSq h j = ((∑ r, x r j * x r j : ℝ) : EReal) := by
    rw [colSumSq, coe_fintype_sum]
    exact Finset.sum_congr rfl fun r _ => by rw [hx, EReal.coe_mul]
  have hμ : mean h j = (((∑ r, x r j) * (1 / 100000) : ℝ) : EReal) := by
    rw [mean, hS, cnt_eq, Ideal.div_coe hN, ← EReal.coe_mul]
  have hD : (∑ r : Fin 100000, (h r j - mean h j) * (h r j - mean h j))
      = ((∑ r, (x r j - (∑ r, x r j) * (1 / 100000)) * (x r j - (∑ r, x r j) * (1 / 100000)) : ℝ) : EReal) := by
    rw [coe_fintype_sum]
    exact Finset.sum_congr rfl fun r _ => by rw [hμ, hx, ← EReal.coe_sub, ← EReal.coe_mul]
  rw [varMoment, varCentered, hD, hQ, hμ, cnt_eq, Ideal.div_coe hN, Ideal.div_coe hN,
    ← EReal.coe_mul, ← EReal.coe_mul, ← EReal.coe_mul, ← EReal.coe_sub, real_var fun r => x r j]

end Cert.Spec

end
-- ==== Proof.Finite.lean ====
/-
  What the precondition gives: real numbers.

  The precondition is the conjunction, over the five float inputs, of "every entry `x` has `|x| < +∞`". Over the extended
  reals `|x|` is `max x (−x)`, which is `+∞` at both infinities, so each conjunct says that every entry of its input is a
  real number (`real_of_pre`).

  The neighbourhood mean of real features is then real everywhere (`agg_real`): a gather reads a feature entry; a
  scatter-add is, at each entry, the operand's entry plus a FINITE sum of update entries, and a finite sum of reals is a
  real; the in-degree is such a sum of ones onto zero, and clamped below at one it is a real that is at least one, hence
  not zero; and a real divided by a nonzero real is a real. The broadcasts in between only re-index.
-/
import proofs.«148803_j76647986365164_1_alg».proof.Proof.Spec
import proofs.«148803_j76647986365164_1_alg».proof.Pre_finite_inputs
import Idealize.ShloMosaic.Lib.ReduceAll

noncomputable section

open scoped BigOperators

namespace Cert.Finite

open Idealize.ShloMosaic Cert.Spec

/-! ## The precondition read back -/

/-- The pattern the precondition compares against denotes `+∞`. -/
theorem inf_pattern : Ideal.ofBits .f32 0x7F800000#32 = ⊤ := by simp [Ideal.ofBits, Ideal.ieee]

/-- An extended real whose absolute value `max x (−x)` lies strictly below `+∞` is a real number:
    at `+∞` the maximum is `+∞` itself, and at `−∞` it is `−(−∞) = +∞`. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change BitVec.ofBool (decide (max x (-x) < Ideal.ofBits .f32 0x7F800000#32)) = 1#1 at h
  rw [inf_pattern] at h
  induction x using EReal.rec with
  | bot => simp at h
  | coe r => exact ⟨r, rfl⟩
  | top => simp at h

/-- One conjunct of the precondition read back: if the `and` over all entries of `|a| < +∞` is 1, every entry of `a`
    is a real number. (The result of the reduction is a scalar: it has one index.) -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a)
          (broadcastInDim s ![] hb (constant (F := Ideal) Cert.Pre_finite_inputs.S_ .f32 0x7F800000#32)))
        (constantI Cert.Pre_finite_inputs.S_ 1 1#1) hr hu ValueIdx.ix0 = 1#1) :
    ∀ i, ∃ r : ℝ, a i = (r : EReal) :=
  haveI : Subsingleton Cert.Pre_finite_inputs.S_.Idx := ⟨fun _ _ => funext fun d => d.elim0⟩
  fun i => real_of_abs_lt_inf (a i) (Host.reduce_andi_all _ _ hr hu _ e i)

/-- The precondition read back: each of the five float inputs is real at every entry. -/
theorem real_of_pre [Cert.Pre_finite_inputs.Facts] (a0 : FVec Ideal Cert.Pre_finite_inputs.S100000x128 .f32)
    (a1 a2 : IVec Cert.Pre_finite_inputs.S1000000 32) (a3 : FVec Ideal Cert.Pre_finite_inputs.S128x128 .f32)
    (a4 a5 a6 : FVec Ideal Cert.Pre_finite_inputs.S128 .f32)
    (h : Cert.Pre_finite_inputs.fn (F := Ideal) a0 a1 a2 a3 a4 a5 a6 = fun _ => 1#1) :
    (∀ i, ∃ x : ℝ, a0 i = (x : EReal)) ∧ (∀ i, ∃ x : ℝ, a3 i = (x : EReal)) ∧ (∀ i, ∃ x : ℝ, a4 i = (x : EReal))
      ∧ (∀ i, ∃ x : ℝ, a5 i = (x : EReal)) ∧ (∀ i, ∃ x : ℝ, a6 i = (x : EReal)) := by
  have h0 := congrFun h ValueIdx.ix0
  dsimp only [Cert.Pre_finite_inputs.fn, Cert.Pre_finite_inputs.fn_part1] at h0
  -- the result is the `and` of the five reductions, nested to the left
  obtain ⟨h0123, e6⟩ := IntOp.andi_eq_one.1 h0
  obtain ⟨h012, e5⟩ := IntOp.andi_eq_one.1 h0123
  obtain ⟨h01, e4⟩ := IntOp.andi_eq_one.1 h012
  obtain ⟨e0, e3⟩ := IntOp.andi_eq_one.1 h01
  exact ⟨real_of_all a0 _ _ _ e0, real_of_all a3 _ _ _ e3, real_of_all a4 _ _ _ e4, real_of_all a5 _ _ _ e5,
    real_of_all a6 _ _ _ e6⟩

/-! ## Real numbers among the extended reals: sums, quotients, the maximum with one -/

/-- A finite sum of real numbers is a real number. -/
theorem sum_real {ι : Type} (S : Finset ι) (f : ι → EReal) (hf : ∀ j, ∃ r : ℝ, f j = (r : EReal)) :
    ∃ r : ℝ, ∑ j ∈ S, f j = (r : EReal) := by
  induction S using Finset.cons_induction with
  | empty => exact ⟨0, by rw [Finset.sum_empty, EReal.coe_zero]⟩
  | cons a S ha ih =>
    obtain ⟨p, hp⟩ := hf a
    obtain ⟨q, hq⟩ := ih
    exact ⟨p + q, by rw [Finset.sum_cons, hp, hq, EReal.coe_add]⟩

/-- A real number plus a finite sum of real numbers is a real number. -/
theorem add_sum_real {ι : Type} (S : Finset ι) (a : EReal) (f : ι → EReal) (ha : ∃ r : ℝ, a = (r : EReal))
    (hf : ∀ j, ∃ r : ℝ, f j = (r : EReal)) : ∃ r : ℝ, a + ∑ j ∈ S, f j = (r : EReal) := by
  obtain ⟨p, hp⟩ := ha
  obtain ⟨q, hq⟩ := sum_real S f hf
  exact ⟨p + q, by rw [hp, hq, EReal.coe_add]⟩

/-- The quotient of a real number by a nonzero real number is a real number. -/
theorem div_real (x y : ℝ) (hy : y ≠ 0) : ∃ r : ℝ, Ideal.div (x : EReal) (y : EReal) = (r : EReal) :=
  ⟨x * (1 / y), by rw [Ideal.div_coe hy, EReal.coe_mul]⟩

/-- The pattern of `1.0` denotes the real number one. -/
theorem one_pattern : Ideal.ofBits .f32 0x3F800000#32 = ((1 : ℝ) : EReal) := by
  simp [Ideal.ofBits, Ideal.ieee, -EReal.coe_mul]; norm_num

/-- The pattern of `+0.0` denotes the real number zero. -/
theorem zero_pattern : Ideal.ofBits .f32 0x00000000#32 = ((0 : ℝ) : EReal) := by
  simp [Ideal.ofBits, Ideal.ieee]

/-- The maximum of a real number with one is a real number, and not zero: it is at least one. -/
theorem max_one_real (r : ℝ) : ∃ q : ℝ, q ≠ 0 ∧ max (r : EReal) ((1 : ℝ) : EReal) = (q : EReal) :=
  ⟨max r 1, (lt_of_lt_of_le one_pos (le_max_right r 1)).ne', (EReal.coe_strictMono.monotone.map_max).symm⟩

/-! ## The host operations of the neighbourhood mean, each keeping real entries real -/

/-- A broadcast reads an operand entry: what holds of every operand entry holds of every result entry. -/
theorem broadcastInDim_forall {s t : Shape} {α : Type} {dims : Fin s.rank → Fin t.rank} (h : s.BroadcastsInDim t dims)
    (x : s.Idx → α) (P : α → Prop) (hx : ∀ k, P (x k)) : ∀ j, P (broadcastInDim t dims h x j) :=
  fun _ => hx _

/-- A gather reads an operand entry (at a clamped index): what holds of every operand entry holds of every row read. -/
theorem gather_forall {s si t : Shape} {α : Type} {w : Nat} (d : GatherDims s si t) (x : s.Idx → α) (idx : IVec si w)
    (P : α → Prop) (hx : ∀ k, P (x k)) : ∀ j, P (Host.gather d x idx j) :=
  fun _ => hx _

/-- The scatter-add is, at each entry, the operand's entry plus the finite sum of the updates landing there: real when
    the operand and the updates are. -/
theorem scatterAdd_real {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal)) :
    ∀ i, ∃ r : ℝ, Host.scatterAdd (F := Ideal) d x idx upd i = (r : EReal) :=
  fun i => add_sum_real _ (x i) upd (hx i) hu

/-- The host's quotient of real entries by nonzero real entries has real entries. -/
theorem divf_real {s : Shape} (a b : FVec Ideal s .f32) (ha : ∀ i, ∃ r : ℝ, a i = (r : EReal))
    (hb : ∀ i, ∃ r : ℝ, r ≠ 0 ∧ b i = (r : EReal)) : ∀ i, ∃ r : ℝ, Host.divf a b i = (r : EReal) := by
  intro i
  obtain ⟨p, hp⟩ := ha i
  obtain ⟨q, hq0, hq⟩ := hb i
  obtain ⟨r, hr⟩ := div_real p q hq0
  exact ⟨r, by show Ideal.div (a i) (b i) = _; rw [hp, hq, hr]⟩

/-- The maximum with the all-ones vector of a vector of real entries has nonzero real entries. -/
theorem max_ones_real {s : Shape} (a ones : FVec Ideal s .f32) (ha : ∀ i, ∃ r : ℝ, a i = (r : EReal))
    (h1 : ∀ i, ones i = ((1 : ℝ) : EReal)) : ∀ i, ∃ r : ℝ, r ≠ 0 ∧ maximumf a ones i = (r : EReal) := by
  intro i
  obtain ⟨p, hp⟩ := ha i
  obtain ⟨q, hq0, hq⟩ := max_one_real p
  exact ⟨q, hq0, by show max (a i) (ones i) = _; rw [hp, h1 i, hq]⟩

/-! ## The neighbourhood mean is real wherever the features are -/

/-- The neighbourhood mean of real features is real at every entry: the in-degree is a zero plus a finite sum of ones,
    clamped below at one it is a nonzero real; the gathered rows are feature entries, their scatter-add onto zeros a
    finite sum of reals; and a real over a nonzero real is a real. -/
theorem agg_real (sdeg : ScatterDims SNodes SEdgesCol SEdges) (gsrc : GatherDims SFeat SEdgesCol SEdgeFeat)
    (ssum : ScatterDims SFeat SEdgesCol SEdgeFeat)
    (b1 : SScalar.BroadcastsInDim SEdges (![] : Fin 0 → Fin SEdges.rank))
    (b2 : SScalar.BroadcastsInDim SNodes (![] : Fin 0 → Fin SNodes.rank))
    (b3 : SEdges.BroadcastsInDim SEdgesCol (![0] : Fin 1 → Fin SEdgesCol.rank))
    (b4 : SScalar.BroadcastsInDim SFeat (![] : Fin 0 → Fin SFeat.rank))
    (b5 : SNodes.BroadcastsInDim SNodesCol (![0] : Fin 1 → Fin SNodesCol.rank))
    (b6 : SNodesCol.BroadcastsInDim SFeat (![0, 1] : Fin 2 → Fin SFeat.rank))
    (feat : FVec Ideal SFeat .f32) (src dst : IVec SEdges 32) (hf : ∀ i, ∃ x : ℝ, feat i = (x : EReal)) :
    ∀ i, ∃ x : ℝ, agg sdeg gsrc ssum b1 b2 b3 b4 b5 b6 feat src dst i = (x : EReal) := by
  unfold agg
  -- the constant vectors: ones along the edges, zeros and ones along the nodes, zeros over the feature table
  have hones : ∀ j, ∃ r : ℝ,
      broadcastInDim SEdges ![] b1 (constant (F := Ideal) SScalar .f32 0x3F800000#32) j = (r : EReal) :=
    fun _ => ⟨1, one_pattern⟩
  have hzeros : ∀ j, ∃ r : ℝ,
      broadcastInDim SNodes ![] b2 (constant (F := Ideal) SScalar .f32 0x00000000#32) j = (r : EReal) :=
    fun _ => ⟨0, zero_pattern⟩
  have hzeros2 : ∀ j, ∃ r : ℝ,
      broadcastInDim SFeat ![] b4 (constant (F := Ideal) SScalar .f32 0x00000000#32) j = (r : EReal) :=
    fun _ => ⟨0, zero_pattern⟩
  have honesN : ∀ j,
      broadcastInDim SNodes ![] b2 (constant (F := Ideal) SScalar .f32 0x3F800000#32) j = ((1 : ℝ) : EReal) :=
    fun _ => one_pattern
  -- the in-degree, then clamped below at one, then laid along the feature table's rows
  have hdeg := scatterAdd_real sdeg _ (broadcastInDim SEdgesCol ![0] b3 dst) _ hzeros hones
  have hdegc := max_ones_real _ _ hdeg honesN
  have hdegB := broadcastInDim_forall b6 _ (fun v : EReal => ∃ r : ℝ, r ≠ 0 ∧ v = (r : EReal))
    (broadcastInDim_forall b5 _ (fun v : EReal => ∃ r : ℝ, r ≠ 0 ∧ v = (r : EReal)) hdegc)
  -- the gathered source rows, summed onto the destination rows
  have hrows := gather_forall gsrc feat
    (broadcastInDim SEdgesCol ![0] b3
      (select (cmpi .slt src (broadcastInDim SEdges ![] b1 (constantI SScalar 32 0#32)))
        (addi src (broadcastInDim SEdges ![] b1 (constantI SScalar 32 100000#32))) src))
    (fun v : EReal => ∃ r : ℝ, v = (r : EReal)) hf
  have hsummed := scatterAdd_real ssum _ (broadcastInDim SEdgesCol ![0] b3 dst) _ hzeros2 hrows
  exact divf_real _ _ hsummed hdegB

end Cert.Finite

end
-- ==== Proof.KIHostValue.lean ====
/-
  What the kernel program's two stretches of host operations compute, over the extended reals.

  The first stretch (before the statistics region) computes the neighbourhood mean — operation for operation the term
  Cert.Spec.agg of the launch contents of the features and the two edge-index vectors — and lays the bias, the scale
  and the shift out as 1×128 rows; it writes none of the arguments. The second stretch (between the two regions) divides
  the two column sums the statistics region leaves by the node count, giving the mean and the second moment, and
  subtracts the squared mean from the second moment: the variance in its moment form. Neither the statistics region
  (whose inputs come back as they were entered) nor the second stretch touches the neighbourhood mean, the features, the
  weights or the three rows, so the normalisation region finds them as the first stretch left them.
-/
import proofs.«148803_j76647986365164_1_alg».proof.Proof.KILaunch
import proofs.«148803_j76647986365164_1_alg».proof.Proof.Spec
import Idealize.ShloMosaic.Lib.StableHlo.Run
import Idealize.ShloMosaic.Lib.ValueIdx
import Idealize.ShloMosaic.Lib.ValueLayout

set_option maxRecDepth 16384

noncomputable section

namespace Cert.KernelIdeal.HostValue

open Idealize.ShloMosaic Idealize.ShloMosaic.TcCoe
open Idealize.SL.Sem
open Idealize.ShloMosaic.StableHlo
open Idealize.ShloMosaic.ValueIdx
open Cert.KernelIdeal Cert.KernelIdeal.Gen

variable (m : (ℓ : Loc nD τ sig) → Buf (Elt Ideal) ℓ)

/-! ## The first stretch: the neighbourhood mean, and the three rows -/

/-- After the first stretch the buffer of %18 holds the neighbourhood mean of the launch contents of the features
    along the launch contents of the two edge-index vectors: the stretch's first twenty-five operations are the term
    Cert.Spec.agg, one for one. -/
theorem W1_agg (c : Dev nD) :
    (Run.W1 m c (Proc.devRef .tc main_v18) : FVec Ideal S100000x128 .f32)
      = Cert.Spec.agg scatter_S100000_S1000000x1_S1000000_n_0_0_1
          gather_S100000x128_S1000000x1_S1000000x128_1_0_n_n_0_1_1128
          scatter_S100000x128_S1000000x1_S1000000x128_1_0_0_1
          Facts₀.bcast_S_S1000000 Facts₀.bcast_S_S100000 Facts₀.bcast_S1000000_S1000000x1_0 Facts₀.bcast_S_S100000x128
          Facts₀.bcast_S100000_S100000x1_0 Facts₀.bcast_S100000x1_S100000x128_0_1
          (m ((c : Thread nD τ).loc main_arg0)) (m ((c : Thread nD τ).loc main_arg1)) (m ((c : Thread nD τ).loc main_arg2)) := by
  show StableHlo.after hostOps0 _ (Proc.devRef .tc main_v18) = _
  after_results_simp
  rfl

/-- The bias as a 1×128 row: entry (0, j) is the bias vector's entry j. -/
theorem W1_bias (c : Dev nD) (j : Fin 128) :
    (Run.W1 m c (Proc.devRef .tc main_v19) : S1x128.Idx → EReal) (ix2 0 j)
      = (m ((c : Thread nD τ).loc main_arg4) : S128.Idx → EReal) (ix1 j) := by
  have e : (Run.W1 m c (Proc.devRef .tc main_v19) : S1x128.Idx → EReal)
      = shapeCast S1x128 (m ((c : Thread nD τ).loc main_arg4) : S128.Idx → EReal) Facts₀.shapeCasts_S128_S1x128 := by
    show StableHlo.after hostOps0 _ (Proc.devRef .tc main_v19) = _
    after_results_simp <;> rfl
  rw [e]
  exact shapeCast_a_1a_apply _ _ 0 j

/-- The scale as a 1×128 row: entry (0, j) is the scale vector's entry j. -/
theorem W1_scale (c : Dev nD) (j : Fin 128) :
    (Run.W1 m c (Proc.devRef .tc main_v20) : S1x128.Idx → EReal) (ix2 0 j)
      = (m ((c : Thread nD τ).loc main_arg5) : S128.Idx → EReal) (ix1 j) := by
  have e : (Run.W1 m c (Proc.devRef .tc main_v20) : S1x128.Idx → EReal)
      = shapeCast S1x128 (m ((c : Thread nD τ).loc main_arg5) : S128.Idx → EReal) Facts₀.shapeCasts_S128_S1x128 := by
    show StableHlo.after hostOps0 _ (Proc.devRef .tc main_v20) = _
    after_results_simp <;> rfl
  rw [e]
  exact shapeCast_a_1a_apply _ _ 0 j

/-- The shift as a 1×128 row: entry (0, j) is the shift vector's entry j. -/
theorem W1_shift (c : Dev nD) (j : Fin 128) :
    (Run.W1 m c (Proc.devRef .tc main_v21) : S1x128.Idx → EReal) (ix2 0 j)
      = (m ((c : Thread nD τ).loc main_arg6) : S128.Idx → EReal) (ix1 j) := by
  have e : (Run.W1 m c (Proc.devRef .tc main_v21) : S1x128.Idx → EReal)
      = shapeCast S1x128 (m ((c : Thread nD τ).loc main_arg6) : S128.Idx → EReal) Facts₀.shapeCasts_S128_S1x128 := by
    show StableHlo.after hostOps0 _ (Proc.devRef .tc main_v21) = _
    after_results_simp <;> rfl
  rw [e]
  exact shapeCast_a_1a_apply _ _ 0 j

/-- The first stretch does not write the features: they are as launched. -/
theorem W1_arg0 (c : Dev nD) : Run.W1 m c (Proc.devRef .tc main_arg0) = m ((c : Thread nD τ).loc main_arg0) :=
  Run.W1_of m c main_arg0 (by decide)

/-- The first stretch does not write the weights: they are as launched. -/
theorem W1_arg3 (c : Dev nD) : Run.W1 m c (Proc.devRef .tc main_arg3) = m ((c : Thread nD τ).loc main_arg3) :=
  Run.W1_of m c main_arg3 (by decide)

/-! ## What the statistics region and the second stretch leave alone -/

/-- An input array of the statistics region comes out of it as it went in: an input window writes nothing back. -/
theorem W2_input (c : Dev nD) (w : Fin cfg0.W) (hin : (cfg0.win w).isOut = false) :
    Run.W2 m c (Proc.devRef .tc (Pipeline.arrRef spec0 w)) = Run.W1 m c (Proc.devRef .tc (Pipeline.arrRef spec0 w)) :=
  (Run.W2_arr m c w).trans
    ((Pipeline.Dat.arrAt_in (Stats.dat0 (Run.V1 m) c) w hin cfg0.N).trans (Stats.A_eq0 (Run.V1 m) c w))

/-- The neighbourhood mean reaches the normalisation region as the first stretch left it: it is the statistics
    region's window 0, an input, and the second stretch does not write it. -/
theorem W3_keep_agg (c : Dev nD) : Run.W3 m c (Proc.devRef .tc main_v18) = Run.W1 m c (Proc.devRef .tc main_v18) :=
  (Run.W3_of m c main_v18 (by decide)).trans (W2_input m c 0 rfl)

/-- So do the weights (window 1, an input) -/
theorem W3_keep_arg3 (c : Dev nD) : Run.W3 m c (Proc.devRef .tc main_arg3) = Run.W1 m c (Proc.devRef .tc main_arg3) :=
  (Run.W3_of m c main_arg3 (by decide)).trans (W2_input m c 1 rfl)

/-- and the bias row (window 2, an input). -/
theorem W3_keep_bias (c : Dev nD) : Run.W3 m c (Proc.devRef .tc main_v19) = Run.W1 m c (Proc.devRef .tc main_v19) :=
  (Run.W3_of m c main_v19 (by decide)).trans (W2_input m c 2 rfl)

/-- The features are no array of the statistics region, and the second stretch does not write them. -/
theorem W3_keep_arg0 (c : Dev nD) : Run.W3 m c (Proc.devRef .tc main_arg0) = Run.W1 m c (Proc.devRef .tc main_arg0) :=
  (Run.W3_of m c main_arg0 (by decide)).trans (Run.W2_of_ne m c main_arg0 (by decide))

/-- Likewise the scale row -/
theorem W3_keep_scale (c : Dev nD) : Run.W3 m c (Proc.devRef .tc main_v20) = Run.W1 m c (Proc.devRef .tc main_v20) :=
  (Run.W3_of m c main_v20 (by decide)).trans (Run.W2_of_ne m c main_v20 (by decide))

/-- and the shift row. -/
theorem W3_keep_shift (c : Dev nD) : Run.W3 m c (Proc.devRef .tc main_v21) = Run.W1 m c (Proc.devRef .tc main_v21) :=
  (Run.W3_of m c main_v21 (by decide)).trans (Run.W2_of_ne m c main_v21 (by decide))

/-! ## The second stretch: the mean and the variance from the two column sums -/

/-- The node count laid along a 1×128 row: what both quotients of the second stretch divide by. -/
abbrev cntRow : FVec Ideal S1x128 .f32 :=
  broadcastInDim S1x128 ![] Facts₀.bcast_S_S1x128 (constant (F := Ideal) S_ .f32 0x47C35000#32)

/-- The mean row: the column sums the statistics region leaves, each over the node count. -/
theorem W3_mean (c : Dev nD) (j : Fin 128) :
    (Run.W3 m c (Proc.devRef .tc main_v24) : S1x128.Idx → EReal) (ix2 0 j)
      = Ideal.div ((Run.W2 m c (Proc.devRef .tc main_v22_0) : S1x128.Idx → EReal) (ix2 0 j)) Cert.Spec.cnt := by
  have e : (Run.W3 m c (Proc.devRef .tc main_v24) : S1x128.Idx → EReal)
      = Host.divf (Run.W2 m c (Proc.devRef .tc main_v22_0) : FVec Ideal S1x128 .f32) cntRow := by
    show StableHlo.after hostOps1 _ (Proc.devRef .tc main_v24) = _
    after_results_simp <;> rfl
  rw [e]
  rfl

/-- The variance row: the column sums of squares over the node count, less the squared mean. -/
theorem W3_var (c : Dev nD) (j : Fin 128) :
    (Run.W3 m c (Proc.devRef .tc main_v28) : S1x128.Idx → EReal) (ix2 0 j)
      = Ideal.div ((Run.W2 m c (Proc.devRef .tc main_v22_1) : S1x128.Idx → EReal) (ix2 0 j)) Cert.Spec.cnt
        - Ideal.div ((Run.W2 m c (Proc.devRef .tc main_v22_0) : S1x128.Idx → EReal) (ix2 0 j)) Cert.Spec.cnt
          * Ideal.div ((Run.W2 m c (Proc.devRef .tc main_v22_0) : S1x128.Idx → EReal) (ix2 0 j)) Cert.Spec.cnt := by
  have e : (Run.W3 m c (Proc.devRef .tc main_v28) : S1x128.Idx → EReal)
      = subf (Host.divf (Run.W2 m c (Proc.devRef .tc main_v22_1) : FVec Ideal S1x128 .f32) cntRow)
          (mulf (Host.divf (Run.W2 m c (Proc.devRef .tc main_v22_0) : FVec Ideal S1x128 .f32) cntRow)
            (Host.divf (Run.W2 m c (Proc.devRef .tc main_v22_0) : FVec Ideal S1x128 .f32) cntRow)) := by
    show StableHlo.after hostOps1 _ (Proc.devRef .tc main_v28) = _
    after_results_simp <;> rfl
  rw [e]
  rfl

end Cert.KernelIdeal.HostValue

end
-- ==== Proof.KIStatsValue.lean ====
/-
  What the statistics region's two accumulators hold, at the ideal values, against the layer's mathematics.

  At grid point t the region's first window stages rows 5000 t … 5000 t + 4999 of the neighbourhood mean a, its second
  and third windows the whole weight matrix w and the whole bias row b. Read at an index, the body's value
  (the block times the transposed weights, plus the bias broadcast down the rows) is
      h (5000 t + q) j = ∑ k, a (5000 t + q) k · w j k + b j,
  the linear map of the specification at that row; a lane sum down the block's rows is the sum over q, so one point
  adds ∑ q, h (5000 t + q) j to the first accumulator and ∑ q, h (5000 t + q) j² to the second, both zero before the
  first point. By induction on the number of points the accumulators are the running totals of the blocks' sums,
  and after the 20 points those are the column sums and column sums of squares of h over all 100000 rows.
-/
import proofs.«148803_j76647986365164_1_alg».proof.Proof.KIStatsRegion
import proofs.«148803_j76647986365164_1_alg».proof.Proof.Algebra
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.StatsValue

open Idealize.ShloMosaic Idealize.ShloMosaic.TcCoe Idealize.SL.Sem
open Cert.KernelIdeal Cert.KernelIdeal.Gen Idealize.ShloMosaic.ValueIdx

variable (V : (c : Dev nD) → (b : Ref sig .tc) → Buf (Elt Ideal) ((c : Thread nD τ).loc b))

/-! ## The arrays as the region finds them, by coordinates -/

/-- The neighbourhood mean at node r, feature k. -/
def aOf (c : Dev nD) (r : Fin 100000) (k : Fin 128) : EReal := (V c main_v18 : S100000x128.Idx → EReal) (ix2 r k)
/-- The weight at output feature j, input feature k. -/
def wOf (c : Dev nD) (j k : Fin 128) : EReal := (V c main_arg3 : S128x128.Idx → EReal) (ix2 j k)
/-- The bias at feature j. -/
def bOf (c : Dev nD) (j : Fin 128) : EReal := (V c main_v19 : S1x128.Idx → EReal) (ix2 0 j)
/-- The linear map's output: the specification's, of those three. -/
def hOf (c : Dev nD) : Fin 100000 → Fin 128 → EReal := Cert.Spec.lin (aOf V c) (wOf V c) (bOf V c)

/-! ## The windows' blocks read at an index

The block indices of the three input windows, decided once over the grid: the first window's is (t, 0), the other
two's (0, 0). An element of a block sits in its array at block index × block size + its coordinate in the block. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem blk0_read (c : Dev nD) (t : Fin cfg0.N) (q : Fin 5000) (k : Fin 128) :
    (Stats.iblk0 V c 0 t : Vec Ideal S5000x128 .f32) (ix2 q k) = aOf V c (Cert.Spec.rowOf t q) k := by
  unfold Stats.iblk0 aOf
  rw [View.read_apply]
  show V c main_v18 _ = V c main_v18 _
  congr 1
  funext a
  apply Fin.ext
  match a with
  | ⟨0, _⟩ =>
    show win0_0.index t 0 * 5000 + 1 * q.val = t.val * 5000 + q.val
    rw [(idx0 t).1]; omega
  | ⟨1, _⟩ =>
    show win0_0.index t 1 * 128 + 1 * k.val = k.val
    rw [(idx0 t).2]; omega

theorem blk1_read (c : Dev nD) (t : Fin cfg0.N) (j k : Fin 128) :
    (Stats.iblk0 V c 1 t : Vec Ideal S128x128 .f32) (ix2 j k) = wOf V c j k := by
  unfold Stats.iblk0 wOf
  rw [View.read_apply]
  show V c main_arg3 _ = V c main_arg3 _
  congr 1
  funext a
  apply Fin.ext
  match a with
  | ⟨0, _⟩ =>
    show win0_1.index t 0 * 128 + 1 * j.val = j.val
    rw [(idx1 t).1]; omega
  | ⟨1, _⟩ =>
    show win0_1.index t 1 * 128 + 1 * k.val = k.val
    rw [(idx1 t).2]; omega

theorem blk2_read (c : Dev nD) (t : Fin cfg0.N) (j : Fin 128) :
    (Stats.iblk0 V c 2 t : Vec Ideal S1x128 .f32) (ix2 0 j) = bOf V c j := by
  unfold Stats.iblk0 bOf
  rw [View.read_apply]
  show V c main_v19 _ = V c main_v19 _
  congr 1
  funext a
  apply Fin.ext
  match a with
  | ⟨0, _⟩ =>
    show win0_2.index t 0 * 1 + 1 * 0 = 0
    rw [(idx2 t).1]
  | ⟨1, _⟩ =>
    show win0_2.index t 1 * 128 + 1 * j.val = j.val
    rw [(idx2 t).2]; omega

/-! ## The body's values read at an index -/

/-- The product's dimension numbers: rows × contraction times contraction × columns. -/
abbrev D : DotDims S5000x128 S128x128 S5000x128 := dot_S5000x128_S128x128_S5000x128_1_0_0_1_n_n

theorem lhsD_0 (j : S5000x128.Idx) (k : D.contr.Idx) : (D.lhsIdx j k 0 : ℕ) = j 0 := by
  simp [DotDims.lhsIdx, D, dot_S5000x128_S128x128_S5000x128_1_0_0_1_n_n]; rfl
theorem lhsD_1 (j : S5000x128.Idx) (k : D.contr.Idx) : (D.lhsIdx j k 1 : ℕ) = k ⟨0, by decide⟩ := by
  simp [DotDims.lhsIdx, D, dot_S5000x128_S128x128_S5000x128_1_0_0_1_n_n]; rfl
theorem rhsD_0 (j : S5000x128.Idx) (k : D.contr.Idx) : (D.rhsIdx j k 0 : ℕ) = k ⟨0, by decide⟩ := by
  simp [DotDims.rhsIdx, D, dot_S5000x128_S128x128_S5000x128_1_0_0_1_n_n]; rfl
theorem rhsD_1 (j : S5000x128.Idx) (k : D.contr.Idx) : (D.rhsIdx j k 1 : ℕ) = j 1 := by
  simp [DotDims.rhsIdx, D, dot_S5000x128_S128x128_S5000x128_1_0_0_1_n_n]; rfl

/-- The contraction index is its one coordinate, below 128. -/
abbrev eD : D.contr.Idx ≃ Fin 128 := contrEquiv1 D 128 rfl rfl

/-- The left operand's index at output (q, j) and contraction position k is (q, k). -/
theorem lhs_at (q : Fin 5000) (j k : Fin 128) : D.lhsIdx (ix2 q j) (eD.symm k) = ix2 q k := by
  funext a
  apply Fin.ext
  match a with
  | ⟨0, _⟩ => exact lhsD_0 _ _
  | ⟨1, _⟩ => exact (lhsD_1 _ _).trans (contrEquiv1_symm_val D 128 rfl rfl k)

/-- The block of h: at (q, j), the sum over k of block (q, k) times weight (j, k), plus the bias at j. -/
theorem pay3_apply (v3 : Vec Ideal S5000x128 .f32) (v6 : Vec Ideal S128x128 .f32) (v10 : Vec Ideal S1x128 .f32)
    (q : Fin 5000) (j : Fin 128) :
    k0_pay3 (F := Ideal) v3 v6 v10 (ix2 q j) = (∑ k : Fin 128, v3 (ix2 q k) * v6 (ix2 j k)) + v10 (ix2 0 j) := by
  unfold k0_pay3
  refine (addf_apply _ _ (ix2 q j)).trans ?_
  congr 1
  · refine (Ideal.matmul_constant_zero_apply D none _ _ (ix2 q j)).trans ?_
    rw [← Equiv.sum_comp eD.symm]
    refine Finset.sum_congr rfl fun k _ => ?_
    congr 1
    · refine (congrFun (shapeCast_self v3 shapeCasts_S5000x128_S5000x128) _).trans ?_
      exact congrArg v3 (lhs_at q j k)
    · refine (transpose_apply [1, 0] _ transposes_S128x128_p1_0_S128x128 _ (ix2 j k) ?_).trans rfl
      intro b
      match b with
      | ⟨0, _⟩ => exact ((rhsD_0 (ix2 q j) (eD.symm k)).trans (contrEquiv1_symm_val D 128 rfl rfl k)).symm
      | ⟨1, _⟩ => exact (rhsD_1 (ix2 q j) (eD.symm k)).symm
  · refine (broadcastTo_apply _ broadcasts_S1x128_S5000x128 (ix2 q j) (ix2 0 j) ?_).trans ?_
    · intro a
      match a with
      | ⟨0, _⟩ => rfl
      | ⟨1, _⟩ => rfl
    · exact congrFun (shapeCast_self v10 shapeCasts_S1x128_S1x128) _

/-- A rank-1 vector viewed as one row, read in that row. -/
theorem row_cast_apply (x : (S128.Idx → EReal)) (j : Fin 128) :
    shapeCast S1x128 x shapeCasts_S128_S1x128 (ix2 0 j) = x (ix1 j) := by
  refine shapeCast_apply x shapeCasts_S128_S1x128 (ix2 0 j) (ix1 j) ?_
  rw [Shape.rowMajor_val_one, Shape.rowMajor_val_two]
  show j.val = 0 * 128 + j.val
  omega

/-- The sum down the rows of a 5000 × 128 block, read at a column. -/
theorem colred_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ q : Fin 5000, src (ix2 q j) := by
  refine (Ideal.multiReduction_add_single src 0x00000000#32 reduces_S5000x128_S128 hφ hacc (ix1 j)).trans ?_
  refine Finset.sum_congr rfl fun q _ => congrArg src ?_
  funext a
  match a with
  | ⟨0, _⟩ => rfl
  | ⟨1, _⟩ => rfl

/-- One point adds the block's column sums to the first accumulator. -/
theorem pay4_apply (v3 : Vec Ideal S5000x128 .f32) (v6 : Vec Ideal S128x128 .f32) (v10 : Vec Ideal S1x128 .f32)
    (v14 : Vec Ideal S1x128 .f32) (j : Fin 128) :
    k0_pay4 (F := Ideal) v3 v6 v10 v14 (ix2 0 j)
      = v14 (ix2 0 j) + ∑ q : Fin 5000, k0_pay3 (F := Ideal) v3 v6 v10 (ix2 q j) := by
  unfold k0_pay4
  refine (congrFun (shapeCast_self _ shapeCasts_S1x128_S1x128) (ix2 0 j)).trans ?_
  refine (addf_apply _ _ (ix2 0 j)).trans ?_
  congr 1
  refine (row_cast_apply _ j).trans ?_
  exact colred_apply _ _ _ j

/-- One point adds the block's column sums of squares to the second accumulator. -/
theorem pay5_apply (v3 : Vec Ideal S5000x128 .f32) (v6 : Vec Ideal S128x128 .f32) (v10 : Vec Ideal S1x128 .f32)
    (v21 : Vec Ideal S1x128 .f32) (j : Fin 128) :
    k0_pay5 (F := Ideal) v3 v6 v10 v21 (ix2 0 j)
      = v21 (ix2 0 j) + ∑ q : Fin 5000, k0_pay3 (F := Ideal) v3 v6 v10 (ix2 q j) * k0_pay3 (F := Ideal) v3 v6 v10 (ix2 q j) := by
  unfold k0_pay5
  refine (congrFun (shapeCast_self _ shapeCasts_S1x128_S1x128) (ix2 0 j)).trans ?_
  refine (addf_apply _ _ (ix2 0 j)).trans ?_
  congr 1
  refine (row_cast_apply _ j).trans ?_
  exact colred_apply _ _ _ j

/-- The value the first point stores first: zero everywhere. -/
theorem pay1_apply (i : S1x128.Idx) : k0_pay1 (F := Ideal) i = 0 := by
  unfold k0_pay1
  refine (congrFun (shapeCast_self _ shapeCasts_S1x128_S1x128) i).trans ?_
  exact Ideal.ofBits_zero_f32

/-- Likewise for the second accumulator. -/
theorem pay2_apply (i : S1x128.Idx) : k0_pay2 (F := Ideal) i = 0 := by
  unfold k0_pay2
  refine (congrFun (shapeCast_self _ shapeCasts_S1x128_S1x128) i).trans ?_
  exact Ideal.ofBits_zero_f32

/-! ## The accumulators as running totals -/

theorem N0 : cfg0.N = 20 := by decide

/-- An entry of the block of h the body computes at point t is the specification's linear map at that row. -/
theorem h_block (c : Dev nD) (t : Fin cfg0.N) (q : Fin 5000) (j : Fin 128) :
    k0_pay3 (F := Ideal) (Stats.iblk0 V c 0 t) (Stats.iblk0 V c 1 t) (Stats.iblk0 V c 2 t) (ix2 q j)
      = hOf V c (Cert.Spec.rowOf t q) j := by
  refine (pay3_apply (Stats.iblk0 V c 0 t) (Stats.iblk0 V c 1 t) (Stats.iblk0 V c 2 t) q j).trans ?_
  unfold hOf Cert.Spec.lin
  congr 1
  · exact Finset.sum_congr rfl fun k _ => congrArg₂ (· * ·) (blk0_read V c t q k) (blk1_read V c t j k)
  · exact blk2_read V c t j

theorem sums_succ (c : Dev nD) (n : ℕ) (hn : n < cfg0.N) :
    Stats.sums V c (n + 1)
      = k0_pay4 (Stats.iblk0 V c 0 ⟨n, hn⟩) (Stats.iblk0 V c 1 ⟨n, hn⟩) (Stats.iblk0 V c 2 ⟨n, hn⟩) (Stats.sums V c n) := by
  rw [Stats.sums]; exact dif_pos hn

theorem sumSqs_succ (c : Dev nD) (n : ℕ) (hn : n < cfg0.N) :
    Stats.sumSqs V c (n + 1)
      = k0_pay5 (Stats.iblk0 V c 0 ⟨n, hn⟩) (Stats.iblk0 V c 1 ⟨n, hn⟩) (Stats.iblk0 V c 2 ⟨n, hn⟩) (Stats.sumSqs V c n) := by
  rw [Stats.sumSqs]; exact dif_pos hn

/-- After n points the first accumulator is the running total of the blocks' column sums. -/
theorem sums_run (c : Dev nD) (j : Fin 128) : ∀ n : ℕ, n ≤ 20 →
    (Stats.sums V c n : Vec Ideal S1x128 .f32) (ix2 0 j)
      = Cert.Spec.runTotal (fun t => if ht : t < 20 then ∑ q : Fin 5000, hOf V c (Cert.Spec.rowOf ⟨t, ht⟩ q) j else 0) n := by
  intro n
  induction n with
  | zero => intro _; exact pay1_apply (ix2 0 j)
  | succ n ih =>
    intro hn
    have hn' : n < cfg0.N := by rw [N0]; omega
    refine (congrFun (sums_succ V c n hn') (ix2 0 j)).trans ?_
    refine (pay4_apply (Stats.iblk0 V c 0 ⟨n, hn'⟩) (Stats.iblk0 V c 1 ⟨n, hn'⟩) (Stats.iblk0 V c 2 ⟨n, hn'⟩)
      (Stats.sums V c n) j).trans ?_
    rw [ih (by omega), Cert.Spec.runTotal]
    congr 1
    rw [dif_pos (show n < 20 by omega)]
    exact Finset.sum_congr rfl fun q _ => h_block V c ⟨n, hn'⟩ q j

/-- After n points the second accumulator is the running total of the blocks' column sums of squares. -/
theorem sumSqs_run (c : Dev nD) (j : Fin 128) : ∀ n : ℕ, n ≤ 20 →
    (Stats.sumSqs V c n : Vec Ideal S1x128 .f32) (ix2 0 j)
      = Cert.Spec.runTotal (fun t => if ht : t < 20 then
          ∑ q : Fin 5000, hOf V c (Cert.Spec.rowOf ⟨t, ht⟩ q) j * hOf V c (Cert.Spec.rowOf ⟨t, ht⟩ q) j else 0) n := by
  intro n
  induction n with
  | zero => intro _; exact pay2_apply (ix2 0 j)
  | succ n ih =>
    intro hn
    have hn' : n < cfg0.N := by rw [N0]; omega
    refine (congrFun (sumSqs_succ V c n hn') (ix2 0 j)).trans ?_
    refine (pay5_apply (Stats.iblk0 V c 0 ⟨n, hn'⟩) (Stats.iblk0 V c 1 ⟨n, hn'⟩) (Stats.iblk0 V c 2 ⟨n, hn'⟩)
      (Stats.sumSqs V c n) j).trans ?_
    rw [ih (by omega), Cert.Spec.runTotal]
    congr 1
    rw [dif_pos (show n < 20 by omega)]
    exact Finset.sum_congr rfl fun q _ =>
      congrArg₂ (· * ·) (h_block V c ⟨n, hn'⟩ q j) (h_block V c ⟨n, hn'⟩ q j)

/-- After the 20 points the first accumulator holds the column sums of h. -/
theorem sums_final (c : Dev nD) (j : Fin 128) :
    Stats.sums V c 20 (ix2 0 j) = Cert.Spec.colSum (hOf V c) j :=
  (sums_run V c j 20 le_rfl).trans (Cert.Spec.colSum_blocks (hOf V c) j).symm

/-- After the 20 points the second accumulator holds the column sums of squares of h. -/
theorem sumSqs_final (c : Dev nD) (j : Fin 128) :
    Stats.sumSqs V c 20 (ix2 0 j) = Cert.Spec.colSumSq (hOf V c) j :=
  (sumSqs_run V c j 20 le_rfl).trans (Cert.Spec.colSumSq_blocks (hOf V c) j).symm

end Cert.KernelIdeal.StatsValue

end
-- ==== Proof.KIStatsArr.lean ====
/-
  What the two output arrays of the first kernel region (the batch statistics) hold when the region returns: the
  column sums of h and the column sums of its squares, accumulated over all 20 blocks of 5000 rows.
  Each output window's block is the whole 1×128 array, at block index (0, 0) whatever the point, and is written back at
  the last point only; there the body has left in the staging buffer the accumulator after 20 points. One write-back of
  the one block that covers the array: the array ends at that accumulator.
  Stated at any float instance and at any contents V of the buffers on entry.
-/
import proofs.«148803_j76647986365164_1_alg».proof.Proof.KIStatsRegion
import Idealize.ShloMosaic.Lib.Pipeline.Value

set_option maxRecDepth 16384

noncomputable section

namespace Cert.KernelIdeal.StatsArr

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-! ## The two output windows: one block, the whole array, written back once -/

/-- Both index maps are constant: block (0, 0) at every point. -/
theorem index_sums (t : Fin cfg0.N) : win0_3.index t = ![0, 0] := rfl
theorem index_sumSqs (t : Fin cfg0.N) : win0_4.index t = ![0, 0] := rfl

/-- A point that writes the column sums back is the last of the 20. -/
theorem last_of_flush_sums (t : Fin cfg0.N) (h : (cfg0.win 3).flush t = true) : t.val = 19 := by
  have h1 := (flush0_3 t).mp h
  have h2 : t.val < 20 := t.isLt
  omega

/-- Likewise for the column sums of squares. -/
theorem last_of_flush_sumSqs (t : Fin cfg0.N) (h : (cfg0.win 4).flush t = true) : t.val = 19 := by
  have h1 := (flush0_4 t).mp h
  have h2 : t.val < 20 := t.isLt
  omega

/-- The last point. -/
abbrev lastPt : Fin cfg0.N := ⟨19, by decide⟩

/-! ## A read through the block is the array's contents: the block's coordinate is index × size + the coordinate inside -/

theorem read_blk_sums (t : Fin cfg0.N) (G : S1x128.Idx → Elt F .f32) : ((cfg0.win 3).blk t).view.read (Elt F) G = G := by
  funext j
  rw [View.read_apply]
  refine congrArg G ?_
  funext a; apply Fin.ext
  have e0 : win0_3.index t (0 : Fin 2) = 0 := rfl
  have e1 : win0_3.index t (1 : Fin 2) = 0 := rfl
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem read_blk_sumSqs (t : Fin cfg0.N) (G : S1x128.Idx → Elt F .f32) : ((cfg0.win 4).blk t).view.read (Elt F) G = G := by
  funext j
  rw [View.read_apply]
  refine congrArg G ?_
  funext a; apply Fin.ext
  have e0 : win0_4.index t (0 : Fin 2) = 0 := rfl
  have e1 : win0_4.index t (1 : Fin 2) = 0 := rfl
  match a with
  | ⟨0, _⟩ => show win0_4.index t (0 : Fin 2) * 1 + 1 * (j 0).val = (j 0).val; omega
  | ⟨1, _⟩ => show win0_4.index t (1 : Fin 2) * 128 + 1 * (j 1).val = (j 1).val; omega

/-! ## Every index of the array lies in the block -/

theorem mem_blk_sums (t : Fin cfg0.N) (i : S1x128.Idx) : i ∈ ((cfg0.win 3).blk t).view.set := by
  show i ∈ ((View.whole main_v22_0).slice (win0_3.rect t)).set
  rw [View.set_slice_whole, Rect.mem_set_unit]
  intro a
  have e0 : win0_3.index t (0 : Fin 2) = 0 := rfl
  have e1 : win0_3.index t (1 : Fin 2) = 0 := rfl
  match a with
  | ⟨0, _⟩ =>
    show win0_3.index t (0 : Fin 2) * 1 ≤ (i 0).val ∧ (i 0).val < win0_3.index t (0 : Fin 2) * 1 + 1
    have hi : (i 0).val < 1 := (i 0).isLt
    omega
  | ⟨1, _⟩ =>
    show win0_3.index t (1 : Fin 2) * 128 ≤ (i 1).val ∧ (i 1).val < win0_3.index t (1 : Fin 2) * 128 + 128
    have hi : (i 1).val < 128 := (i 1).isLt
    omega

theorem mem_blk_sumSqs (t : Fin cfg0.N) (i : S1x128.Idx) : i ∈ ((cfg0.win 4).blk t).view.set := by
  show i ∈ ((View.whole main_v22_1).slice (win0_4.rect t)).set
  rw [View.set_slice_whole, Rect.mem_set_unit]
  intro a
  have e0 : win0_4.index t (0 : Fin 2) = 0 := rfl
  have e1 : win0_4.index t (1 : Fin 2) = 0 := rfl
  match a with
  | ⟨0, _⟩ =>
    show win0_4.index t (0 : Fin 2) * 1 ≤ (i 0).val ∧ (i 0).val < win0_4.index t (0 : Fin 2) * 1 + 1
    have hi : (i 0).val < 1 := (i 0).isLt
    omega
  | ⟨1, _⟩ =>
    show win0_4.index t (1 : Fin 2) * 128 ≤ (i 1).val ∧ (i 1).val < win0_4.index t (1 : Fin 2) * 128 + 128
    have hi : (i 1).val < 128 := (i 1).isLt
    omega

/-! ## What the one write-back writes: the accumulator after 20 points -/

/-- The window is uncut, so what is written back is what the body left: at the last point, the column sums after
    19 + 1 points. -/
theorem flushed_sums (c : Dev nD) (t : Fin cfg0.N) (h : (cfg0.win 3).flush t = true) :
    (Stats.dat0 V c).flushed 3 t = ((cfg0.win 3).blk t).view.read (Elt F) (Stats.sums V c 20) := by
  show (cfg0.win 3).cut (grid0.coords t) ((Stats.dat0 V c).after 3 t) = _
  rw [Stats.after0_3, read_blk_sums, last_of_flush_sums t h]
  rfl

theorem flushed_sumSqs (c : Dev nD) (t : Fin cfg0.N) (h : (cfg0.win 4).flush t = true) :
    (Stats.dat0 V c).flushed 4 t = ((cfg0.win 4).blk t).view.read (Elt F) (Stats.sumSqs V c 20) := by
  show (cfg0.win 4).cut (grid0.coords t) ((Stats.dat0 V c).after 4 t) = _
  rw [Stats.after0_4, read_blk_sumSqs, last_of_flush_sumSqs t h]
  rfl

/-! ## The arrays after the region -/

/-- The column sums' array after the region: the accumulator after all 20 points. -/
theorem arr_sums (c : Dev nD) : (Stats.dat0 V c).arrAt 3 cfg0.N = Stats.sums V c 20 :=
  (Stats.dat0 V c).arrAt_eq_of_cover 3 (Stats.sums V c 20) (fun t h => flushed_sums V c t h)
    (fun i => ⟨lastPt, (flush0_3 lastPt).mpr rfl, mem_blk_sums lastPt i⟩)

/-- The column sums of squares' array after the region, likewise. -/
theorem arr_sumSqs (c : Dev nD) : (Stats.dat0 V c).arrAt 4 cfg0.N = Stats.sumSqs V c 20 :=
  (Stats.dat0 V c).arrAt_eq_of_cover 4 (Stats.sumSqs V c 20) (fun t h => flushed_sumSqs V c t h)
    (fun i => ⟨lastPt, (flush0_4 lastPt).mpr rfl, mem_blk_sumSqs lastPt i⟩)

end Cert.KernelIdeal.StatsArr

end
-- ==== Proof.KIApplyValue.lean ====
/-
  What the normalisation region leaves in its result array, at the ideal values.

  At grid point t the region's first two windows stage rows 5000 t … 5000 t + 4999 of the neighbourhood mean a and of
  the node features x; the other six stage the whole weight matrix w and the bias, mean, variance, scale and shift rows
  b, μ, v, γ, β. Read at an index, the body's one stored value is
      x (5000 t + q) j + max (((∑ k, a (5000 t + q) k · w j k + b j − μ j) · rsqrt (v j + ε)) · γ j + β j) 0:
  the block times the transposed weights is the 128-term dot of a row of a with a row of w, the format changes are the
  identity on extended reals, a 1×128 row broadcast down the block reads its column, and the rest is pointwise.
  So every point writes back its block of ONE function of the whole array's index; row r lies in the block of point
  r / 5000 and every point writes its block back, so after the 20 points the array is that function.
-/
import proofs.«148803_j76647986365164_1_alg».proof.Proof.KIApplyRegion
import proofs.«148803_j76647986365164_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ApplyValue

open Idealize.ShloMosaic Idealize.ShloMosaic.TcCoe Idealize.SL.Sem
open Idealize.ShloMosaic.Pipeline (Dat)
open Cert.KernelIdeal Cert.KernelIdeal.Gen Idealize.ShloMosaic.ValueIdx

/-! ## The contraction's operand indices, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at an index: row `q` of the left operand against column `j` of the right, over the 128 features. -/
theorem mm_apply (a : FVec Ideal S5000x128 .bf16) (b : FVec Ideal S128x128 .bf16) (q : Fin 5000) (j : Fin 128) :
    matmul dot_S5000x128_S128x128_S5000x128_1_0_0_1_n_n none a b (constant (F := Ideal) S5000x128 .f32 0x00000000#32) (ix2 q j)
      = ∑ k : Fin 128, a (ix2 q k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 q j) ((contrEquiv1 dot_S5000x128_S128x128_S5000x128_1_0_0_1_n_n 128 rfl rfl).symm k) = ix2 q k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 q j) ((contrEquiv1 dot_S5000x128_S128x128_S5000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-! ## The body's payload at an index -/

/-- A reciprocal root at an index is the element's. -/
theorem rsqrt_apply {s : Shape} {φ : FTy} (a : FVec Ideal s φ) (i : s.Idx) : rsqrt a i = Ideal.rsqrt (a i) := rfl

/-- The transposed weights at `(k, j)` are the weights at `(j, k)`. -/
theorem tr_apply (x : FVec Ideal S128x128 .bf16) (k j : Fin 128) :
    transpose S128x128 [1, 0] x transposes_S128x128_p1_0_S128x128 (ix2 k j) = x (ix2 j k) :=
  transpose_ix2_apply x transposes_S128x128_p1_0_S128x128 k j

/-- Entry `(q, j)` of the stored block: the feature entry plus the rectified normalised linear map — the 128-term dot
    of row `q` of the neighbourhood-mean block with row `j` of the weights, plus the bias, less the mean, times the
    reciprocal root of the variance plus `ε`, times the scale, plus the shift. -/
theorem pay_apply (xa xf : Vec Ideal S5000x128 .f32) (xw : Vec Ideal S128x128 .f32) (xb xv xm xg xs : Vec Ideal S1x128 .f32)
    (q : Fin 5000) (j : Fin 128) :
    (k1_pay1 xa xw xb xv xm xg xs xf (ix2 q j) : EReal)
      = (xf (ix2 q j) : EReal) + max (((((((∑ k : Fin 128, (xa (ix2 q k) : EReal) * (xw (ix2 j k) : EReal)) + (xb (ix2 0 j) : EReal)) - (xm (ix2 0 j) : EReal))
            * Ideal.rsqrt ((xv (ix2 0 j) : EReal) + Cert.Spec.eps)) * (xg (ix2 0 j) : EReal)) + (xs (ix2 0 j) : EReal))) 0 := by
  unfold k1_pay1
  simp only [shapeCast_self]
  simp only [addf_apply, maximumf_apply, mulf_apply, subf_apply, broadcast_apply, mm_apply, broadcastTo_1b_ab_apply,
    truncf_apply, rsqrt_apply, Ideal.ofBits_def, Ideal.ofBits_zero_f32]
  -- what is left differs from the statement in the transposed weights under the sum only
  exact congrArg (fun s : EReal => (xf (ix2 q j) : EReal) + max ((((s + (xb (ix2 0 j) : EReal)) - (xm (ix2 0 j) : EReal))
      * Ideal.rsqrt ((xv (ix2 0 j) : EReal) + Cert.Spec.eps)) * (xg (ix2 0 j) : EReal) + (xs (ix2 0 j) : EReal)) 0)
    (Finset.sum_congr rfl fun k _ => congrArg (fun y : EReal => (xa (ix2 q k) : EReal) * y) (tr_apply (truncf (F := Ideal) .bf16 xw bitsLt_bf16_f32) k j))

/-! ## The arrays as the region finds them, by coordinates, and the result as one function of them -/

-- the TensorCore's buffer contents when the region is entered
variable (V : (c : Dev nD) → (b : Ref sig .tc) → Buf (Elt Ideal) ((c : Thread nD τ).loc b))

/-- The node features at node `r`, feature `j`. -/
def featOf (c : Dev nD) (r : Fin 100000) (j : Fin 128) : EReal := (V c main_arg0 : S100000x128.Idx → EReal) (ix2 r j)
/-- The neighbourhood mean at node `r`, feature `k`. -/
def aOf (c : Dev nD) (r : Fin 100000) (k : Fin 128) : EReal := (V c main_v18 : S100000x128.Idx → EReal) (ix2 r k)
/-- The weight at output feature `j`, input feature `k`. -/
def wOf (c : Dev nD) (j k : Fin 128) : EReal := (V c main_arg3 : S128x128.Idx → EReal) (ix2 j k)
/-- The bias at feature `j`. -/
def bOf (c : Dev nD) (j : Fin 128) : EReal := (V c main_v19 : S1x128.Idx → EReal) (ix2 0 j)
/-- The column mean the region is handed, at feature `j`. -/
def meanOf (c : Dev nD) (j : Fin 128) : EReal := (V c main_v24 : S1x128.Idx → EReal) (ix2 0 j)
/-- The column variance the region is handed, at feature `j`. -/
def varOf (c : Dev nD) (j : Fin 128) : EReal := (V c main_v28 : S1x128.Idx → EReal) (ix2 0 j)
/-- The scale at feature `j`. -/
def scaleOf (c : Dev nD) (j : Fin 128) : EReal := (V c main_v20 : S1x128.Idx → EReal) (ix2 0 j)
/-- The shift at feature `j`. -/
def shiftOf (c : Dev nD) (j : Fin 128) : EReal := (V c main_v21 : S1x128.Idx → EReal) (ix2 0 j)

/-- The layer's result at node `r`, feature `j`, of the arrays as the region finds them: the feature entry plus the
    rectified normalised linear map of the neighbourhood mean. -/
def outAt (c : Dev nD) (r : Fin 100000) (j : Fin 128) : EReal :=
  featOf V c r j
    + max ((((Cert.Spec.lin (aOf V c) (wOf V c) (bOf V c) r j - meanOf V c j) * Ideal.rsqrt (varOf V c j + Cert.Spec.eps))
        * scaleOf V c j) + shiftOf V c j) 0

/-- The whole result array: `outAt` at the index's two coordinates. -/
def outArr (c : Dev nD) : S100000x128.Idx → EReal := fun i => outAt V c (i 0) (i 1)

/-! ## The windows' blocks read at an index

The block indices, decided once over the 20 grid points: the neighbourhood mean's, the features' and the result's
window sit at block `(t, 0)`, the six whole windows at `(0, 0)`. An element of a block sits in its array at block
index × block size + its coordinate in the block. -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = t.val ∧ win1_8.index t (1 : Fin 2) = 0 :=
  (by decide +kernel : ∀ t : Fin grid1.N, _)

/-- The neighbourhood mean's block at point `t` is rows `5000 t … 5000 t + 4999` of the array. -/
theorem blk0_read (c : Dev nD) (t : Fin cfg1.N) (q : Fin 5000) (k : Fin 128) :
    (Apply.iblk1 V c 0 t : Vec Ideal S5000x128 .f32) (ix2 q k)
      = aOf V c (Cert.Spec.rowOf t q) k := by
  unfold Apply.iblk1 aOf
  rw [View.read_apply]
  show V c main_v18 _ = V c main_v18 _
  congr 1
  funext a
  apply Fin.ext
  match a with
  | ⟨0, _⟩ =>
    show win1_0.index t 0 * 5000 + 1 * q.val = t.val * 5000 + q.val
    rw [(idx0 t).1]; omega
  | ⟨1, _⟩ =>
    show win1_0.index t 1 * 128 + 1 * k.val = k.val
    rw [(idx0 t).2]; omega

/-- The features' block likewise. -/
theorem blk1_read (c : Dev nD) (t : Fin cfg1.N) (q : Fin 5000) (j : Fin 128) :
    (Apply.iblk1 V c 1 t : Vec Ideal S5000x128 .f32) (ix2 q j)
      = featOf V c (Cert.Spec.rowOf t q) j := by
  unfold Apply.iblk1 featOf
  rw [View.read_apply]
  show V c main_arg0 _ = V c main_arg0 _
  congr 1
  funext a
  apply Fin.ext
  match a with
  | ⟨0, _⟩ =>
    show win1_1.index t 0 * 5000 + 1 * q.val = t.val * 5000 + q.val
    rw [(idx1 t).1]; omega
  | ⟨1, _⟩ =>
    show win1_1.index t 1 * 128 + 1 * j.val = j.val
    rw [(idx1 t).2]; omega

/-- The weights' block is the whole matrix. -/
theorem blk2_read (c : Dev nD) (t : Fin cfg1.N) (j k : Fin 128) :
    (Apply.iblk1 V c 2 t : Vec Ideal S128x128 .f32) (ix2 j k) = wOf V c j k := by
  unfold Apply.iblk1 wOf
  rw [View.read_apply]
  show V c main_arg3 _ = V c main_arg3 _
  congr 1
  funext a
  apply Fin.ext
  match a with
  | ⟨0, _⟩ =>
    show win1_2.index t 0 * 128 + 1 * j.val = j.val
    rw [(idx2 t).1]; omega
  | ⟨1, _⟩ =>
    show win1_2.index t 1 * 128 + 1 * k.val = k.val
    rw [(idx2 t).2]; omega

/-- The bias's block is the whole row. -/
theorem blk3_read (c : Dev nD) (t : Fin cfg1.N) (j : Fin 128) :
    (Apply.iblk1 V c 3 t : Vec Ideal S1x128 .f32) (ix2 0 j) = bOf V c j := by
  unfold Apply.iblk1 bOf
  rw [View.read_apply]
  show V c main_v19 _ = V c main_v19 _
  congr 1
  funext a
  apply Fin.ext
  match a with
  | ⟨0, _⟩ =>
    show win1_3.index t 0 * 1 + 1 * 0 = 0
    rw [(idx3 t).1]
  | ⟨1, _⟩ =>
    show win1_3.index t 1 * 128 + 1 * j.val = j.val
    rw [(idx3 t).2]; omega

/-- The column mean's block is the whole row. -/
theorem blk4_read (c : Dev nD) (t : Fin cfg1.N) (j : Fin 128) :
    (Apply.iblk1 V c 4 t : Vec Ideal S1x128 .f32) (ix2 0 j) = meanOf V c j := by
  unfold Apply.iblk1 meanOf
  rw [View.read_apply]
  show V c main_v24 _ = V c main_v24 _
  congr 1
  funext a
  apply Fin.ext
  match a with
  | ⟨0, _⟩ =>
    show win1_4.index t 0 * 1 + 1 * 0 = 0
    rw [(idx4 t).1]
  | ⟨1, _⟩ =>
    show win1_4.index t 1 * 128 + 1 * j.val = j.val
    rw [(idx4 t).2]; omega

/-- The column variance's block is the whole row. -/
theorem blk5_read (c : Dev nD) (t : Fin cfg1.N) (j : Fin 128) :
    (Apply.iblk1 V c 5 t : Vec Ideal S1x128 .f32) (ix2 0 j) = varOf V c j := by
  unfold Apply.iblk1 varOf
  rw [View.read_apply]
  show V c main_v28 _ = V c main_v28 _
  congr 1
  funext a
  apply Fin.ext
  match a with
  | ⟨0, _⟩ =>
    show win1_5.index t 0 * 1 + 1 * 0 = 0
    rw [(idx5 t).1]
  | ⟨1, _⟩ =>
    show win1_5.index t 1 * 128 + 1 * j.val = j.val
    rw [(idx5 t).2]; omega

/-- The scale's block is the whole row. -/
theorem blk6_read (c : Dev nD) (t : Fin cfg1.N) (j : Fin 128) :
    (Apply.iblk1 V c 6 t : Vec Ideal S1x128 .f32) (ix2 0 j) = scaleOf V c j := by
  unfold Apply.iblk1 scaleOf
  rw [View.read_apply]
  show V c main_v20 _ = V c main_v20 _
  congr 1
  funext a
  apply Fin.ext
  match a with
  | ⟨0, _⟩ =>
    show win1_6.index t 0 * 1 + 1 * 0 = 0
    rw [(idx6 t).1]
  | ⟨1, _⟩ =>
    show win1_6.index t 1 * 128 + 1 * j.val = j.val
    rw [(idx6 t).2]; omega

/-- The shift's block is the whole row. -/
theorem blk7_read (c : Dev nD) (t : Fin cfg1.N) (j : Fin 128) :
    (Apply.iblk1 V c 7 t : Vec Ideal S1x128 .f32) (ix2 0 j) = shiftOf V c j := by
  unfold Apply.iblk1 shiftOf
  rw [View.read_apply]
  show V c main_v21 _ = V c main_v21 _
  congr 1
  funext a
  apply Fin.ext
  match a with
  | ⟨0, _⟩ =>
    show win1_7.index t 0 * 1 + 1 * 0 = 0
    rw [(idx7 t).1]
  | ⟨1, _⟩ =>
    show win1_7.index t 1 * 128 + 1 * j.val = j.val
    rw [(idx7 t).2]; omega

/-! ## From the blocks to the array -/

theorem hz : (![0, 0] : Fin 2 → Nat) = fun _ => 0 := funext fun a => by fin_cases a <;> rfl

/-- What the body leaves in the output's buffer at point `t`, entry `(q, j)`: the result at row `5000 t + q`. -/
theorem block_apply (c : Dev nD) (t : Fin cfg1.N) (q : Fin 5000) (j : Fin 128) :
    (Apply.out1_8 (Apply.iblk1 V c 0 t) (Apply.iblk1 V c 1 t) (Apply.iblk1 V c 2 t) (Apply.iblk1 V c 3 t) (Apply.iblk1 V c 4 t)
        (Apply.iblk1 V c 5 t) (Apply.iblk1 V c 6 t) (Apply.iblk1 V c 7 t) : Vec Ideal S5000x128 .f32) (ix2 q j)
      = outAt V c (Cert.Spec.rowOf t q) j := by
  unfold Apply.out1_8
  rw [View.canon_unit_zero hz]
  simp only [View.ld_unit_zero (S := S5000x128) hz, View.ld_unit_zero (S := S128x128) hz, View.ld_unit_zero (S := S1x128) hz]
  refine (pay_apply (Apply.iblk1 V c 0 t) (Apply.iblk1 V c 1 t) (Apply.iblk1 V c 2 t) (Apply.iblk1 V c 3 t) (Apply.iblk1 V c 5 t)
    (Apply.iblk1 V c 4 t) (Apply.iblk1 V c 6 t) (Apply.iblk1 V c 7 t) q j).trans ?_
  unfold outAt Cert.Spec.lin
  exact congrArg₂ (· + ·) (blk1_read V c t q j)
    (congrArg (max · (0 : EReal))
      (congrArg₂ (· + ·)
        (congrArg₂ (· * ·)
          (congrArg₂ (· * ·)
            (congrArg₂ (· - ·)
              (congrArg₂ (· + ·)
                (Finset.sum_congr rfl fun k _ => congrArg₂ (· * ·) (blk0_read V c t q k) (blk2_read V c t j k))
                (blk3_read V c t j))
              (blk4_read V c t j))
            (congrArg Ideal.rsqrt (congrArg (· + Cert.Spec.eps) (blk5_read V c t j))))
          (blk6_read V c t j))
        (blk7_read V c t j)))

/-- So the buffer after point `t`, as one function of the block's index. -/
theorem block_eq (c : Dev nD) (t : Fin cfg1.N) :
    (Apply.out1_8 (Apply.iblk1 V c 0 t) (Apply.iblk1 V c 1 t) (Apply.iblk1 V c 2 t) (Apply.iblk1 V c 3 t) (Apply.iblk1 V c 4 t)
        (Apply.iblk1 V c 5 t) (Apply.iblk1 V c 6 t) (Apply.iblk1 V c 7 t) : Vec Ideal S5000x128 .f32)
      = fun y : S5000x128.Idx => outAt V c (Cert.Spec.rowOf t (y 0)) (y 1) := by
  funext y
  obtain ⟨q, j, rfl⟩ : ∃ (q : Fin 5000) (j : Fin 128), y = ix2 q j := ⟨y 0, y 1, eq_ix2 y⟩
  exact block_apply V c t q j

/-- What point `t` writes back is its block of the whole result array: entry `(q, j)` of the block sits in the array
    at row `5000 t + q`, column `j`. -/
theorem flushed_eq (c : Dev nD) (t : Fin cfg1.N) :
    (Apply.dat1 V c).flushed 8 t = ((cfg1.win 8).blk t).view.read (Elt Ideal) (outArr V c) := by
  show (cfg1.win 8).cut (grid1.coords t) ((Apply.dat1 V c).after 8 t) = _
  rw [Apply.after1_8, block_eq V c t]
  funext y
  show outAt V c (Cert.Spec.rowOf t ⟨(y 0).val, _⟩) ⟨(y 1).val, _⟩
    = outAt V c ((((cfg1.win 8).blk t).view.emb y) 0) ((((cfg1.win 8).blk t).view.emb y) 1)
  refine congrArg₂ (outAt V c) (Fin.ext ?_) (Fin.ext ?_)
  · show t.val * 5000 + (y 0).val = win1_8.index t 0 * 5000 + 1 * (y 0).val
    rw [(idx8 t).1]; omega
  · show (y 1).val = win1_8.index t 1 * 128 + 1 * (y 1).val
    rw [(idx8 t).2]; omega

/-- An index of the array is in point `t`'s block iff each coordinate is in the block's range on its axis. -/
theorem mem_blk (t : Fin cfg1.N) (i : S100000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v29).slice (win1_8.rect t)).set ↔ _
  rw [View.set_slice_whole, Rect.mem_set_unit]
  exact Iff.rfl

/-- Row `r` lies in the block of point `r / 5000`, and every point writes its block back: the blocks cover the array. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_8 _, ?_⟩
  rw [mem_blk]
  obtain ⟨e0, e1⟩ := idx8 ⟨(i 0).val / 5000, ht⟩
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_8.index ⟨(i 0).val / 5000, ht⟩ (1 : Fin 2) * 128 ≤ (i 1).val ∧ (i 1).val < win1_8.index ⟨(i 0).val / 5000, ht⟩ (1 : Fin 2) * 128 + 128
    rw [e1]; omega

/-- The result array after the region is `outArr`. -/
theorem arr_eq (c : Dev nD) : (Apply.dat1 V c).arrAt 8 cfg1.N = outArr V c :=
  (Apply.dat1 V c).arrAt_eq_of_cover 8 (outArr V c) (fun t _ => flushed_eq V c t) (cover)

/-- THE NORMALISATION REGION'S RESULT at node `r`, feature `j`: the feature entry plus the rectified normalised linear map
    of the neighbourhood mean, with the mean, the variance, the scale and the shift the region was handed. -/
theorem out_apply (c : Dev nD) (r : Fin 100000) (j : Fin 128) :
    ((Apply.dat1 V c).arrAt 8 cfg1.N : S100000x128.Idx → EReal) (ix2 r j)
      = featOf V c r j
        + max ((((Cert.Spec.lin (aOf V c) (wOf V c) (bOf V c) r j - meanOf V c j) * Ideal.rsqrt (varOf V c j + Cert.Spec.eps))
            * scaleOf V c j) + shiftOf V c j) 0 :=
  congrFun (arr_eq V c) (ix2 r j)

end Cert.KernelIdeal.ApplyValue

end
-- ==== Proof.KIKernelValue.lean ====
/-
  The kernel program's result against the layer's mathematics, over the extended reals.

  The first stretch of host operations leaves the neighbourhood mean of the launch contents; neither region nor the
  second stretch writes it, the features, the weights, or the bias, scale and shift rows. So the linear map whose
  columns the statistics region sums, and the one the normalisation region recomputes, are both the linear map h of the
  launch contents. The statistics region leaves the column sums of h and of its squares; the second stretch divides
  them by the node count and subtracts the squared mean: the column mean of h, and its variance in the moment form. The
  normalisation region's output is then, entry by entry, the layer of the specification at that variance.
-/
import proofs.«148803_j76647986365164_1_alg».proof.Proof.KIHostValue
import proofs.«148803_j76647986365164_1_alg».proof.Proof.KIStatsValue
import proofs.«148803_j76647986365164_1_alg».proof.Proof.KIStatsArr
import proofs.«148803_j76647986365164_1_alg».proof.Proof.KIApplyValue
import proofs.«148803_j76647986365164_1_alg».proof.Proof.Spec
import Idealize.ShloMosaic.Lib.ValueIdx

set_option maxRecDepth 16384

noncomputable section

open scoped BigOperators

namespace Cert.KernelIdeal.KernelValue

open Idealize.ShloMosaic Idealize.ShloMosaic.TcCoe
open Idealize.SL.Sem
open Idealize.ShloMosaic.ValueIdx
open Cert.KernelIdeal Cert.KernelIdeal.Gen

variable (m : (ℓ : Loc nD τ sig) → Buf (Elt Ideal) ℓ)

/-! ## The neighbourhood mean and the linear map of the launch contents -/

/-- The neighbourhood mean of the features as launched, along the two edge-index vectors as launched. -/
def aggK (c : Dev nD) : FVec Ideal S100000x128 .f32 :=
  Cert.Spec.agg scatter_S100000_S1000000x1_S1000000_n_0_0_1
    gather_S100000x128_S1000000x1_S1000000x128_1_0_n_n_0_1_1128
    scatter_S100000x128_S1000000x1_S1000000x128_1_0_0_1
    Facts₀.bcast_S_S1000000 Facts₀.bcast_S_S100000 Facts₀.bcast_S1000000_S1000000x1_0 Facts₀.bcast_S_S100000x128
    Facts₀.bcast_S100000_S100000x1_0 Facts₀.bcast_S100000x1_S100000x128_0_1
    (m ((c : Thread nD τ).loc main_arg0)) (m ((c : Thread nD τ).loc main_arg1)) (m ((c : Thread nD τ).loc main_arg2))

/-- The linear map of that neighbourhood mean, the weights as launched and the bias as launched. -/
def hK (c : Dev nD) : Fin 100000 → Fin 128 → EReal :=
  Cert.Spec.lin (fun r k => aggK m c (ix2 r k))
    (fun j k => (m ((c : Thread nD τ).loc main_arg3) : S128x128.Idx → EReal) (ix2 j k))
    (fun j => (m ((c : Thread nD τ).loc main_arg4) : S128.Idx → EReal) (ix1 j))

/-! ## The three operands of the linear map, as each region finds them -/

/-- The statistics region finds the neighbourhood mean in the buffer of %18, -/
theorem a_V1 (c : Dev nD) : StatsValue.aOf (Run.V1 m) c = fun r k => aggK m c (ix2 r k) :=
  funext fun r => funext fun k => congrFun (HostValue.W1_agg m c) (ix2 r k)
/-- the weights as launched, -/
theorem w_V1 (c : Dev nD) :
    StatsValue.wOf (Run.V1 m) c = fun j k => (m ((c : Thread nD τ).loc main_arg3) : S128x128.Idx → EReal) (ix2 j k) :=
  funext fun j => funext fun k => congrFun (HostValue.W1_arg3 m c) (ix2 j k)
/-- and the bias as launched, laid out as a row. -/
theorem b_V1 (c : Dev nD) :
    StatsValue.bOf (Run.V1 m) c = fun j => (m ((c : Thread nD τ).loc main_arg4) : S128.Idx → EReal) (ix1 j) :=
  funext fun j => HostValue.W1_bias m c j

/-- So the linear map whose columns the statistics region sums is that of the launch contents. -/
theorem hOf_V1 (c : Dev nD) : StatsValue.hOf (Run.V1 m) c = hK m c := by
  unfold StatsValue.hOf hK
  rw [a_V1, w_V1, b_V1]

/-- The normalisation region finds the same three: nothing between the first stretch and it writes them. -/
theorem a_V3 (c : Dev nD) :
    (fun r k => (Run.V3 m c main_v18 : S100000x128.Idx → EReal) (ix2 r k)) = fun r k => aggK m c (ix2 r k) :=
  funext fun r => funext fun k =>
    (congrFun (HostValue.W3_keep_agg m c) (ix2 r k)).trans (congrFun (HostValue.W1_agg m c) (ix2 r k))
theorem w_V3 (c : Dev nD) :
    (fun j k => (Run.V3 m c main_arg3 : S128x128.Idx → EReal) (ix2 j k))
      = fun j k => (m ((c : Thread nD τ).loc main_arg3) : S128x128.Idx → EReal) (ix2 j k) :=
  funext fun j => funext fun k =>
    (congrFun (HostValue.W3_keep_arg3 m c) (ix2 j k)).trans (congrFun (HostValue.W1_arg3 m c) (ix2 j k))
theorem b_V3 (c : Dev nD) :
    (fun j => (Run.V3 m c main_v19 : S1x128.Idx → EReal) (ix2 0 j))
      = fun j => (m ((c : Thread nD τ).loc main_arg4) : S128.Idx → EReal) (ix1 j) :=
  funext fun j => (congrFun (HostValue.W3_keep_bias m c) (ix2 0 j)).trans (HostValue.W1_bias m c j)

/-- The linear map the normalisation region recomputes is that of the launch contents. -/
theorem lin_V3 (c : Dev nD) :
    Cert.Spec.lin (fun r k => (Run.V3 m c main_v18 : S100000x128.Idx → EReal) (ix2 r k))
      (fun j k => (Run.V3 m c main_arg3 : S128x128.Idx → EReal) (ix2 j k))
      (fun j => (Run.V3 m c main_v19 : S1x128.Idx → EReal) (ix2 0 j)) = hK m c := by
  unfold hK
  rw [a_V3, w_V3, b_V3]

/-- The features, the scale row and the shift row, as the normalisation region finds them. -/
theorem feat_V3 (c : Dev nD) (r : Fin 100000) (j : Fin 128) :
    (Run.V3 m c main_arg0 : S100000x128.Idx → EReal) (ix2 r j)
      = (m ((c : Thread nD τ).loc main_arg0) : S100000x128.Idx → EReal) (ix2 r j) :=
  (congrFun (HostValue.W3_keep_arg0 m c) (ix2 r j)).trans (congrFun (HostValue.W1_arg0 m c) (ix2 r j))
theorem scale_V3 (c : Dev nD) (j : Fin 128) :
    (Run.V3 m c main_v20 : S1x128.Idx → EReal) (ix2 0 j) = (m ((c : Thread nD τ).loc main_arg5) : S128.Idx → EReal) (ix1 j) :=
  (congrFun (HostValue.W3_keep_scale m c) (ix2 0 j)).trans (HostValue.W1_scale m c j)
theorem shift_V3 (c : Dev nD) (j : Fin 128) :
    (Run.V3 m c main_v21 : S1x128.Idx → EReal) (ix2 0 j) = (m ((c : Thread nD τ).loc main_arg6) : S128.Idx → EReal) (ix1 j) :=
  (congrFun (HostValue.W3_keep_shift m c) (ix2 0 j)).trans (HostValue.W1_shift m c j)

/-! ## The two column sums the statistics region leaves, then the mean and the variance -/

/-- The first output array of the statistics region holds the column sums of the linear map. -/
theorem sum_row (c : Dev nD) (j : Fin 128) :
    (Run.W2 m c (Proc.devRef .tc main_v22_0) : S1x128.Idx → EReal) (ix2 0 j) = Cert.Spec.colSum (hK m c) j := by
  have e : (Run.W2 m c (Proc.devRef .tc main_v22_0) : S1x128.Idx → EReal) = Stats.sums (Run.V1 m) c 20 :=
    (Run.W2_arr m c 3).trans (StatsArr.arr_sums (Run.V1 m) c)
  rw [e, StatsValue.sums_final (Run.V1 m) c j, hOf_V1]

/-- The second holds the column sums of its squares. -/
theorem sumSq_row (c : Dev nD) (j : Fin 128) :
    (Run.W2 m c (Proc.devRef .tc main_v22_1) : S1x128.Idx → EReal) (ix2 0 j) = Cert.Spec.colSumSq (hK m c) j := by
  have e : (Run.W2 m c (Proc.devRef .tc main_v22_1) : S1x128.Idx → EReal) = Stats.sumSqs (Run.V1 m) c 20 :=
    (Run.W2_arr m c 4).trans (StatsArr.arr_sumSqs (Run.V1 m) c)
  rw [e, StatsValue.sumSqs_final (Run.V1 m) c j, hOf_V1]

/-- The mean row the normalisation region finds is the column mean of the linear map. -/
theorem mean_V3 (c : Dev nD) (j : Fin 128) :
    (Run.V3 m c main_v24 : S1x128.Idx → EReal) (ix2 0 j) = Cert.Spec.mean (hK m c) j := by
  unfold Cert.Spec.mean
  rw [← sum_row m c j]
  exact HostValue.W3_mean m c j

/-- The variance row it finds is the second moment less the squared mean. -/
theorem var_V3 (c : Dev nD) (j : Fin 128) :
    (Run.V3 m c main_v28 : S1x128.Idx → EReal) (ix2 0 j) = Cert.Spec.varMoment (hK m c) j := by
  unfold Cert.Spec.varMoment Cert.Spec.mean
  rw [← sum_row m c j, ← sumSq_row m c j]
  exact HostValue.W3_var m c j

/-! ## The result -/

/-- The layer's formula from its six ingredients at one entry. -/
theorem layer_of_parts (feat h : Fin 100000 → Fin 128 → EReal) (v γ β : Fin 128 → EReal) (r : Fin 100000) (j : Fin 128)
    (x0 hl mu vr g s : EReal) (h0 : x0 = feat r j) (h1 : hl = h r j) (h2 : mu = Cert.Spec.mean h j) (h3 : vr = v j)
    (h4 : g = γ j) (h5 : s = β j) :
    x0 + max ((((hl - mu) * Ideal.rsqrt (vr + Cert.Spec.eps)) * g) + s) 0 = Cert.Spec.layer feat h v γ β r j := by
  subst h0 h1 h2 h3 h4 h5
  rfl

/-- The kernel program's result, entry by entry: the layer of the specification, of the launch contents, with the
    variance in its moment form. -/
theorem result_eq (c : Dev nD) (r : Fin 100000) (j : Fin 128) :
    ((Apply.dat1 (Run.V3 m) c).arrAt 8 cfg1.N : S100000x128.Idx → EReal) (ix2 r j)
      = Cert.Spec.layer (fun r j => (m ((c : Thread nD τ).loc main_arg0) : S100000x128.Idx → EReal) (ix2 r j)) (hK m c)
          (Cert.Spec.varMoment (hK m c)) (fun j => (m ((c : Thread nD τ).loc main_arg5) : S128.Idx → EReal) (ix1 j))
          (fun j => (m ((c : Thread nD τ).loc main_arg6) : S128.Idx → EReal) (ix1 j)) r j :=
  (ApplyValue.out_apply (Run.V3 m) c r j).trans
    (layer_of_parts _ (hK m c) (Cert.Spec.varMoment (hK m c)) _ _ r j _ _ _ _ _ _
      (feat_V3 m c r j) (congrFun (congrFun (lin_V3 m c) r) j) (mean_V3 m c j) (var_V3 m c j) (scale_V3 m c j)
      (shift_V3 m c j))

end Cert.KernelIdeal.KernelValue

end
-- ==== Proof.RefValue.lean ====
/-
  The reference's result after the neighbourhood mean, read against the specification at an index, over the extended
  reals.

  Each stage is read at an index. The transposed weights at (k, j) are the weights at (j, k); the host's dot at (r, j)
  is the sum over the one contracted axis of the left operand at (r, k) times the right at (k, j), with no accumulator;
  a vector of 128 entries laid out as a row and repeated down the rows reads its j-th entry at (r, j); a column's sum
  over the rows, started from the zero pattern, is the column's sum. The count the variance divides by, the pattern of
  100000.0 less the integer zero read as a float, is the node count, which is above zero: the comparison that guards
  the division holds and the selection keeps the quotient. So the linear part is the specification's linear map, the
  mean part its column mean, the variance part its mean squared deviation, and the last part the normalisation, the
  rectifier and the residual sum as the specification writes them.
-/
import proofs.«148803_j76647986365164_1_alg».proof.Proof.RefRun
import proofs.«148803_j76647986365164_1_alg».proof.Proof.Spec
import proofs.«148803_j76647986365164_1_alg».proof.Proof.Algebra
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.RefRun Idealize.ShloMosaic Idealize.ShloMosaic.ValueIdx
open Facts₀ Facts

/-! ## The layout operations read at an index -/

/-- The transposed weights at (k, j) are the weights at (j, k). -/
theorem transpose_w_apply (w : FVec Ideal S128x128 .f32) (k j : Fin 128) :
    transpose S128x128 [1, 0] w transposes_S128x128_S128x128_1_0 (ix2 k j) = w (ix2 j k) :=
  transpose_apply [1, 0] w transposes_S128x128_S128x128_1_0 (ix2 k j) (ix2 j k)
    (fun b => by match b with | ⟨0, _⟩ => rfl | ⟨1, _⟩ => rfl)

/-- A vector of 128 entries laid out as one row. -/
theorem row_apply (x : FVec Ideal S128 .f32) (z : Fin 1) (j : Fin 128) :
    broadcastInDim S1x128 ![1] bcast_S128_S1x128_1 x (ix2 z j) = x (ix1 j) :=
  broadcastInDim_apply ![1] bcast_S128_S1x128_1 x (ix2 z j) (ix1 j)
    (fun a => by match a with | ⟨0, _⟩ => rfl)

/-- One row repeated down the 100000 rows. -/
theorem rows_apply (y : FVec Ideal S1x128 .f32) (r : Fin 100000) (j : Fin 128) :
    broadcastInDim S100000x128 ![0, 1] bcast_S1x128_S100000x128_0_1 y (ix2 r j) = y (ix2 0 j) :=
  broadcastInDim_apply ![0, 1] bcast_S1x128_S100000x128_0_1 y (ix2 r j) (ix2 0 j)
    (fun a => by match a with | ⟨0, _⟩ => rfl | ⟨1, _⟩ => rfl)

/-- A scalar repeated over any shape. -/
theorem splat_apply {α : Type} {t : Shape} (h : S_.BroadcastsInDim t (![] : Fin 0 → Fin t.rank)) (x : S_.Idx → α) (i : t.Idx) :
    broadcastInDim t ![] h x i = x ix0 :=
  broadcastInDim_apply ![] h x i ix0 (fun a => a.elim0)

/-- The host's quotient and reciprocal square root at an index. -/
theorem hostDivf_apply {s : Shape} (x y : FVec Ideal s .f32) (i : s.Idx) : Host.divf (F := Ideal) x y i = Ideal.div (x i) (y i) := rfl
theorem hostRsqrt_apply {s : Shape} (x : FVec Ideal s .f32) (i : s.Idx) : Host.rsqrt (F := Ideal) x i = Ideal.rsqrt (x i) := rfl

/-! ## The linear map read at an index

  The dot's dimension numbers contract the left operand's axis 1 with the right operand's axis 0 and keep the left's axis 0
  and the right's axis 1: at the output index (r, j) and the contraction index k the operands are read at (r, k) and (k, j). -/

theorem lhs_kept (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem lhs_contracted (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem rhs_contracted (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem rhs_kept (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The host's dot at (r, j): the sum over k of the left operand at (r, k) times the right at (k, j). -/
theorem dot_apply (x : FVec Ideal S100000x128 .f32) (y : FVec Ideal S128x128 .f32) (r : Fin 100000) (j : Fin 128) :
    Host.dotGeneral (F := Ideal) dot_S100000x128_S128x128_S100000x128_1_0_0_1_n_n none x y (ix2 r j)
      = ∑ k : Fin 128, x (ix2 r k) * y (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j)
      ((contrEquiv1 dot_S100000x128_S128x128_S100000x128_1_0_0_1_n_n 128 rfl rfl).symm k) = ix2 r k := funext fun a => Fin.ext (by
    match a with
    | ⟨0, _⟩ => exact lhs_kept _ _
    | ⟨1, _⟩ => exact (lhs_contracted _ _).trans hk)
  have er : dot_S100000x128_S128x128_S100000x128_1_0_0_1_n_n.rhsIdx (ix2 r j)
      ((contrEquiv1 dot_S100000x128_S128x128_S100000x128_1_0_0_1_n_n 128 rfl rfl).symm k) = ix2 k j := funext fun a => Fin.ext (by
    match a with
    | ⟨0, _⟩ => exact (rhs_contracted _ _).trans hk
    | ⟨1, _⟩ => exact rhs_kept _ _)
  rw [el, er]

/-! ## A column's sum -/

/-- The host's sum over the rows, from the zero pattern: the column's sum. -/
theorem colSum_apply (h : FVec Ideal S100000x128 .f32) (j : Fin 128) :
    Host.reduceAdd (F := Ideal) h (constant (F := Ideal) S_ .f32 0x00000000#32) reducesTo_S100000x128_S128_d0 h_S_ (ix1 j)
      = ∑ r : Fin 100000, h (ix2 r j) := by
  simp only [Host.reduceAdd, Ideal.hostReduceAdd_def]
  rw [Ideal.hostReduceAdd_single reducesTo_S100000x128_S128_d0 (by decide)]
  rw [constant_apply, Ideal.ofBits_zero_f32, zero_add]
  refine Finset.sum_congr rfl fun k _ => ?_
  exact congrArg h (funext fun a => Fin.ext (by match a with | ⟨0, _⟩ => rfl | ⟨1, _⟩ => rfl))

/-! ## The count the variance divides by, and the guard on it -/

/-- The pattern of 100000.0 less the integer 0 read as a float: the node count. -/
theorem count_apply :
    subf (constant (F := Ideal) S_ .f32 0x47C35000#32) (sitofp (F := Ideal) .f32 (constantI S_ 32 0#32)) ix0 = Cert.Spec.cnt := by
  rw [subf_apply, constant_apply, sitofp_apply]
  have e : (FloatOps.sitofp (F := Ideal) .f32 ((constantI S_ 32 0#32 : IVec S_ 32) ix0) : EReal) = 0 := by
    show (((0#32 : BitVec 32).toInt : ℝ) : EReal) = 0
    simp
  rw [e, sub_zero]
  rfl

/-- The count is above zero, so the comparison that guards the division holds. -/
theorem count_pos :
    cmpf .ogt (subf (constant (F := Ideal) S_ .f32 0x47C35000#32) (sitofp (F := Ideal) .f32 (constantI S_ 32 0#32)))
      (constant (F := Ideal) S_ .f32 0x00000000#32) ix0 = 1#1 := by
  rw [cmpf_apply, count_apply, constant_apply, Ideal.cmpf_def, Ideal.ofBits_zero_f32]
  have hpos : (0 : EReal) < Cert.Spec.cnt := by
    rw [Cert.Spec.cnt_eq]
    exact_mod_cast (by norm_num : (0 : ℝ) < 100000)
  show BitVec.ofBool (decide ((0 : EReal) < Cert.Spec.cnt)) = 1#1
  rw [decide_eq_true hpos]
  rfl

/-! ## Each part read at an index -/

/-- The linear part at (r, j) is the specification's linear map of the three operands read by coordinates. -/
theorem linPart_apply (a : FVec Ideal S100000x128 .f32) (w : FVec Ideal S128x128 .f32) (b : FVec Ideal S128 .f32)
    (r : Fin 100000) (j : Fin 128) :
    linPart a w b (ix2 r j)
      = Cert.Spec.lin (fun r k => a (ix2 r k)) (fun j k => w (ix2 j k)) (fun j => b (ix1 j)) r j := by
  dsimp only [linPart, Cert.Spec.lin]
  rw [addf_apply, dot_apply, rows_apply, row_apply]
  refine congrArg (· + b (ix1 j)) (Finset.sum_congr rfl fun k _ => ?_)
  rw [transpose_w_apply]

/-- The column mean at j is the specification's mean of the column. -/
theorem meanPart_apply (h : FVec Ideal S100000x128 .f32) (j : Fin 128) :
    meanPart h (ix1 j) = Cert.Spec.mean (fun r j => h (ix2 r j)) j := by
  dsimp only [meanPart]
  rw [hostDivf_apply, colSum_apply, splat_apply, constant_apply]
  rfl

/-- The variance part at j is the specification's mean squared deviation of the column: the guard holds, so the
    selection keeps the quotient; the deviations are taken from the column mean; the count is the node count. -/
theorem varPart_apply (h : FVec Ideal S100000x128 .f32) (j : Fin 128) :
    varPart h (ix1 j) = Cert.Spec.varCentered (fun r j => h (ix2 r j)) j := by
  dsimp only [varPart]
  rw [select_apply, splat_apply, count_pos, select_one, hostDivf_apply, colSum_apply, splat_apply, count_apply]
  dsimp only [Cert.Spec.varCentered]
  refine congrArg (fun s => Ideal.div s Cert.Spec.cnt) (Finset.sum_congr rfl fun r _ => ?_)
  rw [mulf_apply, subf_apply, rows_apply, hostDivf_apply, row_apply, colSum_apply, splat_apply, constant_apply]
  rfl

/-- The last part at (r, j): the residual, the rectifier, the normalisation, every vector of 128 entries read at j. -/
theorem normPart_apply (feat h : FVec Ideal S100000x128 .f32) (mu va g be : FVec Ideal S128 .f32) (r : Fin 100000) (j : Fin 128) :
    normPart feat h mu va g be (ix2 r j)
      = feat (ix2 r j) + max ((((h (ix2 r j) - mu (ix1 j)) * Ideal.rsqrt (va (ix1 j) + Cert.Spec.eps)) * g (ix1 j)) + be (ix1 j)) 0 := by
  dsimp only [normPart]
  rw [addf_apply, maximumf_apply, addf_apply, mulf_apply, mulf_apply, subf_apply,
    rows_apply, row_apply, rows_apply, row_apply, rows_apply, row_apply, rows_apply, row_apply,
    hostRsqrt_apply, addf_apply, splat_apply, constant_apply, splat_apply, constant_apply, Ideal.ofBits_zero_f32]
  rfl

/-! ## The reference's result after the neighbourhood mean, read against the specification -/

theorem tail_apply (a feat : FVec Ideal S100000x128 .f32) (w : FVec Ideal S128x128 .f32) (b g be : FVec Ideal S128 .f32)
    (r : Fin 100000) (j : Fin 128) :
    tail a feat w b g be (ix2 r j)
      = Cert.Spec.layer (fun r j => feat (ix2 r j))
          (Cert.Spec.lin (fun r k => a (ix2 r k)) (fun j k => w (ix2 j k)) (fun j => b (ix1 j)))
          (Cert.Spec.varCentered (Cert.Spec.lin (fun r k => a (ix2 r k)) (fun j k => w (ix2 j k)) (fun j => b (ix1 j))))
          (fun j => g (ix1 j)) (fun j => be (ix1 j)) r j := by
  have hlin : (fun r j => linPart a w b (ix2 r j))
      = Cert.Spec.lin (fun r k => a (ix2 r k)) (fun j k => w (ix2 j k)) (fun j => b (ix1 j)) :=
    funext fun r => funext fun j => linPart_apply a w b r j
  dsimp only [tail]
  rw [normPart_apply, meanPart_apply, varPart_apply, linPart_apply, hlin]
  rfl

end Cert.ReferenceIdeal.RefValue

end
-- ==== Proof.Bridge.lean ====
/-
  The two programs' results are one array, at the ideal values.

  Both results are, entry by entry, the layer of the specification — the features plus the rectified normalisation of
  h = agg · wᵀ + b — over the same neighbourhood mean agg (the two programs' dimension records have the same fields, so
  it is one term), the same weights, bias, scale and shift. They differ in the variance alone: the second moment less
  the squared mean on one side, the mean squared deviation on the other. The precondition makes every entry of the
  features, the weights and the bias a real number; then every entry of agg is real, so every entry of h is, and on
  real data the two variances agree.
-/
import proofs.«148803_j76647986365164_1_alg».proof.Defs
import proofs.«148803_j76647986365164_1_alg».proof.Proof.Gen.KernelIdeal
import proofs.«148803_j76647986365164_1_alg».proof.Proof.Gen.ReferenceIdeal
import proofs.«148803_j76647986365164_1_alg».proof.Proof.Gen.Pre_finite_inputs
import proofs.«148803_j76647986365164_1_alg».proof.Proof.Algebra
import proofs.«148803_j76647986365164_1_alg».proof.Proof.Finite
import proofs.«148803_j76647986365164_1_alg».proof.Proof.KIKernelValue
import proofs.«148803_j76647986365164_1_alg».proof.Proof.RefRun
import proofs.«148803_j76647986365164_1_alg».proof.Proof.RefValue
import Idealize.ShloMosaic.Lib.ValueIdx

noncomputable section

open scoped BigOperators

namespace Cert.Bridge

open Idealize.ShloMosaic Idealize.ShloMosaic.TcCoe Idealize.SL.Sem Idealize.ShloMosaic.ValueIdx

/-- The neighbourhood mean is one term on both sides: the two programs' dimension records have the same fields. -/
theorem agg_same (feat : FVec Ideal Cert.Spec.SFeat .f32) (src dst : IVec Cert.Spec.SEdges 32) :
    Cert.Spec.agg Cert.KernelIdeal.scatter_S100000_S1000000x1_S1000000_n_0_0_1
        Cert.KernelIdeal.gather_S100000x128_S1000000x1_S1000000x128_1_0_n_n_0_1_1128
        Cert.KernelIdeal.scatter_S100000x128_S1000000x1_S1000000x128_1_0_0_1
        Cert.KernelIdeal.Facts₀.bcast_S_S1000000 Cert.KernelIdeal.Facts₀.bcast_S_S100000
        Cert.KernelIdeal.Facts₀.bcast_S1000000_S1000000x1_0 Cert.KernelIdeal.Facts₀.bcast_S_S100000x128
        Cert.KernelIdeal.Facts₀.bcast_S100000_S100000x1_0 Cert.KernelIdeal.Facts₀.bcast_S100000x1_S100000x128_0_1
        feat src dst
      = Cert.Spec.agg Cert.ReferenceIdeal.scatter_S100000_S1000000x1_S1000000_n_0_0_1
        Cert.ReferenceIdeal.gather_S100000x128_S1000000x1_S1000000x128_1_0_n_n_0_1_1128
        Cert.ReferenceIdeal.scatter_S100000x128_S1000000x1_S1000000x128_1_0_0_1
        Cert.ReferenceIdeal.Facts₀.bcast_S_S1000000 Cert.ReferenceIdeal.Facts₀.bcast_S_S100000
        Cert.ReferenceIdeal.Facts₀.bcast_S1000000_S1000000x1_0 Cert.ReferenceIdeal.Facts₀.bcast_S_S100000x128
        Cert.ReferenceIdeal.Facts₀.bcast_S100000_S100000x1_0 Cert.ReferenceIdeal.Facts₀.bcast_S100000x1_S100000x128_0_1
        feat src dst := rfl

open Cert.KernelIdeal in
/-- Under the precondition the kernel program's result array is the reference's tail of the same neighbourhood mean:
    entry by entry both are the specification's layer, and the two variances agree because h is real. -/
theorem result_bridge
    (m : (ℓ : Loc Cert.KernelIdeal.nD Cert.KernelIdeal.τ Cert.KernelIdeal.sig) → Buf (Elt Ideal) ℓ)
    (hpre : Cert.Pre_KernelIdeal m) (c : Dev Cert.KernelIdeal.nD) :
    ((Cert.KernelIdeal.Apply.dat1 (Cert.KernelIdeal.Run.V3 m) c).arrAt 8 Cert.KernelIdeal.cfg1.N
        : Cert.KernelIdeal.S100000x128.Idx → EReal)
      = Cert.ReferenceIdeal.RefRun.tail
      (Cert.Spec.agg Cert.ReferenceIdeal.scatter_S100000_S1000000x1_S1000000_n_0_0_1
        Cert.ReferenceIdeal.gather_S100000x128_S1000000x1_S1000000x128_1_0_n_n_0_1_1128
        Cert.ReferenceIdeal.scatter_S100000x128_S1000000x1_S1000000x128_1_0_0_1
        Cert.ReferenceIdeal.Facts₀.bcast_S_S1000000 Cert.ReferenceIdeal.Facts₀.bcast_S_S100000
        Cert.ReferenceIdeal.Facts₀.bcast_S1000000_S1000000x1_0 Cert.ReferenceIdeal.Facts₀.bcast_S_S100000x128
        Cert.ReferenceIdeal.Facts₀.bcast_S100000_S100000x1_0 Cert.ReferenceIdeal.Facts₀.bcast_S100000x1_S100000x128_0_1
        (m ((c.tc : Thread nD τ).loc main_arg0)) (m ((c.tc : Thread nD τ).loc main_arg1)) (m ((c.tc : Thread nD τ).loc main_arg2)))
      (m ((c.tc : Thread nD τ).loc main_arg0)) (m ((c.tc : Thread nD τ).loc main_arg3)) (m ((c.tc : Thread nD τ).loc main_arg4))
      (m ((c.tc : Thread nD τ).loc main_arg5)) (m ((c.tc : Thread nD τ).loc main_arg6)) := by
  funext idx
  obtain ⟨r, j, rfl⟩ : ∃ (r : Fin 100000) (j : Fin 128), idx = ix2 r j := ⟨idx 0, idx 1, eq_ix2 idx⟩
  -- the precondition: the features, the weights and the bias are real at every entry
  obtain ⟨hfeat, hw, hb, -, -⟩ := Cert.Finite.real_of_pre _ _ _ _ _ _ _ (hpre c)
  -- so the neighbourhood mean is, and the linear map's output
  have hagg := Cert.Finite.agg_real Cert.ReferenceIdeal.scatter_S100000_S1000000x1_S1000000_n_0_0_1
    Cert.ReferenceIdeal.gather_S100000x128_S1000000x1_S1000000x128_1_0_n_n_0_1_1128
    Cert.ReferenceIdeal.scatter_S100000x128_S1000000x1_S1000000x128_1_0_0_1
    Cert.ReferenceIdeal.Facts₀.bcast_S_S1000000 Cert.ReferenceIdeal.Facts₀.bcast_S_S100000
    Cert.ReferenceIdeal.Facts₀.bcast_S1000000_S1000000x1_0 Cert.ReferenceIdeal.Facts₀.bcast_S_S100000x128
    Cert.ReferenceIdeal.Facts₀.bcast_S100000_S100000x1_0 Cert.ReferenceIdeal.Facts₀.bcast_S100000x1_S100000x128_0_1
    (m ((c.tc : Thread nD τ).loc main_arg0)) (m ((c.tc : Thread nD τ).loc main_arg1)) (m ((c.tc : Thread nD τ).loc main_arg2)) hfeat
  have hreal := Cert.Spec.lin_real _ _ _ (fun r k => hagg (ix2 r k)) (fun j k => hw (ix2 j k)) (fun j => hb (ix1 j))
  rw [Cert.KernelIdeal.KernelValue.result_eq m c r j, Cert.ReferenceIdeal.RefValue.tail_apply]
  have hlin : Cert.KernelIdeal.KernelValue.hK m c = Cert.Spec.lin _ _ _ := rfl
  rw [hlin]
  unfold Cert.KernelIdeal.KernelValue.aggK
  simp only [agg_same]
  rw [show Cert.Spec.varMoment _ = Cert.Spec.varCentered _ from
    funext fun j => Cert.Spec.varMoment_eq_varCentered _ hreal j]

end Cert.Bridge

end
-- ==== Proof.lean ====
/-
  A graph-convolution layer over 100000 nodes with 128 features: the kernel program against its reference.

  Both programs first take, on the host, the neighbourhood mean of the features along the edges (gather the source
  rows, sum them onto the destination rows, divide by the in-degree clamped at one), then `h = mean · Wᵀ + b`, the
  column mean and variance of `h` over the nodes, and `feature + max(((h − μ) · rsqrt(σ² + ε)) · γ + β, 0)`.
  The kernel program does the dense part in two grid regions of 20 blocks of 5000 rows: the first accumulates each
  column's sum and sum of squares block by block in two scratch rows (zeroed at the first block, copied out at the last),
  the host turns them into `μ = Σh/N` and `σ² = Σh²/N − μ²`, the second recomputes `h` and normalises. The reference
  takes `σ² = Σ(h − μ)²/N`.
  At the ideal instance the two results are one function of the arguments: the block sums regroup the column sums
  (addition of extended reals is commutative and associative), and the two forms of the variance agree because every
  entry of `h` is a real number — the precondition makes every float input finite, a gather reads an operand entry, a
  scatter-add is a finite sum, and the clamped in-degree is a nonzero real. The frames: each region's body runs on the
  blocks its windows stage and leaves what its proof data say; the statistics region's invariant carries its two
  accumulators from point to point; no item of @main writes an argument. The idealization rewrote nothing, so
  `preserves` has no conjunct.
-/
import proofs.«148803_j76647986365164_1_alg».proof.Defs
import proofs.«148803_j76647986365164_1_alg».proof.Proof.Gen.Kernel
import proofs.«148803_j76647986365164_1_alg».proof.Proof.Gen.KernelIdeal
import proofs.«148803_j76647986365164_1_alg».proof.Proof.Gen.ReferenceIdeal
import proofs.«148803_j76647986365164_1_alg».proof.Proof.Gen.Pre_finite_inputs
import proofs.«148803_j76647986365164_1_alg».proof.Proof.KFrame
import proofs.«148803_j76647986365164_1_alg».proof.Proof.KIFrame
import proofs.«148803_j76647986365164_1_alg».proof.Proof.RefRun
import proofs.«148803_j76647986365164_1_alg».proof.Proof.Bridge
import Idealize.ShloMosaic.Adequacy
import Idealize.ShloMosaic.Init

noncomputable section

namespace Cert.Proof

open Idealize.ShloMosaic Idealize.SL.Sem

/-- The word-level program runs to the end and leaves its arguments as launched. -/
theorem frame_kernel : Cert.frame_Kernel := fun m ρ _ => Cert.Kernel.Run.frame (F := Bits) m ρ

/-- The idealized program likewise. -/
theorem frame_kernelIdeal : Cert.frame_KernelIdeal := fun m ρ _ => Cert.KernelIdeal.Run.frame (F := Ideal) m ρ

/-- The reference is a straight line of host operations: it runs, and writes no argument. -/
theorem frame_referenceIdeal : Cert.frame_ReferenceIdeal := fun m ρ _ => Cert.ReferenceIdeal.RefRun.frame m ρ

/-- From memories agreeing on the arguments both programs end with the same result array: the kernel program's is
    the normalisation region's output after its write-backs, the reference's its last operation's term, and the two
    are one function of the arguments (`Bridge.result_bridge`, which is where finiteness is used). -/
theorem algebraic : Cert.algebraic_KernelIdeal_ReferenceIdeal := by
  intro m ρ m' ρ' hpre hagree
  refine ⟨fun c => (Cert.KernelIdeal.Apply.dat1 (Cert.KernelIdeal.Run.V3 m) c).arrAt 8 Cert.KernelIdeal.cfg1.N,
    Cert.KernelIdeal.Run.run_result (F := Ideal) m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1,
    (hagree c).2.2.2.2.2.1, (hagree c).2.2.2.2.2.2]
  exact (Cert.Bridge.result_bridge m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
